-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S40x128 : Shape := ⟨2, ![40, 128]⟩
abbrev S40 : Shape := ⟨1, ![40]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  let main_c_6 : IVec S_ 32 := constantI S_ 32 0#32
  let main_v19 : IVec S262144 32 := broadcastInDim S262144 ![] bcast_S_S262144 main_c_6
  let main_v20 : IVec S262144 1 := cmpi .sge main_arg1 main_v19
  let main_c_7 : IVec S_ 32 := constantI S_ 32 40#32
  let main_v21 : IVec S262144 32 := broadcastInDim S262144 ![] bcast_S_S262144 main_c_7
  let main_v22 : IVec S262144 1 := cmpi .slt main_arg1 main_v21
  let main_v23 : IVec S262144 1 := andi main_v20 main_v22
  let main_c_8 : IVec S_ 1 := constantI S_ 1 1#1
  let main_v24 : IVec S_ 1 := (fun x v => Host.reduce IntOp.andi x v reducesTo_S262144_S_d0 h_S_) main_v23 main_c_8
  let main_v25 : IVec S_ 1 := andi main_v18 main_v24
  main_v25

def fn {F : FTy → Type} [FloatOps F] (main_arg0 : FVec F S262144x128 .f32) (main_arg1 : IVec S262144 32) (main_arg2 : FVec F S40x128 .f32) (main_arg3 : IVec S40 1) (main_arg4 : FVec F S40 .f32) (main_arg5 : FVec F S40 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S40x128 .f32 := Host.absf main_arg2
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg4
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40 .f32 := Host.absf main_arg5
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_arg1 main_v13 main_v16
-- ==== Kernel.lean ====
abbrev S262144x128 : Shape := ⟨2, ![262144, 128]⟩
abbrev S262144 : Shape := ⟨1, ![262144]⟩
abbrev S40x128 : Shape := ⟨2, ![40, 128]⟩
abbrev S40 : Shape := ⟨1, ![40]⟩
abbrev S_ : Shape := ⟨0, ![]⟩
abbrev S262144x1 : Shape := ⟨2, ![262144, 1]⟩
abbrev S128 : Shape := ⟨1, ![128]⟩
abbrev S1x128 : Shape := ⟨2, ![1, 128]⟩
abbrev S2x128x128 : Shape := ⟨3, ![2, 128, 128]⟩
abbrev S2x1x128 : Shape := ⟨3, ![2, 1, 128]⟩
abbrev S4096x128 : Shape := ⟨2, ![4096, 128]⟩
abbrev S4096x1 : Shape := ⟨2, ![4096, 1]⟩
abbrev S1x128x128 : Shape := ⟨3, ![1, 128, 128]⟩
abbrev S1x1x128 : Shape := ⟨3, ![1, 1, 128]⟩
abbrev S128x128 : Shape := ⟨2, ![128, 128]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S1x1 : Shape := ⟨2, ![1, 1]⟩
abbrev S40x1 : Shape := ⟨2, ![40, 1]⟩

abbrev nBuf : Space → Nat
  | .hbm => 104
  | .vmem => 22
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S40x128, .f32⟩
  | .hbm, ⟨3, _⟩ => ⟨S40, .i1⟩
  | .hbm, ⟨4, _⟩ => ⟨S40, .f32⟩
  | .hbm, ⟨5, _⟩ => ⟨S40, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S2x128x128, .f32⟩
  | .hbm, ⟨24, _⟩ => ⟨S2x1x128, .f32⟩
  | .hbm, ⟨25, _⟩ => ⟨S2x1x128, .f32⟩
  | .hbm, ⟨26, _⟩ => ⟨S2x1x128, .f32⟩
  | .hbm, ⟨27, _⟩ => ⟨S_, .f32⟩
  | .hbm, ⟨28, _⟩ => ⟨S128x128, .f32⟩
  | .hbm, ⟨29, _⟩ => ⟨S_, .f32⟩
  | .hbm, ⟨30, _⟩ => ⟨S1x128, .f32⟩
  | .hbm, ⟨31, _⟩ => ⟨S128, .f32⟩
  | .hbm, ⟨32, _⟩ => ⟨S_, .f32⟩
  | .hbm, ⟨33, _⟩ => ⟨S1x128, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S1x128, .f32⟩
  | .hbm, ⟨38, _⟩ => ⟨S1x1, .f32⟩
  | .hbm, ⟨39, _⟩ => ⟨S_, .f32⟩
  | .hbm, ⟨40, _⟩ => ⟨S40, .f32⟩
  | .hbm, ⟨41, _⟩ => ⟨S40x128, .f32⟩
  | .hbm, ⟨42, _⟩ => ⟨S_, .f32⟩
  | .hbm, ⟨43, _⟩ => ⟨S40, .f32⟩
  | .hbm, ⟨44, _⟩ => ⟨S40, .f32⟩
  | .hbm, ⟨45, _⟩ => ⟨S40x1, .f32⟩
  | .hbm, ⟨46, _⟩ => ⟨S40x128, .f32⟩
  | .hbm, ⟨47, _⟩ => ⟨S40x128, .f32⟩
  | .hbm, ⟨48, _⟩ => ⟨S_, .f32⟩
  | .hbm, ⟨49, _⟩ => ⟨S40x128, .f32⟩
  | .hbm, ⟨50, _⟩ => ⟨S40x128, .f32⟩
  | .hbm, ⟨51, _⟩ => ⟨S_, .f32⟩
  | .hbm, ⟨52, _⟩ => ⟨S40x128, .f32⟩
  | .hbm, ⟨53, _⟩ => ⟨S40x128, .f32⟩
  | .hbm, ⟨54, _⟩ => ⟨S40x128, .f32⟩
  | .hbm, ⟨55, _⟩ => ⟨S40x1, .i1⟩
  | .hbm, ⟨56, _⟩ => ⟨S40x128, .i1⟩
  | .hbm, ⟨57, _⟩ => ⟨S40x128, .f32⟩
  | .hbm, ⟨58, _⟩ => ⟨S_, .f32⟩
  | .hbm, ⟨59, _⟩ => ⟨S40, .f32⟩
  | .hbm, ⟨60, _⟩ => ⟨S40, .i1⟩
  | .hbm, ⟨61, _⟩ => ⟨S40x1, .i1⟩
  | .hbm, ⟨62, _⟩ => ⟨S40x128, .i1⟩
  | .hbm, ⟨63, _⟩ => ⟨S40x128, .f32⟩
  | .hbm, ⟨64, _⟩ => ⟨S_, .f32⟩
  | .hbm, ⟨65, _⟩ => ⟨S_, .f32⟩
  | .hbm, ⟨66, _⟩ => ⟨S40x128, .f32⟩
  | .hbm, ⟨67, _⟩ => ⟨S_, .f32⟩
  | .hbm, ⟨68, _⟩ => ⟨S40, .f32⟩
  | .hbm, ⟨69, _⟩ => ⟨S40x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S40, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S_, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S2x1x128, .f32⟩
  | .hbm, ⟨90, _⟩ => ⟨S_, .f32⟩
  | .hbm, ⟨91, _⟩ => ⟨S1x128, .f32⟩
  | .hbm, ⟨92, _⟩ => ⟨S1x1, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x1, .i32⟩
  | .local _ .vmem, ⟨3, _⟩ => ⟨S4096x1, .i32⟩
  | .local _ .vmem, ⟨4, _⟩ => ⟨S1x128, .f32⟩
  | .local _ .vmem, ⟨5, _⟩ => ⟨S1x128x128, .f32⟩
  | .local _ .vmem, ⟨6, _⟩ => ⟨S1x128x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S4096x128, .f32⟩
  | .local _ .vmem, ⟨14, _⟩ => ⟨S4096x128, .f32⟩
  | .local _ .vmem, ⟨15, _⟩ => ⟨S4096x1, .i32⟩
  | .local _ .vmem, ⟨16, _⟩ => ⟨S4096x1, .i32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x1x128, .f32⟩
  | .local _ .vmem, ⟨21, _⟩ => ⟨S1x1x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_c_1 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_2 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_cst : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_cst_4 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call3_v0 : Ref sig .tc := ⟨.hbm, 56, rfl⟩
abbrev main_v29 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call4_v0 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_v35 : Ref sig .tc := ⟨.hbm, 66, rfl⟩
abbrev main_cst_11 : Ref sig .tc := ⟨.hbm, 67, rfl⟩
abbrev main_v36 : Ref sig .tc := ⟨.hbm, 68, rfl⟩
abbrev main_v37 : Ref sig .tc := ⟨.hbm, 69, rfl⟩
abbrev main_cst_12 : Ref sig .tc := ⟨.hbm, 70, rfl⟩
abbrev main_v38 : Ref sig .tc := ⟨.hbm, 71, rfl⟩
abbrev main_cst_13 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_v43 : Ref sig .tc := ⟨.hbm, 78, rfl⟩
abbrev main_cst_15 : Ref sig .tc := ⟨.hbm, 79, rfl⟩
abbrev main_v44 : Ref sig .tc := ⟨.hbm, 80, rfl⟩
abbrev main_c_16 : Ref sig .tc := ⟨.hbm, 81, rfl⟩
abbrev main_call5_v0 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_18 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_19 : Ref sig .tc := ⟨.hbm, 94, rfl⟩
abbrev main_v54 : Ref sig .tc := ⟨.hbm, 95, rfl⟩
abbrev main_cst_20 : Ref sig .tc := ⟨.hbm, 96, rfl⟩
abbrev main_v55 : Ref sig .tc := ⟨.hbm, 97, rfl⟩
abbrev main_cst_21 : Ref sig .tc := ⟨.hbm, 98, rfl⟩
abbrev main_v56 : Ref sig .tc := ⟨.hbm, 99, rfl⟩
abbrev main_v57 : Ref sig .tc := ⟨.hbm, 100, rfl⟩
abbrev main_cst_22 : Ref sig .tc := ⟨.hbm, 101, rfl⟩
abbrev main_v58 : Ref sig .tc := ⟨.hbm, 102, rfl⟩
abbrev main_v59 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S262144 : S_.BroadcastsInDim S262144 (![] : Fin 0 → Fin S262144.rank)
  shapeCasts_S262144_S262144x1 : S262144.ShapeCasts S262144x1
  pads_S40_S128_0880 : S40.Pads (![0] : Fin 1 → Nat) ![88] ![0] S128
  h_S_ : 0 < S_.numel
  shapeCasts_S128_S1x128 : S128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  bitsLt_bf16_f32 : FTy.bits .bf16 < FTy.bits .f32
  reduces_S4096x128_S128 : S4096x128.Reduces [0] S128
  reduces_S4096x128_S4096 : S4096x128.Reduces [1] S4096
  shapeCasts_S4096_S4096x1 : S4096.ShapeCasts S4096x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  reducesTo_S2x128x128_S128x128_d0 : S2x128x128.ReducesTo [0] S128x128
  reducesTo_S2x1x128_S1x128_d0 : S2x1x128.ReducesTo [0] S1x128
  shapeCasts_S1x128_S128 : S1x128.ShapeCasts S128
  slices_S1x128_S1x1_0_0 : S1x128.Slices ![0, 0] S1x1
  shapeCasts_S1x1_S_ : S1x1.ShapeCasts S_
  slices_S128_S40_0 : S128.Slices ![0] S40
  slices_S128x128_S40x128_0_0 : S128x128.Slices ![0, 0] S40x128
  bcast_S_S40 : S_.BroadcastsInDim S40 (![] : Fin 0 → Fin S40.rank)
  bcast_S40_S40x1_0 : S40.BroadcastsInDim S40x1 (![0] : Fin 1 → Fin S40x1.rank)
  bcast_S40x1_S40x128_0_1 : S40x1.BroadcastsInDim S40x128 (![0, 1] : Fin 2 → Fin S40x128.rank)
  bcast_S_S40x128 : S_.BroadcastsInDim S40x128 (![] : Fin 0 → Fin S40x128.rank)
  reducesTo_S40x128_S40_d1 : S40x128.ReducesTo [1] S40
  reducesTo_S40x128_S_d0_1 : S40x128.ReducesTo [0, 1] S_
  reducesTo_S40_S_d0 : S40.ReducesTo [0] S_
  pads_S40x128_S128x128_0880_000 : S40x128.Pads (![0, 0] : Fin 2 → Nat) ![88, 0] ![0, 0] S128x128
  transposes_S128x128_S128x128_1_0 : S128x128.Transposes [1, 0] S128x128
  reducesTo_S128x128_S128_d1 : S128x128.ReducesTo [1] S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S4096x128_S4096x128_S128x128_0_0_1_1_n_n_wf : DotDims.WF S4096x128 S4096x128 S128x128 [0] [0] [1] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .i32 = 32 ∨ (Rect.block (s := S262144x1) S4096x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x128x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_3) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x128 : Shape := ⟨2, ![262144, 128]⟩
abbrev S262144 : Shape := ⟨1, ![262144]⟩
abbrev S40x128 : Shape := ⟨2, ![40, 128]⟩
abbrev S40 : Shape := ⟨1, ![40]⟩
abbrev S_ : Shape := ⟨0, ![]⟩
abbrev S262144x1 : Shape := ⟨2, ![262144, 1]⟩
abbrev S40x1 : Shape := ⟨2, ![40, 1]⟩
abbrev S1x40 : Shape := ⟨2, ![1, 40]⟩
abbrev S262144x40 : Shape := ⟨2, ![262144, 40]⟩
abbrev S128x40 : Shape := ⟨2, ![128, 40]⟩

abbrev nBuf : Space → Nat
  | .hbm => 143
  | .vmem => 0
  | .smem => 0
  | _ => 0

abbrev hbmTy0_0 (i : Nat) : BufTy := match i % 128 with
  | 0 => ⟨S262144x128, .f32⟩
  | 1 => ⟨S262144, .i32⟩
  | 2 => ⟨S40x128, .f32⟩
  | 3 => ⟨S40, .i1⟩
  | 4 => ⟨S40, .f32⟩
  | 5 => ⟨S40, .f32⟩
  | 6 => ⟨S_, .f32⟩
  | 7 => ⟨S40x128, .f32⟩
  | 8 => ⟨S262144x1, .i32⟩
  | 9 => ⟨S40x128, .f32⟩
  | 10 => ⟨S_, .f32⟩
  | 11 => ⟨S262144, .f32⟩
  | 12 => ⟨S_, .f32⟩
  | 13 => ⟨S40, .f32⟩
  | 14 => ⟨S262144x1, .i32⟩
  | 15 => ⟨S40, .f32⟩
  | 16 => ⟨S_, .f32⟩
  | 17 => ⟨S40, .f32⟩
  | 18 => ⟨S40, .f32⟩
  | 19 => ⟨S40x1, .f32⟩
  | 20 => ⟨S40x128, .f32⟩
  | 21 => ⟨S40x128, .f32⟩
  | 22 => ⟨S_, .f32⟩
  | 23 => ⟨S40x128, .f32⟩
  | 24 => ⟨S40x128, .f32⟩
  | 25 => ⟨S_, .f32⟩
  | 26 => ⟨S40x128, .f32⟩
  | 27 => ⟨S40x128, .f32⟩
  | 28 => ⟨S40x128, .f32⟩
  | 29 => ⟨S40x1, .i1⟩
  | 30 => ⟨S40x128, .i1⟩
  | 31 => ⟨S40x128, .f32⟩
  | 32 => ⟨S_, .f32⟩
  | 33 => ⟨S40, .f32⟩
  | 34 => ⟨S40, .i1⟩
  | 35 => ⟨S40x1, .i1⟩
  | 36 => ⟨S40x128, .i1⟩
  | 37 => ⟨S40x128, .f32⟩
  | 38 => ⟨S262144x128, .f32⟩
  | 39 => ⟨S_, .f32⟩
  | 40 => ⟨S262144, .f32⟩
  | 41 => ⟨S262144, .f32⟩
  | 42 => ⟨S_, .i32⟩
  | 43 => ⟨S262144, .i32⟩
  | 44 => ⟨S262144, .i1⟩
  | 45 => ⟨S_, .i32⟩
  | 46 => ⟨S262144, .i32⟩
  | 47 => ⟨S262144, .i32⟩
  | 48 => ⟨S262144, .i32⟩
  | 49 => ⟨S262144x1, .i32⟩
  | 50 => ⟨S262144, .f32⟩
  | 51 => ⟨S262144, .f32⟩
  | 52 => ⟨S262144, .f32⟩
  | 53 => ⟨S_, .f32⟩
  | 54 => ⟨S262144, .f32⟩
  | 55 => ⟨S262144, .i1⟩
  | 56 => ⟨S_, .f32⟩
  | 57 => ⟨S262144, .f32⟩
  | 58 => ⟨S262144, .f32⟩
  | 59 => ⟨S262144, .f32⟩
  | 60 => ⟨S_, .f32⟩
  | 61 => ⟨S262144, .f32⟩
  | 62 => ⟨S262144, .f32⟩
  | 63 => ⟨S262144, .f32⟩
  | 64 => ⟨S_, .f32⟩
  | 65 => ⟨S_, .f32⟩
  | 66 => ⟨S_, .f32⟩
  | 67 => ⟨S_, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S262144x1, .i32⟩
  | 76 => ⟨S262144x128, .f32⟩
  | 77 => ⟨S262144x128, .f32⟩
  | 78 => ⟨S262144x128, .f32⟩
  | 79 => ⟨S_, .f32⟩
  | 80 => ⟨S262144, .f32⟩
  | 81 => ⟨S_, .f32⟩
  | 82 => ⟨S_, .f32⟩
  | 83 => ⟨S_, .f32⟩
  | 84 => ⟨S_, .f32⟩
  | 85 => ⟨S262144x128, .f32⟩
  | 86 => ⟨S_, .f32⟩
  | 87 => ⟨S262144, .f32⟩
  | 88 => ⟨S40x128, .f32⟩
  | 89 => ⟨S_, .f32⟩
  | 90 => ⟨S40, .f32⟩
  | 91 => ⟨S262144x1, .f32⟩
  | 92 => ⟨S1x40, .f32⟩
  | 93 => ⟨S262144x40, .f32⟩
  | 94 => ⟨S262144x40, .f32⟩
  | 95 => ⟨S262144x40, .f32⟩
  | 96 => ⟨S128x40, .f32⟩
  | 97 => ⟨S262144x40, .f32⟩
  | 98 => ⟨S_, .f32⟩
  | 99 => ⟨S262144x40, .f32⟩
  | 100 => ⟨S262144x40, .f32⟩
  | 101 => ⟨S262144x40, .f32⟩
  | 102 => ⟨S_, .f32⟩
  | 103 => ⟨S262144x40, .f32⟩
  | 104 => ⟨S262144x40, .f32⟩
  | 105 => ⟨S262144x40, .f32⟩
  | 106 => ⟨S262144x1, .i32⟩
  | 107 => ⟨S40, .i32⟩
  | 108 => ⟨S1x40, .i32⟩
  | 109 => ⟨S262144x40, .i32⟩
  | 110 => ⟨S262144x40, .i32⟩
  | 111 => ⟨S262144x40, .i1⟩
  | 112 => ⟨S_, .f32⟩
  | 113 => ⟨S_, .f32⟩
  | 114 => ⟨S262144x40, .f32⟩
  | 115 => ⟨S262144x40, .f32⟩
  | 116 => ⟨S_, .f32⟩
  | 117 => ⟨S262144, .f32⟩
  | 118 => ⟨S_, .i32⟩
  | 119 => ⟨S262144, .i32⟩
  | 120 => ⟨S262144, .i1⟩
  | 121 => ⟨S_, .i32⟩
  | 122 => ⟨S262144, .i32⟩
  | 123 => ⟨S262144, .i32⟩
  | 124 => ⟨S262144, .i32⟩
  | 125 => ⟨S262144x1, .i32⟩
  | 126 => ⟨S262144, .f32⟩
  | 127 => ⟨S262144, .f32⟩
  | _ => ⟨S262144x128, .f32⟩

abbrev hbmTy0_1 (i : Nat) : BufTy := match i % 128 with
  | 0 => ⟨S_, .f32⟩
  | 1 => ⟨S262144, .f32⟩
  | 2 => ⟨S262144, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_v0 : Ref sig .tc := ⟨.hbm, 36, rfl⟩
abbrev main_v22 : Ref sig .tc := ⟨.hbm, 37, rfl⟩
abbrev main_call2_v0 : Ref sig .tc := ⟨.hbm, 38, rfl⟩
abbrev main_call2_cst : Ref sig .tc := ⟨.hbm, 39, rfl⟩
abbrev main_call2_v1 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_cst_15 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_v55 : Ref sig .tc := ⟨.hbm, 85, rfl⟩
abbrev main_cst_17 : Ref sig .tc := ⟨.hbm, 86, rfl⟩
abbrev main_v56 : Ref sig .tc := ⟨.hbm, 87, rfl⟩
abbrev main_v57 : Ref sig .tc := ⟨.hbm, 88, rfl⟩
abbrev main_cst_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_20 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_21 : Ref sig .tc := ⟨.hbm, 112, rfl⟩
abbrev main_call4_v0 : Ref sig .tc := ⟨.hbm, 113, rfl⟩
abbrev main_call4_v1 : Ref sig .tc := ⟨.hbm, 114, rfl⟩
abbrev main_v78 : Ref sig .tc := ⟨.hbm, 115, rfl⟩
abbrev main_cst_22 : Ref sig .tc := ⟨.hbm, 116, rfl⟩
abbrev main_v79 : Ref sig .tc := ⟨.hbm, 117, rfl⟩
abbrev main_c_23 : Ref sig .tc := ⟨.hbm, 118, rfl⟩
abbrev main_v80 : Ref sig .tc := ⟨.hbm, 119, rfl⟩
abbrev main_v81 : Ref sig .tc := ⟨.hbm, 120, rfl⟩
abbrev main_c_24 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call5_cst : Ref sig .tc := ⟨.hbm, 128, rfl⟩
abbrev main_call5_v0 : Ref sig .tc := ⟨.hbm, 129, rfl⟩
abbrev main_v88 : Ref sig .tc := ⟨.hbm, 130, rfl⟩
abbrev main_cst_25 : Ref sig .tc := ⟨.hbm, 131, rfl⟩
abbrev main_v89 : Ref sig .tc := ⟨.hbm, 132, rfl⟩
abbrev main_cst_26 : Ref sig .tc := ⟨.hbm, 133, rfl⟩
abbrev main_v90 : Ref sig .tc := ⟨.hbm, 134, rfl⟩
abbrev main_cst_27 : Ref sig .tc := ⟨.hbm, 135, rfl⟩
abbrev main_v91 : Ref sig .tc := ⟨.hbm, 136, rfl⟩
abbrev main_cst_28 : Ref sig .tc := ⟨.hbm, 137, rfl⟩
abbrev main_v92 : Ref sig .tc := ⟨.hbm, 138, rfl⟩
abbrev main_v93 : Ref sig .tc := ⟨.hbm, 139, rfl⟩
abbrev main_cst_29 : Ref sig .tc := ⟨.hbm, 140, rfl⟩
abbrev main_v94 : Ref sig .tc := ⟨.hbm, 141, rfl⟩
abbrev main_v95 : Ref sig .tc := ⟨.hbm, 142, rfl⟩

abbrev nD : Nat := 1
abbrev τ : Topo := Topo.v7x

variable {F : FTy → Type} [FloatOps F]

class Facts₀ : Prop where
  bcast_S_S40x128 : S_.BroadcastsInDim S40x128 (![] : Fin 0 → Fin S40x128.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S40 : S_.BroadcastsInDim S40 (![] : Fin 0 → Fin S40.rank)
  bcast_S40_S40x1_0 : S40.BroadcastsInDim S40x1 (![0] : Fin 1 → Fin S40x1.rank)
  bcast_S40x1_S40x128_0_1 : S40x1.BroadcastsInDim S40x128 (![0, 1] : Fin 2 → Fin S40x128.rank)
  reducesTo_S262144x128_S262144_d1 : S262144x128.ReducesTo [1] S262144
  h_S_ : 0 < S_.numel
  reducesTo_S262144_S_d0 : S262144.ReducesTo [0] S_
  reducesTo_S40x128_S40_d1 : S40x128.ReducesTo [1] S40
  bcast_S40_S1x40_1 : S40.BroadcastsInDim S1x40 (![1] : Fin 1 → Fin S1x40.rank)
  bcast_S262144x1_S262144x40_0_1 : S262144x1.BroadcastsInDim S262144x40 (![0, 1] : Fin 2 → Fin S262144x40.rank)
  bcast_S1x40_S262144x40_0_1 : S1x40.BroadcastsInDim S262144x40 (![0, 1] : Fin 2 → Fin S262144x40.rank)
  transposes_S40x128_S128x40_1_0 : S40x128.Transposes [1, 0] S128x40
  bcast_S_S262144x40 : S_.BroadcastsInDim S262144x40 (![] : Fin 0 → Fin S262144x40.rank)
  reducesTo_S262144x40_S262144_d1 : S262144x40.ReducesTo [1] S262144
  scatter_S40x128_S262144x1_S262144x128_1_0_0_1_wf : ScatterDims.WF S40x128 S262144x1 S262144x128 [1] [0] [0] 1
  scatter_S40_S262144x1_S262144_n_0_0_1_wf : ScatterDims.WF S40 S262144x1 S262144 [] [0] [0] 1
  gather_S40_S262144x1_S262144_n_0_n_n_0_1_1_wf : GatherDims.WF S40 S262144x1 S262144 [] [0] [] [0] [] 1 ![1]
  gather_S40x128_S262144x1_S262144x128_1_0_n_n_0_1_1128_wf : GatherDims.WF S40x128 S262144x1 S262144x128 [1] [0] [] [0] [] 1 ![1, 128]
  dot_S262144x128_S128x40_S262144x40_1_0_0_1_n_n_wf : DotDims.WF S262144x128 S128x40 S262144x40 [1] [0] [0] [1] [] []

variable [Facts₀]

def scatter_S40x128_S262144x1_S262144x128_1_0_0_1 : ScatterDims S40x128 S262144x1 S262144x128 where
  updateWindowDims := [1]
  insertedWindowDims := [0]
  scatterDimsToOperandDims := [0]
  indexVectorDim := 1
  wf := scatter_S40x128_S262144x1_S262144x128_1_0_0_1_wf
def scatter_S40_S262144x1_S262144_n_0_0_1 : ScatterDims S40 S262144x1 S262144 where
  updateWindowDims := []
  insertedWindowDims := [0]
  scatterDimsToOperandDims := [0]
  indexVectorDim := 1
  wf := scatter_S40_S262144x1_S262144_n_0_0_1_wf
def gather_S40_S262144x1_S262144_n_0_n_n_0_1_1 : GatherDims S40 S262144x1 S262144 where
  offsetDims := []
  collapsedSliceDims := [0]
  operandBatchingDims := []
  startIndicesBatchingDims := []
  startIndexMap := [0]
  indexVectorDim := 1
  sliceSizes := ![1]
  wf := gather_S40_S262144x1_S262144_n_0_n_n_0_1_1_wf
def gather_S40x128_S262144x1_S262144x128_1_0_n_n_0_1_1128 : GatherDims S40x128 S262144x1 S262144x128 where
  offsetDims := [1]
  collapsedSliceDims := [0]
  operandBatchingDims := []
  startIndicesBatchingDims := []
  startIndexMap := [0]
  indexVectorDim := 1
  sliceSizes := ![1, 128]
  wf := gather_S40x128_S262144x1_S262144x128_1_0_n_n_0_1_1128_wf
def dot_S262144x128_S128x40_S262144x40_1_0_0_1_n_n : DotDims S262144x128 S128x40 S262144x40 where
  lhsContracting := [1]
  rhsContracting := [0]
  lhsNonContracting := [0]
  rhsNonContracting := [1]
  lhsBatch := []
  rhsBatch := []
  wf := dot_S262144x128_S128x40_S262144x40_1_0_0_1_n_n_wf

class Facts : Prop extends Facts₀ where

variable [Facts]
-- ==== Proof.Spec.lean ====
/-
  The value of both programs, written out over the extended reals.

  The loss is  1·(R / B) + ½·(C / B) + 1·(M / B)  with B = 262144 rows of 128 coordinates, 40 classes, and
    R = Σᵢ smooth(‖zᵢ‖ − radius[yᵢ])                        (radial: smooth-L1 between a row's norm and its class radius),
    C = Σᵢ ‖zᵢ − c[yᵢ]‖²                                     (compact: squared distance to the row's own updated centre),
    M = Σᵢ max(margin[yᵢ] − min_{k ≠ yᵢ} ‖zᵢ − c[k]‖, 0)      (margin: distance to the nearest other centre),
  where c is the centre table after one moving-average update by the class means of z.

  The kernel computes these in two passes over row tiles (2 cores × 32 tiles × 4096 rows): pass 1 accumulates, per
  core, the class sums (a one-hot matrix product), the class counts, R and Σ‖z‖²; the host updates the centres and
  forms C in CLOSED FORM  Σ‖z‖² − 2 Σ_k c[k]·sums[k] + Σ_k count[k]·‖c[k]‖²;  pass 2 accumulates M with the class
  minimum taken over SQUARED distances (128 lanes, the 88 padding lanes and the own class masked by +∞) and one square
  root per row.  The reference scatters, gathers and reduces whole arrays.

  This module states each side's value in its own shape (the K-forms follow the kernel's stages, the R-forms the
  reference's operations) over literal index sets; the shared pieces (smooth-L1, the centre update, the final
  combination) are written once.  Float literals stay bit patterns: the same word on both sides is never evaluated.
-/
import Idealize.ShloMosaic.PureOps.Ideal
import Idealize.ShloMosaic.Lib.ValueIdx

noncomputable section

namespace Cert.Spec

open Idealize.ShloMosaic Idealize.ShloMosaic.ValueIdx

/-! ## Index sets and literals -/

abbrev SZ : Shape := ⟨2, ![262144, 128]⟩   -- the embeddings z
abbrev SY : Shape := ⟨1, ![262144]⟩        -- the labels y
abbrev SYc : Shape := ⟨2, ![262144, 1]⟩    -- the labels as a column (the kernel's operand)
abbrev SC : Shape := ⟨2, ![40, 128]⟩       -- a centre table
abbrev SK : Shape := ⟨1, ![40]⟩            -- a per-class vector
abbrev SP : Shape := ⟨2, ![1, 128]⟩        -- a per-class vector padded to 128 lanes, as a row
abbrev SCt : Shape := ⟨2, ![128, 128]⟩     -- the padded centre table, transposed
abbrev SA3 : Shape := ⟨3, ![2, 128, 128]⟩  -- per-core class sums
abbrev SA1 : Shape := ⟨3, ![2, 1, 128]⟩    -- a per-core accumulator row

abbrev zero32 : EReal := Ideal.ofBits .f32 0x00000000#32
abbrev one32 : EReal := Ideal.ofBits .f32 0x3F800000#32
abbrev half32 : EReal := Ideal.ofBits .f32 0x3F000000#32
abbrev two32 : EReal := Ideal.ofBits .f32 0x40000000#32
abbrev p9 : EReal := Ideal.ofBits .f32 0x3F666666#32     -- 1 − momentum, as both programs carry it
abbrev p1 : EReal := Ideal.ofBits .f32 0x3DCCCCCD#32     -- momentum
abbrev nB : EReal := Ideal.ofBits .f32 0x48800000#32     -- the number of rows
abbrev inf32 : EReal := Ideal.ofBits .f32 0x7F800000#32  -- +∞, the initial value of a minimum
/-- The padding value both pads use: the integer zero converted to a float. -/
abbrev padv : EReal := (((0#32 : BitVec 32).toInt : ℝ) : EReal)

/-! ## Shared pieces -/

/-- Smooth-L1 with β = 1 at a difference d: ½d² where |d| < 1, |d| − ½ elsewhere; |d| is max d (−d). -/
def smooth (d : EReal) : EReal :=
  Scalar.select (Ideal.cmp .olt (max d (-d)) one32) (half32 * d * d) (max d (-d) - half32)

/-- The centre update: class mean = sums / max(count, 1); moving average 0.9·centre + 0.1·mean where the class is
    initialised, else the mean; classes with no row keep their centre. -/
def cUpd (sums : Fin 40 → Fin 128 → EReal) (cnt : Fin 40 → EReal) (ctr : SC.Idx → EReal) (ini : SK.Idx → BitVec 1)
    (c : Fin 40) (d : Fin 128) : EReal :=
  Scalar.select (Ideal.cmp .ogt (cnt c) zero32)
    (Scalar.select (ini (ix1 c))
      (p9 * ctr (ix2 c d) + p1 * Ideal.div (sums c d) (max (cnt c) one32))
      (Ideal.div (sums c d) (max (cnt c) one32)))
    (ctr (ix2 c d))

/-- The final combination of the three sums. -/
def total (radSum compSum margSum : EReal) : EReal :=
  (one32 * Ideal.div radSum nB + half32 * Ideal.div compSum nB) + one32 * Ideal.div margSum nB

/-- ‖c[k]‖² as a host row sum (initial value, then the sum). -/
def c2small (cc : Fin 40 → Fin 128 → EReal) (c : Fin 40) : EReal := zero32 + ∑ d : Fin 128, cc c d * cc c d

/-! ## The kernel's side (K-forms) -/

/-- Row k of tile t of core core. -/
def row (core : Fin 2) (t : Fin 32) (k : Fin 4096) : Fin 262144 :=
  ⟨core.val * 131072 + t.val * 4096 + k.val, by omega⟩

/-- The one-hot entry the kernel builds: the comparison bit (y = l), widened and converted to a float. -/
def oh (y : BitVec 32) (l : Fin 128) : EReal :=
  ((((IntOp.cmpi .eq y (BitVec.ofNat 32 l.val)).setWidth 32).toInt : ℝ) : EReal)

/-- The labels the kernel sees: clipped to [0, 39], as a column. -/
def ycOf (y : SY.Idx → BitVec 32) : SYc.Idx → BitVec 32 :=
  fun j => IntOp.minsi 39#32 (IntOp.maxsi 0#32 (y (ix1 (j 0))))

/-- A per-class vector padded to 128 lanes, as a row. -/
def padTab (t : SK.Idx → EReal) : SP.Idx → EReal :=
  fun j => if h : (j 1).val < 40 then t (ix1 ⟨(j 1).val, h⟩) else padv

section Kernel
variable (z : SZ.Idx → EReal) (yc : SYc.Idx → BitVec 32)

/-- Row i's label as the kernel reads it. -/
def lab (i : Fin 262144) : BitVec 32 := yc (ix2 i (0 : Fin 1))
/-- ‖zᵢ‖², a lane sum. -/
def sqK (i : Fin 262144) : EReal := ∑ d : Fin 128, z (ix2 i d) * z (ix2 i d)
/-- A padded table read at row i's label by a one-hot lane sum. -/
def pickK (tab : SP.Idx → EReal) (i : Fin 262144) : EReal :=
  ∑ l : Fin 128, oh (lab yc i) l * tab (ix2 (0 : Fin 1) l)
/-- Row i's radial term. -/
def radRowK (trp : SP.Idx → EReal) (i : Fin 262144) : EReal := smooth (Ideal.sqrt (sqK z i) - pickK yc trp i)
/-- A row function summed over one core's rows, tile by tile. -/
def overTiles (f : Fin 262144 → EReal) (core : Fin 2) : EReal := ∑ t : Fin 32, ∑ k : Fin 4096, f (row core t k)

/-- Pass 1's four per-core results. -/
def sumsAcc : SA3.Idx → EReal := fun j => overTiles (fun i => oh (lab yc i) (j 1) * z (ix2 i (j 2))) (j 0)
def cntAcc : SA1.Idx → EReal := fun j => overTiles (fun i => oh (lab yc i) (j 2)) (j 0)
def radAcc (trp : SP.Idx → EReal) : SA1.Idx → EReal := fun j => overTiles (radRowK z yc trp) (j 0)
def sqAcc : SA1.Idx → EReal := fun j => overTiles (sqK z) (j 0)

/-- Pass 2, over the padded transposed centres ct, their squared norms c2 and the padded margins mgp. -/
def dotK (ct : SCt.Idx → EReal) (i : Fin 262144) (l : Fin 128) : EReal := ∑ k : Fin 128, z (ix2 i k) * ct (ix2 k l)
def d2K (ct : SCt.Idx → EReal) (c2 : SP.Idx → EReal) (i : Fin 262144) (l : Fin 128) : EReal :=
  max ((sqK z i + c2 (ix2 (0 : Fin 1) l)) - two32 * dotK z ct i l) zero32
/-- The mask: the row's own class, or a padding lane (lane ≥ 40). -/
def maskK (y : BitVec 32) (l : Fin 128) : BitVec 1 :=
  IntOp.ori (IntOp.cmpi .eq y (BitVec.ofNat 32 l.val)) (IntOp.xori (IntOp.cmpi .slt (BitVec.ofNat 32 l.val) 40#32) 1#1)
/-- The smallest squared distance to another class: masked lanes hold +∞. -/
def minK (ct : SCt.Idx → EReal) (c2 : SP.Idx → EReal) (i : Fin 262144) : EReal :=
  (Finset.univ : Finset (Fin 128)).fold min inf32 fun l => Scalar.select (maskK (lab yc i) l) ⊤ (d2K z ct c2 i l)
def marginRowK (ct : SCt.Idx → EReal) (c2 mgp : SP.Idx → EReal) (i : Fin 262144) : EReal :=
  max (pickK yc mgp i - Ideal.sqrt (minK z yc ct c2 i)) zero32
def marginAcc (ct : SCt.Idx → EReal) (c2 mgp : SP.Idx → EReal) : SA1.Idx → EReal :=
  fun j => overTiles (marginRowK z yc ct c2 mgp) (j 0)

end Kernel

/-- The host's sums over the two cores (initial value, then the sum), restricted to the 40 classes. -/
def sumsK (S : SA3.Idx → EReal) (c : Fin 40) (d : Fin 128) : EReal :=
  zero32 + ∑ core : Fin 2, S (ix3 core (⟨c.val, by omega⟩ : Fin 128) d)
def cntK (C : SA1.Idx → EReal) (c : Fin 40) : EReal :=
  zero32 + ∑ core : Fin 2, C (ix3 core (0 : Fin 1) (⟨c.val, by omega⟩ : Fin 128))
/-- A lane-replicated accumulator read at lane 0, summed over the two cores. -/
def lane0 (A : SA1.Idx → EReal) : EReal := zero32 + ∑ core : Fin 2, A (ix3 core (0 : Fin 1) (0 : Fin 128))

/-- The compact sum in closed form. -/
def compSumK (sqTot : EReal) (cc sums : Fin 40 → Fin 128 → EReal) (cnt : Fin 40 → EReal) : EReal :=
  (sqTot - two32 * (zero32 + ∑ c : Fin 40, ∑ d : Fin 128, cc c d * sums c d))
    + (zero32 + ∑ c : Fin 40, cnt c * c2small cc c)

/-- The centre table padded to 128 rows. -/
def cpad (cc : Fin 40 → Fin 128 → EReal) (l d : Fin 128) : EReal := if h : l.val < 40 then cc ⟨l.val, h⟩ d else padv
/-- Pass 2's operands: the padded table transposed, and its rows' squared norms as a row. -/
def ctOf (cc : Fin 40 → Fin 128 → EReal) : SCt.Idx → EReal := fun j => cpad cc (j 1) (j 0)
def c2Of (cc : Fin 40 → Fin 128 → EReal) : SP.Idx → EReal := fun j => zero32 + ∑ d : Fin 128, cpad cc (j 1) d * cpad cc (j 1) d

/-- The kernel's result. -/
def kernelTotal (z : SZ.Idx → EReal) (y : SY.Idx → BitVec 32) (ctr : SC.Idx → EReal) (ini : SK.Idx → BitVec 1)
    (tr mg : SK.Idx → EReal) : EReal :=
  let yc := ycOf y
  let sums := sumsK (sumsAcc z yc)
  let cnt := cntK (cntAcc yc)
  let cc := cUpd sums cnt ctr ini
  total (lane0 (radAcc z yc (padTab tr))) (compSumK (lane0 (sqAcc z)) cc sums cnt)
    (lane0 (marginAcc z yc (ctOf cc) (c2Of cc) (padTab mg)))

/-! ## The reference's side (R-forms) -/

section Reference
variable (z : SZ.Idx → EReal) (y : SY.Idx → BitVec 32)

/-- jnp's index normalisation: a negative index counts from the end. -/
def wrap (v : BitVec 32) : BitVec 32 := Scalar.select (IntOp.cmpi .slt v 0#32) (IntOp.addi v 40#32) v
/-- The class a gather reads for row i: the normalised label, read signed and clamped into the table. -/
def gidx (i : Fin 262144) : Fin 40 := ⟨min (wrap (y (ix1 i))).toInt.toNat 39, by omega⟩
/-- The scatter-adds: an update lands on class c when the label, read signed, is c (out-of-range labels are dropped). -/
def sumsR (c : Fin 40) (d : Fin 128) : EReal :=
  zero32 + ∑ i : Fin 262144, if (y (ix1 i)).toInt = (c.val : Int) then z (ix2 i d) else 0
def cntR (c : Fin 40) : EReal :=
  zero32 + ∑ i : Fin 262144, if (y (ix1 i)).toInt = (c.val : Int) then one32 else 0
/-- ‖zᵢ‖² as a host row sum. -/
def sqR (i : Fin 262144) : EReal := zero32 + ∑ d : Fin 128, z (ix2 i d) * z (ix2 i d)
def radSumR (tr : SK.Idx → EReal) : EReal :=
  zero32 + ∑ i : Fin 262144, smooth (Ideal.sqrt (sqR z i) - tr (ix1 (gidx y i)))
def compSumR (cc : Fin 40 → Fin 128 → EReal) : EReal :=
  zero32 + ∑ i : Fin 262144, (zero32 + ∑ d : Fin 128, (z (ix2 i d) - cc (gidx y i) d) * (z (ix2 i d) - cc (gidx y i) d))
/-- The distance to class c by the Gram expansion, clamped at zero before the root. -/
def distR (cc : Fin 40 → Fin 128 → EReal) (i : Fin 262144) (c : Fin 40) : EReal :=
  Ideal.sqrt (max ((sqR z i + c2small cc c) - two32 * ∑ k : Fin 128, z (ix2 i k) * cc c k) zero32)
/-- The distance to the nearest other class: the own class masked by +∞. -/
def minR (cc : Fin 40 → Fin 128 → EReal) (i : Fin 262144) : EReal :=
  (Finset.univ : Finset (Fin 40)).fold min inf32 fun c =>
    Scalar.select (IntOp.cmpi .eq (y (ix1 i)) (BitVec.ofNat 32 c.val)) inf32 (distR z cc i c)
def margSumR (cc : Fin 40 → Fin 128 → EReal) (mg : SK.Idx → EReal) : EReal :=
  zero32 + ∑ i : Fin 262144, max (mg (ix1 (gidx y i)) - minR z y cc i) zero32

end Reference

/-- The reference's result. -/
def refTotal (z : SZ.Idx → EReal) (y : SY.Idx → BitVec 32) (ctr : SC.Idx → EReal) (ini : SK.Idx → BitVec 1)
    (tr mg : SK.Idx → EReal) : EReal :=
  let cc := cUpd (sumsR z y) (cntR y) ctr ini
  total (radSumR z y tr) (compSumR z y cc) (margSumR z y cc mg)

end Cert.Spec

end
-- ==== Proof.Pieces.lean ====
/-
  What one run of each kernel body leaves in its output buffers, as the body's arithmetic applied to the input blocks
  and to what the buffers held: each output gets one covering store, whose value is a function of the loads.
  At a tile that opens a core's sweep the buffers are first zeroed, so the accumulated value there is the zero block.
-/
import proofs.«401768_j5746666242188_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

/-- The literal zero offsets of a rank-2 buffer are the zero function. -/
private theorem hz2 : (![0, 0] : Fin 2 → Nat) = fun _ => 0 := funext fun a => by fin_cases a <;> rfl
/-- The literal zero offsets of a rank-3 buffer are the zero function. -/
private theorem hz3 : (![0, 0, 0] : Fin 3 → Nat) = fun _ => 0 := funext fun a => by fin_cases a <;> rfl

/-! ## Pass 1 -/

theorem out_B_3 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : ¬cond0_0 i) (x0 : Vec F S4096x128 .f32) (x1 : Vec F S4096x1 .i32) (x2 : Vec F S1x128 .f32) (p3 : Vec F S1x128x128 .f32) (p4 p5 p6 : Vec F S1x1x128 .f32) :
    out0_B_3 c i a2 h2 a3 h3 a4 h4 a5 h5 a6 h6 a7 h7 a8 h8 hc x0 x1 x2 p3 p4 p5 p6 = k0_pay8 x0 x1 p3 := by
  unfold out0_B_3
  rw [View.read_writes_eq_canon _ _ _ (cover0_B_3 c i a2 h2 a3 h3 a4 h4 a5 h5 a6 h6 a7 h7 a8 h8 hc x0 x1 x2 p3 p4 p5 p6)]
  unfold kernelRun0_B
  dsimp only
  sl_unfold_words
  rw [View.canon_unit_zero hz3]
  simp only [View.readAt_eq_ld, h2.read_unread, h3.read_unread, h5.read_unread, View.ld_unit_zero (S := S4096x128) hz2, View.ld_unit_zero (S := S4096x1) hz2, View.ld_unit_zero (S := S1x128x128) hz3]
theorem out_B_4 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : ¬cond0_0 i) (x0 : Vec F S4096x128 .f32) (x1 : Vec F S4096x1 .i32) (x2 : Vec F S1x128 .f32) (p3 : Vec F S1x128x128 .f32) (p4 p5 p6 : Vec F S1x1x128 .f32) :
    out0_B_4 c i a2 h2 a3 h3 a4 h4 a5 h5 a6 h6 a7 h7 a8 h8 hc x0 x1 x2 p3 p4 p5 p6 = k0_pay7 x1 p4 := by
  unfold out0_B_4
  rw [View.read_writes_eq_canon _ _ _ (cover0_B_4 c i a2 h2 a3 h3 a4 h4 a5 h5 a6 h6 a7 h7 a8 h8 hc x0 x1 x2 p3 p4 p5 p6)]
  unfold kernelRun0_B
  dsimp only
  sl_unfold_words
  rw [View.canon_unit_zero hz3]
  simp only [View.readAt_eq_ld, h3.read_unread, h6.read_unread, View.ld_unit_zero (S := S4096x1) hz2, View.ld_unit_zero (S := S1x1x128) hz3]
theorem out_B_5 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : ¬cond0_0 i) (x0 : Vec F S4096x128 .f32) (x1 : Vec F S4096x1 .i32) (x2 : Vec F S1x128 .f32) (p3 : Vec F S1x128x128 .f32) (p4 p5 p6 : Vec F S1x1x128 .f32) :
    out0_B_5 c i a2 h2 a3 h3 a4 h4 a5 h5 a6 h6 a7 h7 a8 h8 hc x0 x1 x2 p3 p4 p5 p6 = k0_pay11 (k0_pay6 x1) (k0_pay10 x0) x2 p5 := by
  unfold out0_B_5
  rw [View.read_writes_eq_canon _ _ _ (cover0_B_5 c i a2 h2 a3 h3 a4 h4 a5 h5 a6 h6 a7 h7 a8 h8 hc x0 x1 x2 p3 p4 p5 p6)]
  unfold kernelRun0_B
  dsimp only
  sl_unfold_words
  rw [View.canon_unit_zero hz3]
  simp only [View.readAt_eq_ld, h2.read_unread, h3.read_unread, h4.read_unread, h7.read_unread, View.ld_unit_zero (S := S4096x128) hz2, View.ld_unit_zero (S := S4096x1) hz2, View.ld_unit_zero (S := S1x128) hz2, View.ld_unit_zero (S := S1x1x128) hz3]
theorem out_B_6 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : ¬cond0_0 i) (x0 : Vec F S4096x128 .f32) (x1 : Vec F S4096x1 .i32) (x2 : Vec F S1x128 .f32) (p3 : Vec F S1x128x128 .f32) (p4 p5 p6 : Vec F S1x1x128 .f32) :
    out0_B_6 c i a2 h2 a3 h3 a4 h4 a5 h5 a6 h6 a7 h7 a8 h8 hc x0 x1 x2 p3 p4 p5 p6 = k0_pay12 (k0_pay9 x0) p6 := by
  unfold out0_B_6
  rw [View.read_writes_eq_canon _ _ _ (cover0_B_6 c i a2 h2 a3 h3 a4 h4 a5 h5 a6 h6 a7 h7 a8 h8 hc x0 x1 x2 p3 p4 p5 p6)]
  unfold kernelRun0_B
  dsimp only
  sl_unfold_words
  rw [View.canon_unit_zero hz3]
  simp only [View.readAt_eq_ld, h2.read_unread, h8.read_unread, View.ld_unit_zero (S := S4096x128) hz2, View.ld_unit_zero (S := S1x1x128) hz3]
theorem out_A_3 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : cond0_0 i) (x0 : Vec F S4096x128 .f32) (x1 : Vec F S4096x1 .i32) (x2 : Vec F S1x128 .f32) :
    out0_A_3 c i a2 h2 a3 h3 a4 h4 a5 h5 a6 h6 a7 h7 a8 h8 hc x0 x1 x2 = k0_pay8 x0 x1 k0_pay1 := by
  unfold out0_A_3
  rw [View.read_writes_eq_canon _ _ _ (cover0_A_3 c i a2 h2 a3 h3 a4 h4 a5 h5 a6 h6 a7 h7 a8 h8 hc x0 x1 x2)]
  unfold kernelRun0_A
  dsimp only
  sl_unfold_words
  rw [View.canon_cons_unit_zero (S := S1x128x128) hz3, View.readCov_unit_zero (S := S1x128x128) _ hz3]
  simp only [View.readAt_eq_ld, h2.read_unread, h3.read_unread, View.ld_unit_zero (S := S4096x128) hz2, View.ld_unit_zero (S := S4096x1) hz2]
theorem out_A_4 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : cond0_0 i) (x0 : Vec F S4096x128 .f32) (x1 : Vec F S4096x1 .i32) (x2 : Vec F S1x128 .f32) :
    out0_A_4 c i a2 h2 a3 h3 a4 h4 a5 h5 a6 h6 a7 h7 a8 h8 hc x0 x1 x2 = k0_pay7 x1 k0_pay2 := by
  unfold out0_A_4
  rw [View.read_writes_eq_canon _ _ _ (cover0_A_4 c i a2 h2 a3 h3 a4 h4 a5 h5 a6 h6 a7 h7 a8 h8 hc x0 x1 x2)]
  unfold kernelRun0_A
  dsimp only
  sl_unfold_words
  rw [View.canon_cons_unit_zero (S := S1x1x128) hz3, View.readCov_unit_zero (S := S1x1x128) _ hz3]
  simp only [View.readAt_eq_ld, h3.read_unread, View.ld_unit_zero (S := S4096x1) hz2]
theorem out_A_5 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : cond0_0 i) (x0 : Vec F S4096x128 .f32) (x1 : Vec F S4096x1 .i32) (x2 : Vec F S1x128 .f32) :
    out0_A_5 c i a2 h2 a3 h3 a4 h4 a5 h5 a6 h6 a7 h7 a8 h8 hc x0 x1 x2 = k0_pay11 (k0_pay6 x1) (k0_pay10 x0) x2 k0_pay3 := by
  unfold out0_A_5
  rw [View.read_writes_eq_canon _ _ _ (cover0_A_5 c i a2 h2 a3 h3 a4 h4 a5 h5 a6 h6 a7 h7 a8 h8 hc x0 x1 x2)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, View.ld_unit_zero (S := S4096x128) hz2, View.ld_unit_zero (S := S4096x1) hz2, View.ld_unit_zero (S := S1x128) hz2]
theorem out_A_6 (c : Dev nD) (i : grid0.Coords) (a2 : Memref sig .tc .vmem S4096x128 .f32) (h2 : a2.IsWhole) (a3 : Memref sig .tc .vmem S4096x1 .i32) (h3 : a3.IsWhole) (a4 : Memref sig .tc .vmem S1x128 .f32) (h4 : a4.IsWhole) (a5 : Memref sig .tc .vmem S1x128x128 .f32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole) (hc : cond0_0 i) (x0 : Vec F S4096x128 .f32) (x1 : Vec F S4096x1 .i32) (x2 : Vec F S1x128 .f32) :
    out0_A_6 c i a2 h2 a3 h3 a4 h4 a5 h5 a6 h6 a7 h7 a8 h8 hc x0 x1 x2 = k0_pay12 (k0_pay9 x0) k0_pay4 := by
  unfold out0_A_6
  rw [View.read_writes_eq_canon _ _ _ (cover0_A_6 c i a2 h2 a3 h3 a4 h4 a5 h5 a6 h6 a7 h7 a8 h8 hc x0 x1 x2)]
  unfold kernelRun0_A
  dsimp only
  sl_unfold_words
  rw [View.canon_cons_unit_zero (S := S1x1x128) hz3, View.readCov_unit_zero (S := S1x1x128) _ hz3]
  simp only [View.readAt_eq_ld, h2.read_unread, View.ld_unit_zero (S := S4096x128) hz2]

/-! ## Pass 2 -/

theorem out1_B (c : Dev nD) (i : grid1.Coords) (a2 : Memref sig .tc .vmem S4096x128 .f32) (h2 : a2.IsWhole) (a3 : Memref sig .tc .vmem S4096x1 .i32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S1x1x128 .f32) (h7 : a7.IsWhole) (hc : ¬cond1_0 i) (x0 : Vec F S4096x128 .f32) (x1 : Vec F S4096x1 .i32) (x2 : Vec F S128x128 .f32) (x3 x4 : Vec F S1x128 .f32) (p5 : Vec F S1x1x128 .f32) :
    out1_B_5 c i a2 h2 a3 h3 a4 h4 a5 h5 a6 h6 a7 h7 hc x0 x1 x2 x3 x4 p5 = k1_pay1 (k1_pay4 x1) (k1_pay5 x0 x1 x2 x3) x4 p5 := by
  unfold out1_B_5
  rw [View.read_writes_eq_canon _ _ _ (cover1_B_5 c i a2 h2 a3 h3 a4 h4 a5 h5 a6 h6 a7 h7 hc x0 x1 x2 x3 x4 p5)]
  unfold kernelRun1_B
  dsimp only
  sl_unfold_words
  rw [View.canon_unit_zero hz3]
  simp only [View.readAt_eq_ld, h2.read_unread, h3.read_unread, h4.read_unread, h5.read_unread, h6.read_unread, View.ld_unit_zero (S := S4096x128) hz2, View.ld_unit_zero (S := S4096x1) hz2, View.ld_unit_zero (S := S128x128) hz2, View.ld_unit_zero (S := S1x128) hz2, h7.read_unread, View.ld_unit_zero (S := S1x1x128) hz3]
theorem out1_A (c : Dev nD) (i : grid1.Coords) (a2 : Memref sig .tc .vmem S4096x128 .f32) (h2 : a2.IsWhole) (a3 : Memref sig .tc .vmem S4096x1 .i32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S1x1x128 .f32) (h7 : a7.IsWhole) (hc : cond1_0 i) (x0 : Vec F S4096x128 .f32) (x1 : Vec F S4096x1 .i32) (x2 : Vec F S128x128 .f32) (x3 x4 : Vec F S1x128 .f32) :
    out1_A_5 c i a2 h2 a3 h3 a4 h4 a5 h5 a6 h6 a7 h7 hc x0 x1 x2 x3 x4 = k1_pay1 (k1_pay4 x1) (k1_pay5 x0 x1 x2 x3) x4 k1_pay2 := by
  unfold out1_A_5
  rw [View.read_writes_eq_canon _ _ _ (cover1_A_5 c i a2 h2 a3 h3 a4 h4 a5 h5 a6 h6 a7 h7 hc x0 x1 x2 x3 x4)]
  unfold kernelRun1_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, View.ld_unit_zero (S := S4096x128) hz2, View.ld_unit_zero (S := S4096x1) hz2, View.ld_unit_zero (S := S128x128) hz2, View.ld_unit_zero (S := S1x128) hz2]

end Cert.KernelIdeal.Pieces

end
-- ==== Proof.LibUnitAxes.lean ====
/-
  Layout operations that only add, drop or repeat unit axes, read at an index written by coordinates, and a
  one-axis reduction's re-inserted coordinate.  General: any element type, any extents.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- A [1, 1, a, b] array cast to [a, b] reads, at (i, j), the operand at (0, 0, i, j): the two leading unit axes
    carry no position in the row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j), whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-- An [a] vector cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread back over the row: at (p, c) it is the statistic of row p. -/
theorem column_spread_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- Reducing the second axis of [a, b]: row r's index with column k put back is (r, k). -/
theorem lift_row_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Cert.Lib

end
-- ==== Proof.R0Tile.lean ====
/-
  One tile of pass 1, read at an index over the extended reals: each accumulator gains, on top of what it held,
    class sums:   Σ_k onehot(y_k, class) · z_k,d          (the one-hot matrix product, contracted over the tile's 4096 rows)
    class counts: Σ_k onehot(y_k, lane)
    radial:       Σ_k smooth(√(Σ_d z_k,d²) − Σ_l onehot(y_k, l)·radius_l)   (the same scalar on every lane)
    squares:      Σ_k Σ_d z_k,d²                                              (the same scalar on every lane)
  A change of float format is the identity here, and a sum is a sum whatever its order.
-/
import proofs.«401768_j5746666242188_3_alg».proof.Proof.Gen.KernelIdeal.Skeleton
import proofs.«401768_j5746666242188_3_alg».proof.Proof.Spec
import proofs.«401768_j5746666242188_3_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.R0Tile

open Cert.KernelIdeal Cert.KernelIdeal.Gen Cert.Spec

variable (x0 : Vec Ideal S4096x128 .f32) (x1 : Vec Ideal S4096x1 .i32) (x2 : Vec Ideal S1x128 .f32)

/-- The tile's rows' squared norms. -/
def tsq (k : Fin 4096) : EReal := ∑ d : Fin 128, x0 (ix2 k d) * x0 (ix2 k d)
/-- A padded table read at a tile row's label by the one-hot lane sum. -/
def tpick (tab : Vec Ideal S1x128 .f32) (k : Fin 4096) : EReal :=
  ∑ l : Fin 128, oh (x1 (ix2 k (0 : Fin 1))) l * tab (ix2 (0 : Fin 1) l)

/-- The comparison bit at (row k, lane l): the row's label against the lane number. -/
private theorem pay5_apply (k : Fin 4096) (l : Fin 128) :
    k0_pay5 (F := Ideal) x1 (ix2 k l) = IntOp.cmpi .eq (x1 (ix2 k (0 : Fin 1))) (BitVec.ofNat 32 l.val) := by
  unfold k0_pay5
  show IntOp.cmpi .eq (broadcastTo S4096x128 (shapeCast S4096x1 x1 shapeCasts_S4096x1_S4096x1) broadcasts_S4096x1_S4096x128 (ix2 k l))
      (iota .tc S4096x128 32 [1] iota_S4096x128_d1_w32 (ix2 k l)) = _
  rw [shapeCast_self, Cert.Lib.broadcastTo_a1_ab_apply, iota_single_apply]

/-- The one-hot entry at (row k, lane l). -/
private theorem pay6_apply (k : Fin 4096) (l : Fin 128) :
    k0_pay6 (F := Ideal) x1 (ix2 k l) = oh (x1 (ix2 k (0 : Fin 1))) l := by
  unfold k0_pay6
  show FloatOps.sitofp .f32 ((k0_pay5 (F := Ideal) x1 (ix2 k l)).setWidth 32) = _
  rw [pay5_apply]
  rfl

/-- Reducing the first axis of [a, b]: column c's index with row k put back is (k, c). -/
private theorem lift_col_row {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A row's squared norm, kept as a column: the lane sum of the squares. -/
private theorem pay9_apply (k : Fin 4096) (u : Fin 1) :
    k0_pay9 (F := Ideal) x0 (ix2 k u) = tsq x0 k := by
  unfold k0_pay9
  refine (Cert.Lib.shapeCast_a_a1_apply _ shapeCasts_S4096_S4096x1 k u).trans ?_
  refine (Ideal.multiReduction_add_single (mulf x0 x0) 0x00000000#32 reduces_S4096x128_S4096 (.inl rfl) rfl (ix1 k)).trans ?_
  refine (Finset.sum_congr rfl fun d _ => ?_ :
    ∑ d : Fin 128, (mulf (F := Ideal) (φ := .f32) x0 x0) (reduces_S4096x128_S4096.lift (ix1 k) d)
      = ∑ d : Fin 128, x0 (ix2 k d) * x0 (ix2 k d))
  exact congrArg (fun i => x0 i * x0 i) (Cert.Lib.lift_row_col reduces_S4096x128_S4096 k d)

/-- A row's norm. -/
private theorem pay10_apply (k : Fin 4096) (u : Fin 1) :
    k0_pay10 (F := Ideal) x0 (ix2 k u) = Ideal.sqrt (tsq x0 k) := by
  unfold k0_pay10
  show FloatOps.sqrt (k0_pay9 (F := Ideal) x0 (ix2 k u)) = _
  rw [pay9_apply]
  rfl

/-- The indices of a [1, 4096, 1] block are its 4096 rows. -/
private def colEquiv : S1x4096x1.Idx ≃ Fin 4096 where
  toFun i := i 1
  invFun k := ix3 (0 : Fin 1) k (0 : Fin 1)
  left_inv i := by
    funext a
    match a with
    | ⟨0, _⟩ => exact Fin.ext (by have h : (i 0).val < 1 := (i 0).isLt; show (0 : ℕ) = (i 0).val; omega)
    | ⟨1, _⟩ => rfl
    | ⟨2, _⟩ => exact Fin.ext (by have h : (i 2).val < 1 := (i 2).isLt; show (0 : ℕ) = (i 2).val; omega)
  right_inv k := rfl

/-- A column's total as the kernel takes it: the column viewed as a [1, 4096, 1] block, summed over its second and
    third axes into one number, which is then read out. It is the sum of the column's 4096 entries. -/
private theorem colsum_apply (v : FVec Ideal S4096x1 .f32) :
    extractAt ![0, 0, 0] (shapeCast S1x1x1 (multiReduction (F := Ideal) .add [1, 2] S1 (shapeCast S1x4096x1 v shapeCasts_S4096x1_S1x4096x1)
        0x00000000#32 reduces_S1x4096x1_S1 (.inl rfl) rfl) shapeCasts_S1_S1x1x1) inpos_S1x1x1_p0_0_0
      = ∑ k : Fin 4096, v (ix2 k (0 : Fin 1)) := by
  unfold extractAt
  refine (shapeCast_apply _ shapeCasts_S1_S1x1x1 _ (ix1 (0 : Fin 1)) (by
    rw [Shape.rowMajor_val_one, Shape.rowMajor_val_three]; rfl)).trans ?_
  refine (Ideal.multiReduction_add_total _ 0x00000000#32 reduces_S1x4096x1_S1 (by decide) (.inl rfl) rfl _).trans ?_
  refine (Equiv.sum_comp colEquiv.symm _).symm.trans ?_
  refine Finset.sum_congr rfl fun k _ => ?_
  exact shapeCast_ab_1ab_apply v shapeCasts_S4096x1_S1x4096x1 0 k 0

theorem pay12_apply (p : Vec Ideal S1x1x128 .f32) (l : Fin 128) :
    k0_pay12 (F := Ideal) (k0_pay9 x0) p (ix3 (0 : Fin 1) (0 : Fin 1) l)
      = p (ix3 (0 : Fin 1) (0 : Fin 1) l) + ∑ k : Fin 4096, tsq x0 k := by
  unfold k0_pay12
  refine (shapeCast_ab_1ab_apply _ shapeCasts_S1x128_S1x1x128 0 0 l).trans ?_
  refine (addf_apply _ _ _).trans ?_
  refine congrArg₂ (· + ·) ?_ ?_
  · exact shapeCast_1ab_ab_apply p shapeCasts_S1x1x128_S1x128 0 l
  · refine (colsum_apply (k0_pay9 (F := Ideal) x0)).trans ?_
    exact Finset.sum_congr rfl fun k _ => pay9_apply x0 k 0

theorem pay7_apply (p : Vec Ideal S1x1x128 .f32) (l : Fin 128) :
    k0_pay7 (F := Ideal) x1 p (ix3 (0 : Fin 1) (0 : Fin 1) l)
      = p (ix3 (0 : Fin 1) (0 : Fin 1) l) + ∑ k : Fin 4096, oh (x1 (ix2 k (0 : Fin 1))) l := by
  unfold k0_pay7
  refine (shapeCast_ab_1ab_apply _ shapeCasts_S1x128_S1x1x128 0 0 l).trans ?_
  refine (addf_apply _ _ _).trans ?_
  refine congrArg₂ (· + ·) ?_ ?_
  · exact shapeCast_1ab_ab_apply p shapeCasts_S1x1x128_S1x128 0 l
  · refine (shapeCast_a_1a_apply _ shapeCasts_S128_S1x128 0 l).trans ?_
    refine (Ideal.multiReduction_add_single (k0_pay6 (F := Ideal) x1) 0x00000000#32 reduces_S4096x128_S128 (.inl rfl) rfl (ix1 l)).trans ?_
    refine (Finset.sum_congr rfl fun k _ => ?_ :
      ∑ k : Fin 4096, k0_pay6 (F := Ideal) x1 (reduces_S4096x128_S128.lift (ix1 l) k) = ∑ k : Fin 4096, oh (x1 (ix2 k (0 : Fin 1))) l)
    exact (congrArg (k0_pay6 (F := Ideal) x1) (lift_col_row reduces_S4096x128_S128 l k)).trans (pay6_apply x1 k l)

/-! The one-hot matrix product contracts the tile's rows: axis 0 of both operands. At output index (cls, d) and row k
    the left operand is read at (k, cls), the right one at (k, d). -/
private theorem lhs_mm_0 (i : S128x128.Idx) (q : dot_S4096x128_S4096x128_S128x128_0_0_1_1_n_n.contr.Idx) :
    (dot_S4096x128_S4096x128_S128x128_0_0_1_1_n_n.lhsIdx i q 0).val = (q ⟨0, by decide⟩).val :=
  dot_S4096x128_S4096x128_S128x128_0_0_1_1_n_n.lhsIdx_val_of_single rfl i q
private theorem lhs_mm_1 (i : S128x128.Idx) (q : dot_S4096x128_S4096x128_S128x128_0_0_1_1_n_n.contr.Idx) :
    (dot_S4096x128_S4096x128_S128x128_0_0_1_1_n_n.lhsIdx i q 1).val = (i 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl
private theorem rhs_mm_0 (i : S128x128.Idx) (q : dot_S4096x128_S4096x128_S128x128_0_0_1_1_n_n.contr.Idx) :
    (dot_S4096x128_S4096x128_S128x128_0_0_1_1_n_n.rhsIdx i q 0).val = (q ⟨0, by decide⟩).val :=
  dot_S4096x128_S4096x128_S128x128_0_0_1_1_n_n.rhsIdx_val_of_single rfl i q
private theorem rhs_mm_1 (i : S128x128.Idx) (q : dot_S4096x128_S4096x128_S128x128_0_0_1_1_n_n.contr.Idx) :
    (dot_S4096x128_S4096x128_S128x128_0_0_1_1_n_n.rhsIdx i q 1).val = (i 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- The matrix product into a zero accumulator, read at (cls, d): the sum over the tile's rows of the products. -/
private theorem mm_apply (a b : FVec Ideal S4096x128 .bf16) (cls d : Fin 128) :
    matmul (F := Ideal) dot_S4096x128_S4096x128_S128x128_0_0_1_1_n_n none a b (constant (F := Ideal) S128x128 .f32 0x00000000#32) (ix2 cls d)
      = ∑ k : Fin 4096, a (ix2 k cls) * b (ix2 k d) := by
  simp only [matmul]
  rw [Ideal.matmul_constant_zero_apply, ← Equiv.sum_comp (contrEquiv1 dot_S4096x128_S4096x128_S128x128_0_0_1_1_n_n 4096 rfl rfl).symm]
  refine Finset.sum_congr rfl fun k _ => ?_
  have hk := contrEquiv1_symm_val dot_S4096x128_S4096x128_S128x128_0_0_1_1_n_n 4096 rfl rfl k
  have el : dot_S4096x128_S4096x128_S128x128_0_0_1_1_n_n.lhsIdx (ix2 cls d) ((contrEquiv1 dot_S4096x128_S4096x128_S128x128_0_0_1_1_n_n 4096 rfl rfl).symm k) = ix2 k cls := funext fun a => Fin.ext (by
    match a with
    | ⟨0, _⟩ => exact (lhs_mm_0 _ _).trans hk
    | ⟨1, _⟩ => exact lhs_mm_1 _ _)
  have er : dot_S4096x128_S4096x128_S128x128_0_0_1_1_n_n.rhsIdx (ix2 cls d) ((contrEquiv1 dot_S4096x128_S4096x128_S128x128_0_0_1_1_n_n 4096 rfl rfl).symm k) = ix2 k d := funext fun a => Fin.ext (by
    match a with
    | ⟨0, _⟩ => exact (rhs_mm_0 _ _).trans hk
    | ⟨1, _⟩ => exact rhs_mm_1 _ _)
  rw [el, er]

theorem pay8_apply (p : Vec Ideal S1x128x128 .f32) (cls d : Fin 128) :
    k0_pay8 (F := Ideal) x0 x1 p (ix3 (0 : Fin 1) cls d)
      = p (ix3 (0 : Fin 1) cls d) + ∑ k : Fin 4096, oh (x1 (ix2 k (0 : Fin 1))) cls * x0 (ix2 k d) := by
  unfold k0_pay8
  refine (shapeCast_ab_1ab_apply _ shapeCasts_S128x128_S1x128x128 0 cls d).trans ?_
  refine (addf_apply _ _ _).trans ?_
  refine congrArg₂ (· + ·) ?_ ?_
  · exact shapeCast_1ab_ab_apply p shapeCasts_S1x128x128_S128x128 cls d
  · refine (mm_apply _ _ cls d).trans ?_
    refine Finset.sum_congr rfl fun k _ => ?_
    exact congrArg (· * x0 (ix2 k d)) (pay6_apply x1 k cls)

/-- Smooth-L1 of a column, entry by entry: the compare / multiply / select form is the shared function. -/
private theorem smooth_col (v : FVec Ideal S4096x1 .f32) (i : S4096x1.Idx) :
    select (cmpf .olt (absf v) (broadcast S4096x1 (Scalar.ofBits (F := Ideal) .f32 0x3F800000#32)))
      (mulf (mulf (broadcast S4096x1 (Scalar.ofBits (F := Ideal) .f32 0x3F000000#32)) v) v)
      (subf (absf v) (broadcast S4096x1 (Scalar.ofBits (F := Ideal) .f32 0x3F000000#32))) i = smooth (v i) := rfl

/-- The lane sum of a product of two [4096, 128] blocks, kept as a column, at row k. -/
private theorem lanesum_apply (a b : FVec Ideal S4096x128 .f32) (k : Fin 4096) (u : Fin 1) :
    shapeCast S4096x1 (multiReduction (F := Ideal) .add [1] S4096 (mulf a b) 0x00000000#32 reduces_S4096x128_S4096 (.inl rfl) rfl)
        shapeCasts_S4096_S4096x1 (ix2 k u)
      = ∑ l : Fin 128, a (ix2 k l) * b (ix2 k l) := by
  refine (Cert.Lib.shapeCast_a_a1_apply _ shapeCasts_S4096_S4096x1 k u).trans ?_
  refine (Ideal.multiReduction_add_single (mulf a b) 0x00000000#32 reduces_S4096x128_S4096 (.inl rfl) rfl (ix1 k)).trans ?_
  refine (Finset.sum_congr rfl fun l _ => ?_ :
    ∑ l : Fin 128, (mulf a b) (reduces_S4096x128_S4096.lift (ix1 k) l) = ∑ l : Fin 128, a (ix2 k l) * b (ix2 k l))
  exact congrArg (fun i => a i * b i) (Cert.Lib.lift_row_col reduces_S4096x128_S4096 k l)

/-- The radius table read at a row's label: the one-hot row times the table's one row, summed over the lanes. -/
private theorem pick_apply (k : Fin 4096) (u : Fin 1) :
    shapeCast S4096x1 (multiReduction (F := Ideal) .add [1] S4096
        (mulf (k0_pay6 (F := Ideal) x1) (broadcastTo S4096x128 (shapeCast S1x128 x2 shapeCasts_S1x128_S1x128) broadcasts_S1x128_S4096x128))
        0x00000000#32 reduces_S4096x128_S4096 (.inl rfl) rfl) shapeCasts_S4096_S4096x1 (ix2 k u)
      = tpick x1 x2 k := by
  refine (lanesum_apply _ _ k u).trans ?_
  unfold tpick
  refine Finset.sum_congr rfl fun l _ => ?_
  refine congrArg₂ (· * ·) (pay6_apply x1 k l) ?_
  refine (broadcastTo_1b_ab_apply _ broadcasts_S1x128_S4096x128 k l).trans ?_
  rw [shapeCast_self]

theorem pay11_apply (p : Vec Ideal S1x1x128 .f32) (l : Fin 128) :
    k0_pay11 (F := Ideal) (k0_pay6 x1) (k0_pay10 x0) x2 p (ix3 (0 : Fin 1) (0 : Fin 1) l)
      = p (ix3 (0 : Fin 1) (0 : Fin 1) l) + ∑ k : Fin 4096, smooth (Ideal.sqrt (tsq x0 k) - tpick x1 x2 k) := by
  unfold k0_pay11
  refine (shapeCast_ab_1ab_apply _ shapeCasts_S1x128_S1x1x128 0 0 l).trans ?_
  refine (addf_apply _ _ _).trans ?_
  refine congrArg₂ (· + ·) ?_ ?_
  · exact shapeCast_1ab_ab_apply p shapeCasts_S1x1x128_S1x128 0 l
  · refine (broadcast_apply _ _).trans ?_
    refine (colsum_apply _).trans ?_
    refine Finset.sum_congr rfl fun k _ => ?_
    refine (smooth_col _ _).trans ?_
    refine congrArg smooth ?_
    refine (subf_apply _ _ _).trans ?_
    exact congrArg₂ (· - ·) (pay10_apply x0 k 0) (pick_apply x1 x2 k 0)

/-- The four zero blocks a core's first tile starts from. -/
theorem pay1_apply (j : S1x128x128.Idx) : k0_pay1 (F := Ideal) j = zero32 := rfl
theorem pay2_apply (j : S1x1x128.Idx) : k0_pay2 (F := Ideal) j = zero32 := rfl
theorem pay3_apply (j : S1x1x128.Idx) : k0_pay3 (F := Ideal) j = zero32 := rfl
theorem pay4_apply (j : S1x1x128.Idx) : k0_pay4 (F := Ideal) j = zero32 := rfl

end Cert.KernelIdeal.R0Tile

end
-- ==== Proof.R0Value.lean ====
/-
  Pass 1 read as values.  The grid is 2 cores × 32 tiles; each of the four outputs has one block per core, zeroed at the
  core's first tile, added to at every tile and written back when the core's sweep ends.  So after the pass, block
  `core` of each output holds the sum over that core's 32 tiles of the tile's contribution: by induction on the grid
  point (the buffers after point n hold the sum over the tiles from the core's first up to n), then each output array
  is covered by its two blocks.  Tile t of core `core` reads rows core·131072 + t·4096 … of z and of the label column.
-/
import proofs.«401768_j5746666242188_3_alg».proof.Proof.Gen.KernelIdeal.Frame
import proofs.«401768_j5746666242188_3_alg».proof.Proof.Spec
import proofs.«401768_j5746666242188_3_alg».proof.Proof.Pieces
import proofs.«401768_j5746666242188_3_alg».proof.Proof.R0Tile
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b))

/-- The arrays pass 1 reads, and its blocks at a grid point, under their literal types. -/
abbrev zarr (c : Dev nD) : Vec Ideal S262144x128 .f32 := V c main_arg0
abbrev yarr (c : Dev nD) : Vec Ideal S262144x1 .i32 := V c main_v1
abbrev rarr (c : Dev nD) : Vec Ideal S1x128 .f32 := V c main_v3
abbrev xblk (c : Dev nD) (t : Fin cfg0.N) : Vec Ideal S4096x128 .f32 := iblk0 V c 0 t
abbrev yblk (c : Dev nD) (t : Fin cfg0.N) : Vec Ideal S4096x1 .i32 := iblk0 V c 1 t
abbrev rblk (c : Dev nD) (t : Fin cfg0.N) : Vec Ideal S1x128 .f32 := iblk0 V c 2 t

/-- The block index maps over the grid: the two tiled inputs move with the point, the radius row never moves, and each
    output's block is the point's core (point / 32). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- Row k of the tile at grid point p. -/
def rowP (p : Fin 64) (k : Fin 4096) : Fin 262144 := ⟨p.val * 4096 + k.val, by omega⟩

/-- The tile's blocks read in the arrays: entry (k, d) of the block at point t is entry (t·4096 + k, d) of the array. -/
theorem xblk_apply (c : Dev nD) (t : Fin cfg0.N) (ht : t.val < 64) (k : Fin 4096) (d : Fin 128) :
    xblk V c t (ix2 k d) = zarr V c (ix2 (rowP ⟨t.val, ht⟩ k) d) := by
  obtain ⟨e0, e1, -⟩ := idx_facts t
  show V c main_arg0 (((cfg0.win 0).blk t).view.emb (ix2 k d)) = V c main_arg0 (ix2 (rowP ⟨t.val, ht⟩ k) d)
  refine congrArg (V c main_arg0) ?_
  funext a; apply Fin.ext
  match a with
  | ⟨0, _⟩ => show win0_0.index t (0 : Fin 2) * 4096 + 1 * k.val = t.val * 4096 + k.val; rw [e0]; omega
  | ⟨1, _⟩ => show win0_0.index t (1 : Fin 2) * 128 + 1 * d.val = d.val; rw [e1]; omega

theorem yblk_apply (c : Dev nD) (t : Fin cfg0.N) (ht : t.val < 64) (k : Fin 4096) :
    yblk V c t (ix2 k (0 : Fin 1)) = yarr V c (ix2 (rowP ⟨t.val, ht⟩ k) (0 : Fin 1)) := by
  obtain ⟨-, -, e0, e1, -⟩ := idx_facts t
  show V c main_v1 (((cfg0.win 1).blk t).view.emb (ix2 k (0 : Fin 1))) = V c main_v1 (ix2 (rowP ⟨t.val, ht⟩ k) (0 : Fin 1))
  refine congrArg (V c main_v1) ?_
  funext a; apply Fin.ext
  match a with
  | ⟨0, _⟩ => show win0_1.index t (0 : Fin 2) * 4096 + 1 * k.val = t.val * 4096 + k.val; rw [e0]; omega
  | ⟨1, _⟩ => show win0_1.index t (1 : Fin 2) * 1 + 1 * 0 = 0; rw [e1]

theorem rblk_apply (c : Dev nD) (t : Fin cfg0.N) (l : Fin 128) :
    rblk V c t (ix2 (0 : Fin 1) l) = rarr V c (ix2 (0 : Fin 1) l) := by
  obtain ⟨-, -, -, -, e0, e1, -⟩ := idx_facts t
  show V c main_v3 (((cfg0.win 2).blk t).view.emb (ix2 (0 : Fin 1) l)) = V c main_v3 (ix2 (0 : Fin 1) l)
  refine congrArg (V c main_v3) ?_
  funext a; apply Fin.ext
  match a with
  | ⟨0, _⟩ => show win0_2.index t (0 : Fin 2) * 1 + 1 * 0 = 0; rw [e0]
  | ⟨1, _⟩ => show win0_2.index t (1 : Fin 2) * 128 + 1 * l.val = l.val; rw [e1]; omega

/-! ## A running sum that restarts at every multiple of 32 -/

/-- The accumulation over the grid's points: restart at a point ≡ 0 (mod 32), else add to what the point before left. -/
def acc (f : ℕ → EReal) : ℕ → EReal
  | 0 => f 0
  | n + 1 => if (n + 1) % 32 = 0 then f (n + 1) else acc f n + f (n + 1)

theorem acc_reset (f : ℕ → EReal) (n : ℕ) (h : n % 32 = 0) : acc f n = f n := by
  cases n with
  | zero => rfl
  | succ n => exact if_pos h

theorem acc_step (f : ℕ → EReal) (n : ℕ) (h : ¬(n + 1) % 32 = 0) : acc f (n + 1) = acc f n + f (n + 1) := if_neg h

/-- Within one sweep of 32 points the running sum is the sum over the sweep's points so far. -/
theorem acc_sweep (f : ℕ → EReal) (q : ℕ) : ∀ j : ℕ, j < 32 → acc f (q * 32 + j) = ∑ i ∈ Finset.range (j + 1), f (q * 32 + i)
  | 0, _ => by
    rw [acc_reset f (q * 32 + 0) (by omega), Finset.sum_range_one]
  | j + 1, h => by
    rw [show q * 32 + (j + 1) = (q * 32 + j) + 1 from rfl, acc_step f (q * 32 + j) (by omega), acc_sweep f q j (by omega),
      Finset.sum_range_succ (fun i => f (q * 32 + i)) (j + 1)]
    rfl

theorem acc_last (f : ℕ → EReal) (q : ℕ) : acc f (q * 32 + 31) = ∑ t : Fin 32, f (q * 32 + t.val) := by
  rw [acc_sweep f q 31 (by omega), Finset.sum_range]

/-- A quantity carried from point to point that restarts at the points ≡ 0 (mod 32) and otherwise grows by the
    point's contribution is the restarting running sum of the contributions. -/
theorem eq_acc_of_steps (g : (n : ℕ) → n < cfg0.N → EReal) (f : ℕ → EReal)
    (hA : ∀ t : Fin cfg0.N, t.val % 32 = 0 → g t.val t.isLt = f t.val)
    (hB : ∀ t : Fin cfg0.N, ¬t.val % 32 = 0 →
      g t.val t.isLt = g (t.val - 1) (Nat.lt_of_le_of_lt (Nat.sub_le _ _) t.isLt) + f t.val) :
    ∀ (n : ℕ) (h : n < cfg0.N), g n h = acc f n := by
  intro n
  induction n with
  | zero => intro h; exact (hA ⟨0, h⟩ rfl).trans (acc_reset f 0 rfl).symm
  | succ n ih =>
    intro h
    by_cases h0 : (n + 1) % 32 = 0
    · exact (hA ⟨n + 1, h⟩ h0).trans (acc_reset f (n + 1) h0).symm
    · rw [acc_step f n h0, ← ih (Nat.lt_of_succ_lt h)]
      exact hB ⟨n + 1, h⟩ h0

/-- The zero word is the extended reals' zero. -/
theorem zero32_add (x : EReal) : Spec.zero32 + x = x := by
  rw [show Spec.zero32 = 0 from Ideal.ofBits_zero_f32, zero_add]

/-! ## The class sums -/

/-- The tile at point p's contribution to the class sums, from the blocks the point reads. -/
def tile3 (c : Dev nD) (cls d : Fin 128) (p : ℕ) : EReal :=
  if h : p < cfg0.N then
    ∑ k : Fin 4096, Spec.oh (yblk V c ⟨p, h⟩ (ix2 k (0 : Fin 1))) cls * xblk V c ⟨p, h⟩ (ix2 k d)
  else 0

theorem outs3_A (c : Dev nD) (cls d : Fin 128) (t : Fin cfg0.N) (h0 : t.val % 32 = 0) :
    (outsAt0 V c t.val t.isLt).1 (ix3 (0 : Fin 1) cls d) = tile3 V c cls d t.val := by
  rw [outsAt0_A V c t h0]
  dsimp only
  refine (congrFun (Pieces.out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t) (rblk V c t)) (ix3 (0 : Fin 1) cls d)).trans ?_
  refine (R0Tile.pay8_apply (xblk V c t) (yblk V c t) (k0_pay1 (F := Ideal)) cls d).trans ?_
  rw [R0Tile.pay1_apply, zero32_add]
  unfold tile3
  rw [dif_pos t.isLt]

theorem outs3_B (c : Dev nD) (cls d : Fin 128) (t : Fin cfg0.N) (h0 : ¬t.val % 32 = 0) :
    (outsAt0 V c t.val t.isLt).1 (ix3 (0 : Fin 1) cls d)
      = (outsAt0 V c (t.val - 1) (Nat.lt_of_le_of_lt (Nat.sub_le _ _) t.isLt)).1 (ix3 (0 : Fin 1) cls d) + tile3 V c cls d t.val := by
  rw [outsAt0_B V c t h0]
  dsimp only
  refine (congrFun (Pieces.out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t) (rblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) cls d)).trans ?_
  refine (R0Tile.pay8_apply (xblk V c t) (yblk V c t) (outsAt0 V c (t.val - 1) (Nat.lt_of_le_of_lt (Nat.sub_le _ _) t.isLt)).1 cls d).trans ?_
  unfold tile3
  rw [dif_pos t.isLt]

theorem outs3_eq (c : Dev nD) (cls d : Fin 128) (n : ℕ) (h : n < cfg0.N) :
    (outsAt0 V c n h).1 (ix3 (0 : Fin 1) cls d) = acc (tile3 V c cls d) n :=
  eq_acc_of_steps (fun n h => (outsAt0 V c n h).1 (ix3 (0 : Fin 1) cls d)) (tile3 V c cls d)
    (outs3_A V c cls d) (outs3_B V c cls d) n h

/-- Tile t' of core q sits at grid point q·32 + t', and its rows are that point's rows. -/
theorem row_eq (q : Fin 2) (t' : Fin 32) (k : Fin 4096) (h : q.val * 32 + t'.val < 64) :
    Spec.row q t' k = rowP ⟨q.val * 32 + t'.val, h⟩ k :=
  Fin.ext (by show q.val * 131072 + t'.val * 4096 + k.val = (q.val * 32 + t'.val) * 4096 + k.val; omega)

theorem tile3_eq (c : Dev nD) (cls d : Fin 128) (q : Fin 2) (t' : Fin 32) :
    tile3 V c cls d (q.val * 32 + t'.val)
      = ∑ k : Fin 4096, Spec.oh (Spec.lab (yarr V c) (Spec.row q t' k)) cls * zarr V c (ix2 (Spec.row q t' k) d) := by
  have hN : cfg0.N = 64 := N_0
  have h64 : q.val * 32 + t'.val < 64 := by omega
  have h : q.val * 32 + t'.val < cfg0.N := by rw [hN]; exact h64
  unfold tile3
  rw [dif_pos h]
  refine Finset.sum_congr rfl fun k _ => ?_
  rw [row_eq q t' k h64]
  exact congrArg₂ (fun a b => Spec.oh a cls * b) (yblk_apply V c ⟨_, h⟩ h64 k) (xblk_apply V c ⟨_, h⟩ h64 k d)

/-- At the last point of core q's sweep the running sum is the core's class sums. -/
theorem acc3_flush (c : Dev nD) (cls d : Fin 128) (q : Fin 2) (n : ℕ) (hq : n = q.val * 32 + 31) :
    acc (tile3 V c cls d) n = Spec.sumsAcc (zarr V c) (yarr V c) (ix3 q cls d) := by
  subst hq
  rw [acc_last]
  show _ = ∑ t' : Fin 32, ∑ k : Fin 4096, Spec.oh (Spec.lab (yarr V c) (Spec.row q t' k)) cls * zarr V c (ix2 (Spec.row q t' k) d)
  exact Finset.sum_congr rfl fun t' _ => tile3_eq V c cls d q t'

theorem flushed3_eq (c : Dev nD) (t : Fin cfg0.N) (hf : (cfg0.win 3).flush t = true) :
    (dat0 V c).flushed 3 t = ((cfg0.win 3).blk t).view.read (Elt Ideal) (Spec.sumsAcc (zarr V c) (yarr V c)) := by
  have hN : cfg0.N = 64 := N_0
  have h31 : t.val % 32 = 31 := (flush0_3 t).mp hf
  have ht : t.val < 64 := hN ▸ t.isLt
  obtain ⟨-, -, -, -, -, -, e0, e1, e2, -⟩ := idx_facts t
  show (cfg0.win 3).cut (grid0.coords t) ((dat0 V c).after 3 t) = _
  rw [after0_3]
  funext j
  obtain ⟨a, cls, d, rfl⟩ : ∃ (a : Fin 1) (cls d : Fin 128), j = ix3 a cls d :=
    ⟨j 0, j 1, j 2, eq_ix3 (n0 := 1) (n1 := 128) (n2 := 128) j⟩
  obtain rfl : a = 0 := Subsingleton.elim _ _
  show (outsAt0 V c t.val t.isLt).1 (ix3 (0 : Fin 1) cls d)
    = Spec.sumsAcc (zarr V c) (yarr V c) (((cfg0.win 3).blk t).view.emb (ix3 (0 : Fin 1) cls d))
  have hemb : ((cfg0.win 3).blk t).view.emb (ix3 (0 : Fin 1) cls d) = ix3 (⟨t.val / 32, by omega⟩ : Fin 2) cls d := by
    funext a; apply Fin.ext
    match a with
    | ⟨0, _⟩ => show win0_3.index t (0 : Fin 3) * 1 + 1 * 0 = t.val / 32; rw [e0]; omega
    | ⟨1, _⟩ => show win0_3.index t (1 : Fin 3) * 128 + 1 * cls.val = cls.val; rw [e1]; omega
    | ⟨2, _⟩ => show win0_3.index t (2 : Fin 3) * 128 + 1 * d.val = d.val; rw [e2]; omega
  rw [hemb, outs3_eq]
  exact acc3_flush V c cls d ⟨t.val / 32, by omega⟩ t.val (by show t.val = t.val / 32 * 32 + 31; omega)

/-- Every index of a per-core array lies in its core's block, written back at the last point of the core's sweep. -/
theorem cover3 (c : Dev nD) (i : Spec.SA3.Idx) :
    ∃ t : Fin cfg0.N, (cfg0.win 3).flush t = true ∧ i ∈ ((cfg0.win 3).blk t).view.set := by
  have hN : cfg0.N = 64 := N_0
  have hi0 : (i 0).val < 2 := (i 0).isLt
  have hi1 : (i 1).val < 128 := (i 1).isLt
  have hi2 : (i 2).val < 128 := (i 2).isLt
  have hp : (i 0).val * 32 + 31 < cfg0.N := by rw [hN]; omega
  refine ⟨⟨(i 0).val * 32 + 31, hp⟩, (flush0_3 _).mpr (by show ((i 0).val * 32 + 31) % 32 = 31; omega), ?_⟩
  obtain ⟨-, -, -, -, -, -, e0, e1, e2, -⟩ := idx_facts ⟨(i 0).val * 32 + 31, hp⟩
  show i ∈ ((View.whole main_v6_0).slice (win0_3.rect ⟨(i 0).val * 32 + 31, hp⟩)).set
  rw [View.set_slice_whole, Rect.mem_set_unit]
  intro a
  match a with
  | ⟨0, _⟩ =>
    show win0_3.index ⟨(i 0).val * 32 + 31, hp⟩ (0 : Fin 3) * 1 ≤ (i 0).val
      ∧ (i 0).val < win0_3.index ⟨(i 0).val * 32 + 31, hp⟩ (0 : Fin 3) * 1 + 1
    rw [e0]; show ((i 0).val * 32 + 31) / 32 * 1 ≤ (i 0).val ∧ (i 0).val < ((i 0).val * 32 + 31) / 32 * 1 + 1; omega
  | ⟨1, _⟩ =>
    show win0_3.index ⟨(i 0).val * 32 + 31, hp⟩ (1 : Fin 3) * 128 ≤ (i 1).val
      ∧ (i 1).val < win0_3.index ⟨(i 0).val * 32 + 31, hp⟩ (1 : Fin 3) * 128 + 128
    rw [e1]; omega
  | ⟨2, _⟩ =>
    show win0_3.index ⟨(i 0).val * 32 + 31, hp⟩ (2 : Fin 3) * 128 ≤ (i 2).val
      ∧ (i 2).val < win0_3.index ⟨(i 0).val * 32 + 31, hp⟩ (2 : Fin 3) * 128 + 128
    rw [e2]; omega

/-- The class sums: what pass 1 leaves in its first output array. -/
theorem final3 (c : Dev nD) :
    ((dat0 V c).arrAt 3 cfg0.N : Spec.SA3.Idx → EReal) = Spec.sumsAcc (V c main_arg0) (V c main_v1) :=
  (dat0 V c).arrAt_eq_of_cover 3 (Spec.sumsAcc (zarr V c) (yarr V c)) (flushed3_eq V c) (cover3 c)

/-! ## Row quantities of a tile, read in the arrays -/

theorem tsq_blk (c : Dev nD) (t : Fin cfg0.N) (ht : t.val < 64) (k : Fin 4096) :
    R0Tile.tsq (xblk V c t) k = Spec.sqK (zarr V c) (rowP ⟨t.val, ht⟩ k) := by
  unfold R0Tile.tsq Spec.sqK
  exact Finset.sum_congr rfl fun d _ => congrArg₂ (· * ·) (xblk_apply V c t ht k d) (xblk_apply V c t ht k d)

theorem tpick_blk (c : Dev nD) (t : Fin cfg0.N) (ht : t.val < 64) (k : Fin 4096) :
    R0Tile.tpick (yblk V c t) (rblk V c t) k = Spec.pickK (yarr V c) (rarr V c) (rowP ⟨t.val, ht⟩ k) := by
  unfold R0Tile.tpick Spec.pickK
  exact Finset.sum_congr rfl fun l _ =>
    congrArg₂ (fun a b => Spec.oh a l * b) (yblk_apply V c t ht k) (rblk_apply V c t l)

/-! ## The class counts -/

/-- The tile at point p's contribution to the class counts at lane l. -/
def tile4 (c : Dev nD) (l : Fin 128) (p : ℕ) : EReal :=
  if h : p < cfg0.N then ∑ k : Fin 4096, Spec.oh (yblk V c ⟨p, h⟩ (ix2 k (0 : Fin 1))) l else 0

theorem outs4_A (c : Dev nD) (l : Fin 128) (t : Fin cfg0.N) (h0 : t.val % 32 = 0) :
    (outsAt0 V c t.val t.isLt).2.1 (ix3 (0 : Fin 1) (0 : Fin 1) l) = tile4 V c l t.val := by
  rw [outsAt0_A V c t h0]
  dsimp only
  refine (congrFun (Pieces.out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t) (rblk V c t)) (ix3 (0 : Fin 1) (0 : Fin 1) l)).trans ?_
  refine (R0Tile.pay7_apply (yblk V c t) (k0_pay2 (F := Ideal)) l).trans ?_
  rw [R0Tile.pay2_apply, zero32_add]
  unfold tile4
  rw [dif_pos t.isLt]

theorem outs4_B (c : Dev nD) (l : Fin 128) (t : Fin cfg0.N) (h0 : ¬t.val % 32 = 0) :
    (outsAt0 V c t.val t.isLt).2.1 (ix3 (0 : Fin 1) (0 : Fin 1) l)
      = (outsAt0 V c (t.val - 1) (Nat.lt_of_le_of_lt (Nat.sub_le _ _) t.isLt)).2.1 (ix3 (0 : Fin 1) (0 : Fin 1) l) + tile4 V c l t.val := by
  rw [outsAt0_B V c t h0]
  dsimp only
  refine (congrFun (Pieces.out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t) (rblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) (0 : Fin 1) l)).trans ?_
  refine (R0Tile.pay7_apply (yblk V c t) (outsAt0 V c (t.val - 1) (Nat.lt_of_le_of_lt (Nat.sub_le _ _) t.isLt)).2.1 l).trans ?_
  unfold tile4
  rw [dif_pos t.isLt]

theorem outs4_eq (c : Dev nD) (l : Fin 128) (n : ℕ) (h : n < cfg0.N) :
    (outsAt0 V c n h).2.1 (ix3 (0 : Fin 1) (0 : Fin 1) l) = acc (tile4 V c l) n :=
  eq_acc_of_steps (fun n h => (outsAt0 V c n h).2.1 (ix3 (0 : Fin 1) (0 : Fin 1) l)) (tile4 V c l)
    (outs4_A V c l) (outs4_B V c l) n h

theorem tile4_eq (c : Dev nD) (l : Fin 128) (q : Fin 2) (t' : Fin 32) :
    tile4 V c l (q.val * 32 + t'.val) = ∑ k : Fin 4096, Spec.oh (Spec.lab (yarr V c) (Spec.row q t' k)) l := by
  have hN : cfg0.N = 64 := N_0
  have h64 : q.val * 32 + t'.val < 64 := by omega
  have h : q.val * 32 + t'.val < cfg0.N := by rw [hN]; exact h64
  unfold tile4
  rw [dif_pos h]
  refine Finset.sum_congr rfl fun k _ => ?_
  rw [row_eq q t' k h64]
  exact congrArg (fun a => Spec.oh a l) (yblk_apply V c ⟨_, h⟩ h64 k)

theorem acc4_flush (c : Dev nD) (l : Fin 128) (q : Fin 2) (n : ℕ) (hq : n = q.val * 32 + 31) :
    acc (tile4 V c l) n = Spec.cntAcc (yarr V c) (ix3 q (0 : Fin 1) l) := by
  subst hq
  rw [acc_last]
  show _ = ∑ t' : Fin 32, ∑ k : Fin 4096, Spec.oh (Spec.lab (yarr V c) (Spec.row q t' k)) l
  exact Finset.sum_congr rfl fun t' _ => tile4_eq V c l q t'

theorem flushed4_eq (c : Dev nD) (t : Fin cfg0.N) (hf : (cfg0.win 4).flush t = true) :
    (dat0 V c).flushed 4 t = ((cfg0.win 4).blk t).view.read (Elt Ideal) (Spec.cntAcc (yarr V c)) := by
  have hN : cfg0.N = 64 := N_0
  have h31 : t.val % 32 = 31 := (flush0_4 t).mp hf
  have ht : t.val < 64 := hN ▸ t.isLt
  obtain ⟨-, -, -, -, -, -, -, -, -, e0, e1, e2, -⟩ := idx_facts t
  show (cfg0.win 4).cut (grid0.coords t) ((dat0 V c).after 4 t) = _
  rw [after0_4]
  funext j
  obtain ⟨a, b, l, rfl⟩ : ∃ (a b : Fin 1) (l : Fin 128), j = ix3 a b l :=
    ⟨j 0, j 1, j 2, eq_ix3 (n0 := 1) (n1 := 1) (n2 := 128) j⟩
  obtain rfl : a = 0 := Subsingleton.elim _ _
  obtain rfl : b = 0 := Subsingleton.elim _ _
  show (outsAt0 V c t.val t.isLt).2.1 (ix3 (0 : Fin 1) (0 : Fin 1) l)
    = Spec.cntAcc (yarr V c) (((cfg0.win 4).blk t).view.emb (ix3 (0 : Fin 1) (0 : Fin 1) l))
  have hemb : ((cfg0.win 4).blk t).view.emb (ix3 (0 : Fin 1) (0 : Fin 1) l) = ix3 (⟨t.val / 32, by omega⟩ : Fin 2) (0 : Fin 1) l := by
    funext a; apply Fin.ext
    match a with
    | ⟨0, _⟩ => show win0_4.index t (0 : Fin 3) * 1 + 1 * 0 = t.val / 32; rw [e0]; omega
    | ⟨1, _⟩ => show win0_4.index t (1 : Fin 3) * 1 + 1 * 0 = 0; rw [e1]
    | ⟨2, _⟩ => show win0_4.index t (2 : Fin 3) * 128 + 1 * l.val = l.val; rw [e2]; omega
  rw [hemb, outs4_eq]
  exact acc4_flush V c l ⟨t.val / 32, by omega⟩ t.val (by show t.val = t.val / 32 * 32 + 31; omega)

theorem cover4 (c : Dev nD) (i : Spec.SA1.Idx) :
    ∃ t : Fin cfg0.N, (cfg0.win 4).flush t = true ∧ i ∈ ((cfg0.win 4).blk t).view.set := by
  have hN : cfg0.N = 64 := N_0
  have hi0 : (i 0).val < 2 := (i 0).isLt
  have hi1 : (i 1).val < 1 := (i 1).isLt
  have hi2 : (i 2).val < 128 := (i 2).isLt
  have hp : (i 0).val * 32 + 31 < cfg0.N := by rw [hN]; omega
  refine ⟨⟨(i 0).val * 32 + 31, hp⟩, (flush0_4 _).mpr (by show ((i 0).val * 32 + 31) % 32 = 31; omega), ?_⟩
  obtain ⟨-, -, -, -, -, -, -, -, -, e0, e1, e2, -⟩ := idx_facts ⟨(i 0).val * 32 + 31, hp⟩
  show i ∈ ((View.whole main_v6_1).slice (win0_4.rect ⟨(i 0).val * 32 + 31, hp⟩)).set
  rw [View.set_slice_whole, Rect.mem_set_unit]
  intro a
  match a with
  | ⟨0, _⟩ =>
    show win0_4.index ⟨(i 0).val * 32 + 31, hp⟩ (0 : Fin 3) * 1 ≤ (i 0).val
      ∧ (i 0).val < win0_4.index ⟨(i 0).val * 32 + 31, hp⟩ (0 : Fin 3) * 1 + 1
    rw [e0]; show ((i 0).val * 32 + 31) / 32 * 1 ≤ (i 0).val ∧ (i 0).val < ((i 0).val * 32 + 31) / 32 * 1 + 1; omega
  | ⟨1, _⟩ =>
    show win0_4.index ⟨(i 0).val * 32 + 31, hp⟩ (1 : Fin 3) * 1 ≤ (i 1).val
      ∧ (i 1).val < win0_4.index ⟨(i 0).val * 32 + 31, hp⟩ (1 : Fin 3) * 1 + 1
    rw [e1]; omega
  | ⟨2, _⟩ =>
    show win0_4.index ⟨(i 0).val * 32 + 31, hp⟩ (2 : Fin 3) * 128 ≤ (i 2).val
      ∧ (i 2).val < win0_4.index ⟨(i 0).val * 32 + 31, hp⟩ (2 : Fin 3) * 128 + 128
    rw [e2]; omega

/-- The class counts. -/
theorem final4 (c : Dev nD) :
    ((dat0 V c).arrAt 4 cfg0.N : Spec.SA1.Idx → EReal) = Spec.cntAcc (V c main_v1) :=
  (dat0 V c).arrAt_eq_of_cover 4 (Spec.cntAcc (yarr V c)) (flushed4_eq V c) (cover4 c)

/-! ## The radial sums -/

/-- The tile at point p's contribution to the radial sum (the same on every lane). -/
def tile5 (c : Dev nD) (p : ℕ) : EReal :=
  if h : p < cfg0.N then ∑ k : Fin 4096, Spec.smooth (Ideal.sqrt (R0Tile.tsq (xblk V c ⟨p, h⟩) k) - R0Tile.tpick (yblk V c ⟨p, h⟩) (rblk V c ⟨p, h⟩) k) else 0

theorem outs5_A (c : Dev nD) (l : Fin 128) (t : Fin cfg0.N) (h0 : t.val % 32 = 0) :
    (outsAt0 V c t.val t.isLt).2.2.1 (ix3 (0 : Fin 1) (0 : Fin 1) l) = tile5 V c t.val := by
  rw [outsAt0_A V c t h0]
  dsimp only
  refine (congrFun (Pieces.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t) (rblk V c t)) (ix3 (0 : Fin 1) (0 : Fin 1) l)).trans ?_
  refine (R0Tile.pay11_apply (xblk V c t) (yblk V c t) (rblk V c t) (k0_pay3 (F := Ideal)) l).trans ?_
  rw [R0Tile.pay3_apply, zero32_add]
  unfold tile5
  rw [dif_pos t.isLt]

theorem outs5_B (c : Dev nD) (l : Fin 128) (t : Fin cfg0.N) (h0 : ¬t.val % 32 = 0) :
    (outsAt0 V c t.val t.isLt).2.2.1 (ix3 (0 : Fin 1) (0 : Fin 1) l)
      = (outsAt0 V c (t.val - 1) (Nat.lt_of_le_of_lt (Nat.sub_le _ _) t.isLt)).2.2.1 (ix3 (0 : Fin 1) (0 : Fin 1) l) + tile5 V c t.val := by
  rw [outsAt0_B V c t h0]
  dsimp only
  refine (congrFun (Pieces.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t) (rblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) (0 : Fin 1) l)).trans ?_
  refine (R0Tile.pay11_apply (xblk V c t) (yblk V c t) (rblk V c t) (outsAt0 V c (t.val - 1) (Nat.lt_of_le_of_lt (Nat.sub_le _ _) t.isLt)).2.2.1 l).trans ?_
  unfold tile5
  rw [dif_pos t.isLt]

theorem outs5_eq (c : Dev nD) (l : Fin 128) (n : ℕ) (h : n < cfg0.N) :
    (outsAt0 V c n h).2.2.1 (ix3 (0 : Fin 1) (0 : Fin 1) l) = acc (tile5 V c) n :=
  eq_acc_of_steps (fun n h => (outsAt0 V c n h).2.2.1 (ix3 (0 : Fin 1) (0 : Fin 1) l)) (tile5 V c)
    (outs5_A V c l) (outs5_B V c l) n h

theorem tile5_eq (c : Dev nD) (q : Fin 2) (t' : Fin 32) :
    tile5 V c (q.val * 32 + t'.val) = ∑ k : Fin 4096, Spec.radRowK (zarr V c) (yarr V c) (rarr V c) (Spec.row q t' k) := by
  have hN : cfg0.N = 64 := N_0
  have h64 : q.val * 32 + t'.val < 64 := by omega
  have h : q.val * 32 + t'.val < cfg0.N := by rw [hN]; exact h64
  unfold tile5
  rw [dif_pos h]
  refine Finset.sum_congr rfl fun k _ => ?_
  rw [row_eq q t' k h64]
  unfold Spec.radRowK
  rw [tsq_blk V c ⟨_, h⟩ h64 k, tpick_blk V c ⟨_, h⟩ h64 k]

theorem acc5_flush (c : Dev nD) (l : Fin 128) (q : Fin 2) (n : ℕ) (hq : n = q.val * 32 + 31) :
    acc (tile5 V c) n = Spec.radAcc (zarr V c) (yarr V c) (rarr V c) (ix3 q (0 : Fin 1) l) := by
  subst hq
  rw [acc_last]
  show _ = ∑ t' : Fin 32, ∑ k : Fin 4096, Spec.radRowK (zarr V c) (yarr V c) (rarr V c) (Spec.row q t' k)
  exact Finset.sum_congr rfl fun t' _ => tile5_eq V c q t'

theorem flushed5_eq (c : Dev nD) (t : Fin cfg0.N) (hf : (cfg0.win 5).flush t = true) :
    (dat0 V c).flushed 5 t = ((cfg0.win 5).blk t).view.read (Elt Ideal) (Spec.radAcc (zarr V c) (yarr V c) (rarr V c)) := by
  have hN : cfg0.N = 64 := N_0
  have h31 : t.val % 32 = 31 := (flush0_5 t).mp hf
  have ht : t.val < 64 := hN ▸ t.isLt
  obtain ⟨-, -, -, -, -, -, -, -, -, -, -, -, e0, e1, e2, -⟩ := idx_facts t
  show (cfg0.win 5).cut (grid0.coords t) ((dat0 V c).after 5 t) = _
  rw [after0_5]
  funext j
  obtain ⟨a, b, l, rfl⟩ : ∃ (a b : Fin 1) (l : Fin 128), j = ix3 a b l :=
    ⟨j 0, j 1, j 2, eq_ix3 (n0 := 1) (n1 := 1) (n2 := 128) j⟩
  obtain rfl : a = 0 := Subsingleton.elim _ _
  obtain rfl : b = 0 := Subsingleton.elim _ _
  show (outsAt0 V c t.val t.isLt).2.2.1 (ix3 (0 : Fin 1) (0 : Fin 1) l)
    = Spec.radAcc (zarr V c) (yarr V c) (rarr V c) (((cfg0.win 5).blk t).view.emb (ix3 (0 : Fin 1) (0 : Fin 1) l))
  have hemb : ((cfg0.win 5).blk t).view.emb (ix3 (0 : Fin 1) (0 : Fin 1) l) = ix3 (⟨t.val / 32, by omega⟩ : Fin 2) (0 : Fin 1) l := by
    funext a; apply Fin.ext
    match a with
    | ⟨0, _⟩ => show win0_5.index t (0 : Fin 3) * 1 + 1 * 0 = t.val / 32; rw [e0]; omega
    | ⟨1, _⟩ => show win0_5.index t (1 : Fin 3) * 1 + 1 * 0 = 0; rw [e1]
    | ⟨2, _⟩ => show win0_5.index t (2 : Fin 3) * 128 + 1 * l.val = l.val; rw [e2]; omega
  rw [hemb, outs5_eq]
  exact acc5_flush V c l ⟨t.val / 32, by omega⟩ t.val (by show t.val = t.val / 32 * 32 + 31; omega)

theorem cover5 (c : Dev nD) (i : Spec.SA1.Idx) :
    ∃ t : Fin cfg0.N, (cfg0.win 5).flush t = true ∧ i ∈ ((cfg0.win 5).blk t).view.set := by
  have hN : cfg0.N = 64 := N_0
  have hi0 : (i 0).val < 2 := (i 0).isLt
  have hi1 : (i 1).val < 1 := (i 1).isLt
  have hi2 : (i 2).val < 128 := (i 2).isLt
  have hp : (i 0).val * 32 + 31 < cfg0.N := by rw [hN]; omega
  refine ⟨⟨(i 0).val * 32 + 31, hp⟩, (flush0_5 _).mpr (by show ((i 0).val * 32 + 31) % 32 = 31; omega), ?_⟩
  obtain ⟨-, -, -, -, -, -, -, -, -, -, -, -, e0, e1, e2, -⟩ := idx_facts ⟨(i 0).val * 32 + 31, hp⟩
  show i ∈ ((View.whole main_v6_2).slice (win0_5.rect ⟨(i 0).val * 32 + 31, hp⟩)).set
  rw [View.set_slice_whole, Rect.mem_set_unit]
  intro a
  match a with
  | ⟨0, _⟩ =>
    show win0_5.index ⟨(i 0).val * 32 + 31, hp⟩ (0 : Fin 3) * 1 ≤ (i 0).val
      ∧ (i 0).val < win0_5.index ⟨(i 0).val * 32 + 31, hp⟩ (0 : Fin 3) * 1 + 1
    rw [e0]; show ((i 0).val * 32 + 31) / 32 * 1 ≤ (i 0).val ∧ (i 0).val < ((i 0).val * 32 + 31) / 32 * 1 + 1; omega
  | ⟨1, _⟩ =>
    show win0_5.index ⟨(i 0).val * 32 + 31, hp⟩ (1 : Fin 3) * 1 ≤ (i 1).val
      ∧ (i 1).val < win0_5.index ⟨(i 0).val * 32 + 31, hp⟩ (1 : Fin 3) * 1 + 1
    rw [e1]; omega
  | ⟨2, _⟩ =>
    show win0_5.index ⟨(i 0).val * 32 + 31, hp⟩ (2 : Fin 3) * 128 ≤ (i 2).val
      ∧ (i 2).val < win0_5.index ⟨(i 0).val * 32 + 31, hp⟩ (2 : Fin 3) * 128 + 128
    rw [e2]; omega

/-- The radial sums. -/
theorem final5 (c : Dev nD) :
    ((dat0 V c).arrAt 5 cfg0.N : Spec.SA1.Idx → EReal) = Spec.radAcc (V c main_arg0) (V c main_v1) (V c main_v3) :=
  (dat0 V c).arrAt_eq_of_cover 5 (Spec.radAcc (zarr V c) (yarr V c) (rarr V c)) (flushed5_eq V c) (cover5 c)

/-! ## The sums of squared norms -/

/-- The tile at point p's contribution to the sum of squared norms (the same on every lane). -/
def tile6 (c : Dev nD) (p : ℕ) : EReal :=
  if h : p < cfg0.N then ∑ k : Fin 4096, R0Tile.tsq (xblk V c ⟨p, h⟩) k else 0

theorem outs6_A (c : Dev nD) (l : Fin 128) (t : Fin cfg0.N) (h0 : t.val % 32 = 0) :
    (outsAt0 V c t.val t.isLt).2.2.2 (ix3 (0 : Fin 1) (0 : Fin 1) l) = tile6 V c t.val := by
  rw [outsAt0_A V c t h0]
  dsimp only
  refine (congrFun (Pieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t) (rblk V c t)) (ix3 (0 : Fin 1) (0 : Fin 1) l)).trans ?_
  refine (R0Tile.pay12_apply (xblk V c t) (k0_pay4 (F := Ideal)) l).trans ?_
  rw [R0Tile.pay4_apply, zero32_add]
  unfold tile6
  rw [dif_pos t.isLt]

theorem outs6_B (c : Dev nD) (l : Fin 128) (t : Fin cfg0.N) (h0 : ¬t.val % 32 = 0) :
    (outsAt0 V c t.val t.isLt).2.2.2 (ix3 (0 : Fin 1) (0 : Fin 1) l)
      = (outsAt0 V c (t.val - 1) (Nat.lt_of_le_of_lt (Nat.sub_le _ _) t.isLt)).2.2.2 (ix3 (0 : Fin 1) (0 : Fin 1) l) + tile6 V c t.val := by
  rw [outsAt0_B V c t h0]
  dsimp only
  refine (congrFun (Pieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t) (rblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) (0 : Fin 1) l)).trans ?_
  refine (R0Tile.pay12_apply (xblk V c t) (outsAt0 V c (t.val - 1) (Nat.lt_of_le_of_lt (Nat.sub_le _ _) t.isLt)).2.2.2 l).trans ?_
  unfold tile6
  rw [dif_pos t.isLt]

theorem outs6_eq (c : Dev nD) (l : Fin 128) (n : ℕ) (h : n < cfg0.N) :
    (outsAt0 V c n h).2.2.2 (ix3 (0 : Fin 1) (0 : Fin 1) l) = acc (tile6 V c) n :=
  eq_acc_of_steps (fun n h => (outsAt0 V c n h).2.2.2 (ix3 (0 : Fin 1) (0 : Fin 1) l)) (tile6 V c)
    (outs6_A V c l) (outs6_B V c l) n h

theorem tile6_eq (c : Dev nD) (q : Fin 2) (t' : Fin 32) :
    tile6 V c (q.val * 32 + t'.val) = ∑ k : Fin 4096, Spec.sqK (zarr V c) (Spec.row q t' k) := by
  have hN : cfg0.N = 64 := N_0
  have h64 : q.val * 32 + t'.val < 64 := by omega
  have h : q.val * 32 + t'.val < cfg0.N := by rw [hN]; exact h64
  unfold tile6
  rw [dif_pos h]
  refine Finset.sum_congr rfl fun k _ => ?_
  rw [row_eq q t' k h64]
  exact tsq_blk V c ⟨_, h⟩ h64 k

theorem acc6_flush (c : Dev nD) (l : Fin 128) (q : Fin 2) (n : ℕ) (hq : n = q.val * 32 + 31) :
    acc (tile6 V c) n = Spec.sqAcc (zarr V c) (ix3 q (0 : Fin 1) l) := by
  subst hq
  rw [acc_last]
  show _ = ∑ t' : Fin 32, ∑ k : Fin 4096, Spec.sqK (zarr V c) (Spec.row q t' k)
  exact Finset.sum_congr rfl fun t' _ => tile6_eq V c q t'

theorem flushed6_eq (c : Dev nD) (t : Fin cfg0.N) (hf : (cfg0.win 6).flush t = true) :
    (dat0 V c).flushed 6 t = ((cfg0.win 6).blk t).view.read (Elt Ideal) (Spec.sqAcc (zarr V c)) := by
  have hN : cfg0.N = 64 := N_0
  have h31 : t.val % 32 = 31 := (flush0_6 t).mp hf
  have ht : t.val < 64 := hN ▸ t.isLt
  obtain ⟨-, -, -, -, -, -, -, -, -, -, -, -, -, -, -, e0, e1, e2⟩ := idx_facts t
  show (cfg0.win 6).cut (grid0.coords t) ((dat0 V c).after 6 t) = _
  rw [after0_6]
  funext j
  obtain ⟨a, b, l, rfl⟩ : ∃ (a b : Fin 1) (l : Fin 128), j = ix3 a b l :=
    ⟨j 0, j 1, j 2, eq_ix3 (n0 := 1) (n1 := 1) (n2 := 128) j⟩
  obtain rfl : a = 0 := Subsingleton.elim _ _
  obtain rfl : b = 0 := Subsingleton.elim _ _
  show (outsAt0 V c t.val t.isLt).2.2.2 (ix3 (0 : Fin 1) (0 : Fin 1) l)
    = Spec.sqAcc (zarr V c) (((cfg0.win 6).blk t).view.emb (ix3 (0 : Fin 1) (0 : Fin 1) l))
  have hemb : ((cfg0.win 6).blk t).view.emb (ix3 (0 : Fin 1) (0 : Fin 1) l) = ix3 (⟨t.val / 32, by omega⟩ : Fin 2) (0 : Fin 1) l := by
    funext a; apply Fin.ext
    match a with
    | ⟨0, _⟩ => show win0_6.index t (0 : Fin 3) * 1 + 1 * 0 = t.val / 32; rw [e0]; omega
    | ⟨1, _⟩ => show win0_6.index t (1 : Fin 3) * 1 + 1 * 0 = 0; rw [e1]
    | ⟨2, _⟩ => show win0_6.index t (2 : Fin 3) * 128 + 1 * l.val = l.val; rw [e2]; omega
  rw [hemb, outs6_eq]
  exact acc6_flush V c l ⟨t.val / 32, by omega⟩ t.val (by show t.val = t.val / 32 * 32 + 31; omega)

theorem cover6 (c : Dev nD) (i : Spec.SA1.Idx) :
    ∃ t : Fin cfg0.N, (cfg0.win 6).flush t = true ∧ i ∈ ((cfg0.win 6).blk t).view.set := by
  have hN : cfg0.N = 64 := N_0
  have hi0 : (i 0).val < 2 := (i 0).isLt
  have hi1 : (i 1).val < 1 := (i 1).isLt
  have hi2 : (i 2).val < 128 := (i 2).isLt
  have hp : (i 0).val * 32 + 31 < cfg0.N := by rw [hN]; omega
  refine ⟨⟨(i 0).val * 32 + 31, hp⟩, (flush0_6 _).mpr (by show ((i 0).val * 32 + 31) % 32 = 31; omega), ?_⟩
  obtain ⟨-, -, -, -, -, -, -, -, -, -, -, -, -, -, -, e0, e1, e2⟩ := idx_facts ⟨(i 0).val * 32 + 31, hp⟩
  show i ∈ ((View.whole main_v6_3).slice (win0_6.rect ⟨(i 0).val * 32 + 31, hp⟩)).set
  rw [View.set_slice_whole, Rect.mem_set_unit]
  intro a
  match a with
  | ⟨0, _⟩ =>
    show win0_6.index ⟨(i 0).val * 32 + 31, hp⟩ (0 : Fin 3) * 1 ≤ (i 0).val
      ∧ (i 0).val < win0_6.index ⟨(i 0).val * 32 + 31, hp⟩ (0 : Fin 3) * 1 + 1
    rw [e0]; show ((i 0).val * 32 + 31) / 32 * 1 ≤ (i 0).val ∧ (i 0).val < ((i 0).val * 32 + 31) / 32 * 1 + 1; omega
  | ⟨1, _⟩ =>
    show win0_6.index ⟨(i 0).val * 32 + 31, hp⟩ (1 : Fin 3) * 1 ≤ (i 1).val
      ∧ (i 1).val < win0_6.index ⟨(i 0).val * 32 + 31, hp⟩ (1 : Fin 3) * 1 + 1
    rw [e1]; omega
  | ⟨2, _⟩ =>
    show win0_6.index ⟨(i 0).val * 32 + 31, hp⟩ (2 : Fin 3) * 128 ≤ (i 2).val
      ∧ (i 2).val < win0_6.index ⟨(i 0).val * 32 + 31, hp⟩ (2 : Fin 3) * 128 + 128
    rw [e2]; omega

/-- The sums of squared norms. -/
theorem final6 (c : Dev nD) :
    ((dat0 V c).arrAt 6 cfg0.N : Spec.SA1.Idx → EReal) = Spec.sqAcc (V c main_arg0) :=
  (dat0 V c).arrAt_eq_of_cover 6 (Spec.sqAcc (zarr V c)) (flushed6_eq V c) (cover6 c)

end Cert.KernelIdeal.R0

end
-- ==== Proof.R1Tile.lean ====
/-
  One tile of pass 2, read at an index over the extended reals: the margin accumulator gains, on top of what it held,
    Σ_k max(Σ_l onehot(y_k, l)·margin_l − √(min over the 128 lanes of the masked squared distances of row k), 0),
  the same scalar on every lane.  The squared distance of row k to lane l is max(‖z_k‖² + c2_l − 2·Σ_j z_k,j·ct_j,l, 0);
  a lane is masked by +∞ when it is the row's own class or a padding lane (the named constant is +∞ here).
-/
import proofs.«401768_j5746666242188_3_alg».proof.Proof.Gen.KernelIdeal.Skeleton
import proofs.«401768_j5746666242188_3_alg».proof.Proof.Spec
import proofs.«401768_j5746666242188_3_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.R1Tile

open Cert.KernelIdeal Cert.KernelIdeal.Gen Cert.Spec

/-- The lane sum of a tile kept as a column: at row k it is the sum over the 128 lanes. -/
private theorem rowsum_col (v : FVec Ideal S4096x128 .f32) (k : Fin 4096) (u : Fin 1) :
    shapeCast S4096x1 (multiReduction (F := Ideal) .add [1] S4096 v 0x00000000#32 reduces_S4096x128_S4096 (.inl rfl) rfl)
      shapeCasts_S4096_S4096x1 (ix2 k u) = ∑ l : Fin 128, v (ix2 k l) := by
  refine (Cert.Lib.shapeCast_a_a1_apply _ _ k u).trans ?_
  refine (Ideal.multiReduction_add_single v 0x00000000#32 reduces_S4096x128_S4096 (.inl rfl) rfl (ix1 k)).trans ?_
  refine Finset.sum_congr rfl fun l _ => ?_
  rw [Cert.Lib.lift_row_col]
  rfl

/-- The lane minimum of a tile kept as a column: at row k it is the fold of min from +∞ over the 128 lanes. -/
private theorem rowmin_col (v : FVec Ideal S4096x128 .f32) (k : Fin 4096) (u : Fin 1) :
    shapeCast S4096x1 (multiReduction (F := Ideal) .minimumf [1] S4096 v 0x7F800000#32 reduces_S4096x128_S4096 (.inl rfl) rfl)
      shapeCasts_S4096_S4096x1 (ix2 k u) = (Finset.univ : Finset (Fin 128)).fold min inf32 fun l => v (ix2 k l) := by
  refine (Cert.Lib.shapeCast_a_a1_apply _ _ k u).trans ?_
  refine (multiReduction_minimumf_eq_fold v 0x7F800000#32 reduces_S4096x128_S4096 (.inl rfl) rfl (ix1 k)).trans ?_
  refine (reduces_S4096x128_S4096.fold_filter_drop_single _ _ v (ix1 k)).trans ?_
  refine congrArg (fun f => Finset.fold min inf32 f (Finset.univ : Finset (Fin 128))) (funext fun l => ?_)
  show v (reduces_S4096x128_S4096.lift (ix1 k) l) = v (ix2 k l)
  rw [Cert.Lib.lift_row_col]
  rfl

/-- A [1,128] row, cast to itself and spread over the 4096 rows, reads the row's lane. -/
private theorem row_spread {α : Type} (v : S1x128.Idx → α) (k : Fin 4096) (l : Fin 128) :
    broadcastTo S4096x128 (shapeCast S1x128 v shapeCasts_S1x128_S1x128) broadcasts_S1x128_S4096x128 (ix2 k l)
      = v (ix2 (0 : Fin 1) l) := by
  rw [shapeCast_self]
  exact broadcastTo_1b_ab_apply v _ k l

/-! ### The product z · ct at an index -/

private theorem lhs_ax0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
private theorem lhs_ax1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
private theorem rhs_ax0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
private theorem rhs_ax1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The tile's product with the table, accumulated from zero: at (k, l) the sum over the 128 coordinates. -/
private theorem matmul_read {φ₁ φ₂ : FTy} (a : FVec Ideal S4096x128 φ₁) (b : FVec Ideal S128x128 φ₂) (k : Fin 4096) (l : Fin 128) :
    matmul dot_S4096x128_S128x128_S4096x128_1_0_0_1_n_n none a b (constant (F := Ideal) S4096x128 .f32 0x00000000#32) (ix2 k l)
      = ∑ j : Fin 128, a (ix2 k j) * b (ix2 j l) := by
  simp only [matmul]
  rw [Ideal.matmul_constant_zero_apply, ← Equiv.sum_comp (contrEquiv1 dot_S4096x128_S128x128_S4096x128_1_0_0_1_n_n 128 rfl rfl).symm]
  refine Finset.sum_congr rfl fun j _ => ?_
  have hk := contrEquiv1_symm_val dot_S4096x128_S128x128_S4096x128_1_0_0_1_n_n 128 rfl rfl j
  have el : dot_S4096x128_S128x128_S4096x128_1_0_0_1_n_n.lhsIdx (ix2 k l) ((contrEquiv1 dot_S4096x128_S128x128_S4096x128_1_0_0_1_n_n 128 rfl rfl).symm j) = ix2 k j := funext fun c => Fin.ext (by
    match c with
    | ⟨0, _⟩ => exact lhs_ax0 _ _
    | ⟨1, _⟩ => exact (lhs_ax1 _ _).trans hk)
  have er : dot_S4096x128_S128x128_S4096x128_1_0_0_1_n_n.rhsIdx (ix2 k l) ((contrEquiv1 dot_S4096x128_S128x128_S4096x128_1_0_0_1_n_n 128 rfl rfl).symm j) = ix2 j l := funext fun c => Fin.ext (by
    match c with
    | ⟨0, _⟩ => exact (rhs_ax0 _ _).trans hk
    | ⟨1, _⟩ => exact rhs_ax1 _ _)
  rw [el, er]

/-! ### The total over a column -/

/-- The rows of a [1,4096,1] array. -/
private def colEquiv : Fin 4096 ≃ S1x4096x1.Idx where
  toFun k := ix3 (0 : Fin 1) k (0 : Fin 1)
  invFun i := i 1
  left_inv k := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- A column summed over all its entries and read out as a scalar: the sum over the 4096 rows. -/
private theorem total_col (v : FVec Ideal S4096x1 .f32) :
    extractAt ![0, 0, 0] (shapeCast S1x1x1 (multiReduction (F := Ideal) .add [1, 2] S1
        (shapeCast S1x4096x1 v shapeCasts_S4096x1_S1x4096x1) 0x00000000#32 reduces_S1x4096x1_S1 (.inl rfl) rfl)
        shapeCasts_S1_S1x1x1) inpos_S1x1x1_p0_0_0
      = ∑ k : Fin 4096, v (ix2 k (0 : Fin 1)) := by
  unfold extractAt shapeCast
  refine (Ideal.multiReduction_add_total _ 0x00000000#32 reduces_S1x4096x1_S1 (by decide) (.inl rfl) rfl _).trans ?_
  refine (Equiv.sum_comp colEquiv _).symm.trans ?_
  refine Finset.sum_congr rfl fun k _ => ?_
  exact shapeCast_ab_1ab_apply v shapeCasts_S4096x1_S1x4096x1 (0 : Fin 1) k (0 : Fin 1)

/-! ### Pointwise operations and the tile's layout steps at an index -/

private theorem sqrt_apply {s : Shape} {φ : FTy} (a : FVec Ideal s φ) (i : s.Idx) : sqrt a i = Ideal.sqrt (a i) := rfl
private theorem ori_apply {s : Shape} {w : Nat} (x y : IVec s w) (i : s.Idx) : ori x y i = IntOp.ori (x i) (y i) := rfl
private theorem xori_apply {s : Shape} {w : Nat} (x y : IVec s w) (i : s.Idx) : xori x y i = IntOp.xori (x i) (y i) := rfl
private theorem cmpi_apply {s : Shape} {w : Nat} (p : CmpIPredicate) (x y : IVec s w) (i : s.Idx) :
    cmpi p x y i = IntOp.cmpi p (x i) (y i) := rfl

/-- The lane iota of a tile reads the lane's number. -/
private theorem iota_lane (k : Fin 4096) (l : Fin 128) :
    iota .tc S4096x128 32 [1] iota_S4096x128_d1_w32 (ix2 k l) = BitVec.ofNat 32 l.val :=
  iota_single_apply .tc S4096x128 32 1 iota_S4096x128_d1_w32 (ix2 k l)

/-- A column spread over the 128 lanes reads the column's entry of the row. -/
private theorem col_spread {α : Type} (v : S4096x1.Idx → α) (k : Fin 4096) (l : Fin 128) :
    broadcastTo S4096x128 v broadcasts_S4096x1_S4096x128 (ix2 k l) = v (ix2 k (0 : Fin 1)) :=
  Cert.Lib.broadcastTo_a1_ab_apply v _ k l

/-- The label column cast to itself. -/
private theorem col_self {α : Type} (v : S4096x1.Idx → α) : shapeCast S4096x1 v shapeCasts_S4096x1_S4096x1 = v := shapeCast_self v _
private theorem tab_self {α : Type} (v : S128x128.Idx → α) : shapeCast S128x128 v shapeCasts_S128x128_S128x128 = v := shapeCast_self v _

/-- A [1,128] row stored as [1,1,128] and back. -/
private theorem cast_row_up {α : Type} (v : S1x128.Idx → α) (l : Fin 128) :
    shapeCast S1x1x128 v shapeCasts_S1x128_S1x1x128 (ix3 (0 : Fin 1) (0 : Fin 1) l) = v (ix2 (0 : Fin 1) l) :=
  shapeCast_ab_1ab_apply v _ (0 : Fin 1) (0 : Fin 1) l
private theorem cast_row_down {α : Type} (p : S1x1x128.Idx → α) (l : Fin 128) :
    shapeCast S1x128 p shapeCasts_S1x1x128_S1x128 (ix2 (0 : Fin 1) l) = p (ix3 (0 : Fin 1) (0 : Fin 1) l) :=
  shapeCast_1ab_ab_apply p _ (0 : Fin 1) l

/-- The named masking constant is +∞ over the extended reals. -/
private theorem pos_big_top : Named.named (F := Ideal) κ "pos_big" (φ := .f32) 0x7149F2CA#32 = (⊤ : EReal) :=
  IdealRules.named_const.ideal_named_scalar _ _ _ _ rfl

variable (x0 : Vec Ideal S4096x128 .f32) (x1 : Vec Ideal S4096x1 .i32) (x2 : Vec Ideal S128x128 .f32)
  (x3 x4 : Vec Ideal S1x128 .f32)

def tsq (k : Fin 4096) : EReal := ∑ d : Fin 128, x0 (ix2 k d) * x0 (ix2 k d)
def tpick (tab : Vec Ideal S1x128 .f32) (k : Fin 4096) : EReal :=
  ∑ l : Fin 128, oh (x1 (ix2 k (0 : Fin 1))) l * tab (ix2 (0 : Fin 1) l)
/-- Row k's clamped squared distance to lane l. -/
def td2 (k : Fin 4096) (l : Fin 128) : EReal :=
  max ((tsq x0 k + x3 (ix2 (0 : Fin 1) l)) - two32 * ∑ j : Fin 128, x0 (ix2 k j) * x2 (ix2 j l)) zero32
/-- Row k's smallest squared distance to another class. -/
def tmin (k : Fin 4096) : EReal :=
  (Finset.univ : Finset (Fin 128)).fold min inf32 fun l =>
    Scalar.select (maskK (x1 (ix2 k (0 : Fin 1))) l) ⊤ (td2 x0 x2 x3 k l)

/-- The own-class bit of row k at lane l. -/
theorem pay3_apply (k : Fin 4096) (l : Fin 128) :
    k1_pay3 (F := Ideal) x1 (ix2 k l) = IntOp.cmpi .eq (x1 (ix2 k (0 : Fin 1))) (BitVec.ofNat 32 l.val) := by
  unfold k1_pay3
  dsimp only
  rw [cmpi_apply, col_self, col_spread, iota_lane]

/-- The one-hot entry of row k at lane l. -/
theorem pay4_apply (k : Fin 4096) (l : Fin 128) :
    k1_pay4 (F := Ideal) x1 (ix2 k l) = oh (x1 (ix2 k (0 : Fin 1))) l := by
  unfold k1_pay4
  rw [sitofp_apply, extui_apply, pay3_apply]
  rfl

/-- Row k's distance to the nearest other class. -/
theorem pay5_apply (k : Fin 4096) :
    k1_pay5 (F := Ideal) x0 x1 x2 x3 (ix2 k (0 : Fin 1)) = Ideal.sqrt (tmin x0 x1 x2 x3 k) := by
  unfold k1_pay5
  dsimp only
  rw [sqrt_apply, rowmin_col]
  unfold tmin
  refine congrArg Ideal.sqrt (congrArg (fun f => Finset.fold min inf32 f (Finset.univ : Finset (Fin 128))) (funext fun l => ?_))
  simp only [select_apply, ori_apply, xori_apply, cmpi_apply, pay3_apply, broadcast_apply, constantI_apply,
    maximumf_apply, subf_apply, addf_apply, mulf_apply, col_spread, row_spread, matmul_read, truncf_apply,
    tab_self, pos_big_top]
  rw [iota_lane, rowsum_col]
  simp only [mulf_apply]
  rfl

theorem pay1_apply (p : Vec Ideal S1x1x128 .f32) (l : Fin 128) :
    k1_pay1 (F := Ideal) (k1_pay4 x1) (k1_pay5 x0 x1 x2 x3) x4 p (ix3 (0 : Fin 1) (0 : Fin 1) l)
      = p (ix3 (0 : Fin 1) (0 : Fin 1) l)
        + ∑ k : Fin 4096, max (tpick x1 x4 k - Ideal.sqrt (tmin x0 x1 x2 x3 k)) zero32 := by
  unfold k1_pay1
  dsimp only
  rw [cast_row_up, addf_apply, cast_row_down, broadcast_apply, total_col]
  refine congrArg (fun t => p (ix3 (0 : Fin 1) (0 : Fin 1) l) + t) (Finset.sum_congr rfl fun k _ => ?_)
  rw [maximumf_apply, subf_apply, rowsum_col, pay5_apply, broadcast_apply]
  unfold tpick
  simp only [mulf_apply, pay4_apply, row_spread]
  rfl

theorem pay2_apply (j : S1x1x128.Idx) : k1_pay2 (F := Ideal) j = zero32 := by
  unfold k1_pay2
  rfl

end Cert.KernelIdeal.R1Tile

end
-- ==== Proof.R1Value.lean ====
/-
  Pass 2 read as values.  The grid is again 2 cores × 32 tiles; the one output has a block per core, zeroed at the
  core's first tile and added to at every tile, so block `core` ends at the sum over the core's tiles of the tile's
  margin contribution (induction on the grid point, then the two blocks cover the array).
-/
import proofs.«401768_j5746666242188_3_alg».proof.Proof.Gen.KernelIdeal.Frame
import proofs.«401768_j5746666242188_3_alg».proof.Proof.Spec
import proofs.«401768_j5746666242188_3_alg».proof.Proof.Pieces
import proofs.«401768_j5746666242188_3_alg».proof.Proof.R1Tile
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

/-- The index maps of pass 2, decided once over the grid. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 32 ∧ win1_5.index t (1 : Fin 3) = 0 ∧ win1_5.index t (2 : Fin 3) = 0 :=
  (by decide +kernel : ∀ t : Fin grid1.N, _)

private abbrev zblk (c : Dev nD) (t : Fin cfg1.N) : Vec Ideal S4096x128 .f32 := iblk1 V c 0 t
private abbrev yblk (c : Dev nD) (t : Fin cfg1.N) : Vec Ideal S4096x1 .i32 := iblk1 V c 1 t
private abbrev ctblk (c : Dev nD) (t : Fin cfg1.N) : Vec Ideal S128x128 .f32 := iblk1 V c 2 t
private abbrev c2blk (c : Dev nD) (t : Fin cfg1.N) : Vec Ideal S1x128 .f32 := iblk1 V c 3 t
private abbrev mgblk (c : Dev nD) (t : Fin cfg1.N) : Vec Ideal S1x128 .f32 := iblk1 V c 4 t

private abbrev zarr (c : Dev nD) : Spec.SZ.Idx → EReal := V c main_arg0
private abbrev yarr (c : Dev nD) : Spec.SYc.Idx → BitVec 32 := V c main_v1
private abbrev ctarr (c : Dev nD) : Spec.SCt.Idx → EReal := V c main_v46
private abbrev c2arr (c : Dev nD) : Spec.SP.Idx → EReal := V c main_v49
private abbrev mgarr (c : Dev nD) : Spec.SP.Idx → EReal := V c main_v5

/-- The core and the tile of a grid point: point t is tile t % 32 of core t / 32. -/
private def coreOf (t : Fin cfg1.N) : Fin 2 := ⟨t.val / 32, by have h : t.val < 64 := lt_of_lt_of_eq t.isLt (show cfg1.N = 64 from N_1); omega⟩
private def tileOf (t : Fin cfg1.N) : Fin 32 := ⟨t.val % 32, Nat.mod_lt _ (by norm_num)⟩

private theorem row_val (t : Fin cfg1.N) (k : Fin 4096) : (Spec.row (coreOf t) (tileOf t) k).val = t.val * 4096 + k.val := by
  show t.val / 32 * 131072 + t.val % 32 * 4096 + k.val = _
  omega

/-- The row block of z at point t holds the rows of that tile. -/
private theorem zblk_apply (c : Dev nD) (t : Fin cfg1.N) (k : Fin 4096) (d : Fin 128) :
    zblk V c t (ix2 k d) = zarr V c (ix2 (Spec.row (coreOf t) (tileOf t) k) d) := by
  obtain ⟨e0, e1, -⟩ := idx_facts t
  unfold zblk iblk1
  rw [View.read_apply]
  show V c main_arg0 _ = V c main_arg0 _
  congr 1
  funext a
  apply Fin.ext
  match a with
  | ⟨0, _⟩ => show win1_0.index t (0 : Fin 2) * 4096 + 1 * k.val = (Spec.row (coreOf t) (tileOf t) k).val; rw [e0, row_val]; omega
  | ⟨1, _⟩ => show win1_0.index t (1 : Fin 2) * 128 + 1 * d.val = d.val; rw [e1]; omega

/-- The label column block at point t holds the labels of that tile's rows. -/
private theorem yblk_apply (c : Dev nD) (t : Fin cfg1.N) (k : Fin 4096) :
    yblk V c t (ix2 k (0 : Fin 1)) = yarr V c (ix2 (Spec.row (coreOf t) (tileOf t) k) (0 : Fin 1)) := by
  obtain ⟨-, -, e0, e1, -⟩ := idx_facts t
  unfold yblk iblk1
  rw [View.read_apply]
  show V c main_v1 _ = V c main_v1 _
  congr 1
  funext a
  apply Fin.ext
  match a with
  | ⟨0, _⟩ => show win1_1.index t (0 : Fin 2) * 4096 + 1 * k.val = (Spec.row (coreOf t) (tileOf t) k).val; rw [e0, row_val]; omega
  | ⟨1, _⟩ => show win1_1.index t (1 : Fin 2) * 1 + 1 * (0 : Fin 1).val = (0 : Fin 1).val; rw [e1]; rfl

/-- The transposed centres, their squared norms and the margins are read whole at every point. -/
private theorem ctblk_eq (c : Dev nD) (t : Fin cfg1.N) : ctblk V c t = ctarr V c := by
  obtain ⟨-, -, -, -, e0, e1, -⟩ := idx_facts t
  funext j
  unfold ctblk iblk1
  rw [View.read_apply]
  show V c main_v46 _ = V c main_v46 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

private theorem c2blk_eq (c : Dev nD) (t : Fin cfg1.N) : c2blk V c t = c2arr V c := by
  obtain ⟨-, -, -, -, -, -, e0, e1, -⟩ := idx_facts t
  funext j
  unfold c2blk iblk1
  rw [View.read_apply]
  show V c main_v49 _ = V c main_v49 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

private theorem mgblk_eq (c : Dev nD) (t : Fin cfg1.N) : mgblk V c t = mgarr V c := by
  obtain ⟨-, -, -, -, -, -, -, -, e0, e1, -⟩ := idx_facts t
  funext j
  unfold mgblk iblk1
  rw [View.read_apply]
  show V c main_v5 _ = V c main_v5 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- One tile's margin contribution, over blocks that hold the tile's rows of the arrays. -/
private theorem tile_eq (x0 : Vec Ideal S4096x128 .f32) (x1 : Vec Ideal S4096x1 .i32) (x2 : Vec Ideal S128x128 .f32)
    (x3 x4 : Vec Ideal S1x128 .f32) (z : Spec.SZ.Idx → EReal) (yc : Spec.SYc.Idx → BitVec 32)
    (ct : Spec.SCt.Idx → EReal) (c2 mgp : Spec.SP.Idx → EReal) (core : Fin 2) (tile : Fin 32)
    (h0 : ∀ (k : Fin 4096) (d : Fin 128), x0 (ix2 k d) = z (ix2 (Spec.row core tile k) d))
    (h1 : ∀ k : Fin 4096, x1 (ix2 k (0 : Fin 1)) = yc (ix2 (Spec.row core tile k) (0 : Fin 1)))
    (h2 : x2 = ct) (h3 : x3 = c2) (h4 : x4 = mgp) :
    (∑ k : Fin 4096, max (R1Tile.tpick x1 x4 k - Ideal.sqrt (R1Tile.tmin x0 x1 x2 x3 k)) Spec.zero32)
      = ∑ k : Fin 4096, Spec.marginRowK z yc ct c2 mgp (Spec.row core tile k) := by
  subst h2 h3 h4
  refine Finset.sum_congr rfl fun k _ => ?_
  unfold Spec.marginRowK Spec.minK Spec.pickK Spec.d2K Spec.dotK Spec.sqK Spec.lab R1Tile.tpick R1Tile.tmin R1Tile.td2 R1Tile.tsq
  simp only [h0, h1]

/-- What one tile adds to the accumulator, over the blocks of point t. -/
private def tileTerm (c : Dev nD) (t : Fin cfg1.N) : EReal :=
  ∑ k : Fin 4096, max (R1Tile.tpick (yblk V c t) (mgblk V c t) k
    - Ideal.sqrt (R1Tile.tmin (zblk V c t) (yblk V c t) (ctblk V c t) (c2blk V c t) k)) Spec.zero32

/-- It is the sum of the margin terms of the tile's rows. -/
private theorem tileTerm_eq (c : Dev nD) (t : Fin cfg1.N) :
    tileTerm V c t = ∑ k : Fin 4096, Spec.marginRowK (zarr V c) (yarr V c) (ctarr V c) (c2arr V c) (mgarr V c)
      (Spec.row (coreOf t) (tileOf t) k) :=
  tile_eq (zblk V c t) (yblk V c t) (ctblk V c t) (c2blk V c t) (mgblk V c t) (zarr V c) (yarr V c) (ctarr V c)
    (c2arr V c) (mgarr V c) (coreOf t) (tileOf t) (zblk_apply V c t) (yblk_apply V c t) (ctblk_eq V c t)
    (c2blk_eq V c t) (mgblk_eq V c t)

/-- At a core's first tile the accumulator is zeroed and then gains the tile's term. -/
private theorem step_A (c : Dev nD) (t : Fin cfg1.N) (h0 : t.val % 32 = 0) (l : Fin 128) :
    outsAt1 V c t.val t.isLt (ix3 (0 : Fin 1) (0 : Fin 1) l) = tileTerm V c t := by
  rw [outsAt1_A V c t h0]
  refine (congrFun (Pieces.out1_A (F := Ideal) c (grid1.coords t) (ms1_0 t) (hs1_0 t) (ms1_1 t) (hs1_1 t) (ms1_2 t)
    (hs1_2 t) (ms1_3 t) (hs1_3 t) (ms1_4 t) (hs1_4 t) (ms1_5 t) (hs1_5 t) ((hcond1_0 t).mpr h0) (zblk V c t)
    (yblk V c t) (ctblk V c t) (c2blk V c t) (mgblk V c t)) (ix3 (0 : Fin 1) (0 : Fin 1) l)).trans ?_
  refine (R1Tile.pay1_apply (zblk V c t) (yblk V c t) (ctblk V c t) (c2blk V c t) (mgblk V c t)
    (k1_pay2 (F := Ideal)) l).trans ?_
  rw [R1Tile.pay2_apply]
  show Spec.zero32 + tileTerm V c t = tileTerm V c t
  exact (congrArg (· + tileTerm V c t) Ideal.ofBits_zero_f32).trans (zero_add _)

/-- At every other tile it gains the tile's term on top of what the tile before left. -/
private theorem step_B (c : Dev nD) (t : Fin cfg1.N) (h0 : ¬t.val % 32 = 0) (l : Fin 128) :
    outsAt1 V c t.val t.isLt (ix3 (0 : Fin 1) (0 : Fin 1) l)
      = outsAt1 V c (t.val - 1) (Nat.lt_of_le_of_lt (Nat.sub_le _ _) t.isLt) (ix3 (0 : Fin 1) (0 : Fin 1) l)
        + tileTerm V c t := by
  rw [outsAt1_B V c t h0]
  refine (congrFun (Pieces.out1_B (F := Ideal) c (grid1.coords t) (ms1_0 t) (hs1_0 t) (ms1_1 t) (hs1_1 t) (ms1_2 t)
    (hs1_2 t) (ms1_3 t) (hs1_3 t) (ms1_4 t) (hs1_4 t) (ms1_5 t) (hs1_5 t) (fun h => h0 ((hcond1_0 t).mp h))
    (zblk V c t) (yblk V c t) (ctblk V c t) (c2blk V c t) (mgblk V c t)
    (outsAt1 V c (t.val - 1) (Nat.lt_of_le_of_lt (Nat.sub_le _ _) t.isLt))) (ix3 (0 : Fin 1) (0 : Fin 1) l)).trans ?_
  exact R1Tile.pay1_apply (zblk V c t) (yblk V c t) (ctblk V c t) (c2blk V c t) (mgblk V c t)
    (outsAt1 V c (t.val - 1) (Nat.lt_of_le_of_lt (Nat.sub_le _ _) t.isLt)) l

/-- Point n's term as a function of every natural (nothing past the grid). -/
private def M (c : Dev nD) (n : ℕ) : EReal := if h : n < cfg1.N then tileTerm V c ⟨n, h⟩ else 0

private theorem M_eq (c : Dev nD) (n : ℕ) (h : n < cfg1.N) : M V c n = tileTerm V c ⟨n, h⟩ := dif_pos h

/-- After point n the accumulator holds, on every lane, the sum of the terms of the tiles of n's core up to n. -/
private theorem inv (c : Dev nD) (l : Fin 128) : ∀ (n : ℕ) (h : n < cfg1.N),
    outsAt1 V c n h (ix3 (0 : Fin 1) (0 : Fin 1) l) = ∑ s ∈ Finset.range (n % 32 + 1), M V c (n - n % 32 + s) := by
  intro n
  induction n with
  | zero =>
    intro h
    rw [step_A V c ⟨0, h⟩ rfl l]
    exact ((M_eq V c 0 h).symm.trans (Finset.sum_range_one _).symm)
  | succ n ih =>
    intro h
    by_cases h0 : (n + 1) % 32 = 0
    · rw [step_A V c ⟨n + 1, h⟩ h0 l, h0, Finset.sum_range_one]
      exact (M_eq V c (n + 1) h).symm
    · rw [step_B V c ⟨n + 1, h⟩ h0 l]
      show outsAt1 V c n _ _ + tileTerm V c ⟨n + 1, h⟩ = _
      rw [ih (Nat.lt_of_succ_lt h)]
      have hr : (n + 1) % 32 = n % 32 + 1 := by omega
      have hb : n + 1 - (n % 32 + 1) = n - n % 32 := by omega
      have hn : n - n % 32 + (n % 32 + 1) = n + 1 := by omega
      rw [hr, hb, Finset.sum_range_succ _ (n % 32 + 1), hn, M_eq V c (n + 1) h]

/-- At a core's last tile the accumulator holds the core's whole margin sum. -/
private theorem at_flush (c : Dev nD) (t : Fin cfg1.N) (h31 : t.val % 32 = 31) (l : Fin 128) :
    outsAt1 V c t.val t.isLt (ix3 (0 : Fin 1) (0 : Fin 1) l)
      = Spec.marginAcc (zarr V c) (yarr V c) (ctarr V c) (c2arr V c) (mgarr V c) (ix3 (coreOf t) (0 : Fin 1) l) := by
  have hN : t.val < 64 := lt_of_lt_of_eq t.isLt (show cfg1.N = 64 from N_1)
  rw [inv V c l t.val t.isLt, h31]
  show ∑ s ∈ Finset.range 32, M V c (t.val - 31 + s)
    = Spec.overTiles (Spec.marginRowK (zarr V c) (yarr V c) (ctarr V c) (c2arr V c) (mgarr V c)) (coreOf t)
  unfold Spec.overTiles
  rw [Finset.sum_range]
  refine Finset.sum_congr rfl fun s _ => ?_
  have hs : t.val - 31 + s.val < cfg1.N := lt_of_lt_of_eq (by have := s.isLt; omega) (show cfg1.N = 64 from N_1).symm
  have ec : coreOf ⟨t.val - 31 + s.val, hs⟩ = coreOf t :=
    Fin.ext (by show (t.val - 31 + s.val) / 32 = t.val / 32; have := s.isLt; omega)
  have et : tileOf ⟨t.val - 31 + s.val, hs⟩ = s :=
    Fin.ext (by show (t.val - 31 + s.val) % 32 = s.val; have := s.isLt; omega)
  rw [M_eq V c _ hs, tileTerm_eq, ec, et]

/-- What a core's last tile writes back is the core's block of the margin sums. -/
private theorem flushed_eq (c : Dev nD) (t : Fin cfg1.N) (hf : (cfg1.win 5).flush t = true) :
    (dat1 V c).flushed 5 t = ((cfg1.win 5).blk t).view.read (Elt Ideal)
      (Spec.marginAcc (zarr V c) (yarr V c) (ctarr V c) (c2arr V c) (mgarr V c)) := by
  have h31 : t.val % 32 = 31 := (flush1_5 t).mp hf
  obtain ⟨-, -, -, -, -, -, -, -, -, -, e0, e1, e2⟩ := idx_facts t
  show (cfg1.win 5).cut (grid1.coords t) ((dat1 V c).after 5 t) = _
  rw [after1_5]
  funext j
  rw [View.read_apply]
  show outsAt1 V c t.val t.isLt j
    = Spec.marginAcc (zarr V c) (yarr V c) (ctarr V c) (c2arr V c) (mgarr V c) (((cfg1.win 5).blk t).view.emb j)
  have hj0 : (j 0).val < 1 := (j 0).isLt
  have hj1 : (j 1).val < 1 := (j 1).isLt
  have h0 : @Eq (Fin 1) (j 0) 0 := Fin.ext (by show (j 0).val = 0; omega)
  have h1 : @Eq (Fin 1) (j 1) 0 := Fin.ext (by show (j 1).val = 0; omega)
  have hj : (j : S1x1x128.Idx) = ix3 (0 : Fin 1) (0 : Fin 1) (j 2) := (@eq_ix3 1 1 128 j).trans (by rw [h0, h1]; rfl)
  refine (congrArg (outsAt1 V c t.val t.isLt) hj).trans ((at_flush V c t h31 (j 2)).trans (congrArg _ ?_))
  funext a
  apply Fin.ext
  match a with
  | ⟨0, _⟩ => show t.val / 32 = win1_5.index t (0 : Fin 3) * 1 + 1 * (j 0).val; rw [e0]; omega
  | ⟨1, _⟩ => show 0 = win1_5.index t (1 : Fin 3) * 1 + 1 * (j 1).val; rw [e1]; omega
  | ⟨2, _⟩ => show (j 2).val = win1_5.index t (2 : Fin 3) * 128 + 1 * (j 2).val; rw [e2]; omega

/-- An index of the output array is in point t's block iff each coordinate is in the block's range. -/
private theorem mem_blk (t : Fin cfg1.N) (i : Spec.SA1.Idx) :
    i ∈ ((cfg1.win 5).blk t).view.set ↔ ∀ a : Fin 3, win1_5.index t a * S1x1x128.size a ≤ (i a).val
      ∧ (i a).val < win1_5.index t a * S1x1x128.size a + S1x1x128.size a := by
  show i ∈ ((View.whole main_v50).slice (win1_5.rect t)).set ↔ _
  rw [View.set_slice_whole, Rect.mem_set_unit]
  exact Iff.rfl

/-- The two cores' blocks cover the output array: block core is written back at the core's last tile. -/
private theorem cover (i : Spec.SA1.Idx) :
    ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 128 := (i 2).isLt
  have ht : (i 0).val * 32 + 31 < cfg1.N := lt_of_lt_of_eq (by omega) (show cfg1.N = 64 from N_1).symm
  obtain ⟨-, -, -, -, -, -, -, -, -, -, e0, e1, e2⟩ := idx_facts ⟨(i 0).val * 32 + 31, ht⟩
  refine ⟨⟨(i 0).val * 32 + 31, ht⟩, (flush1_5 _).mpr (by show ((i 0).val * 32 + 31) % 32 = 31; omega), ?_⟩
  rw [mem_blk]
  intro a
  match a with
  | ⟨0, _⟩ =>
    show win1_5.index ⟨(i 0).val * 32 + 31, ht⟩ (0 : Fin 3) * 1 ≤ (i 0).val
      ∧ (i 0).val < win1_5.index ⟨(i 0).val * 32 + 31, ht⟩ (0 : Fin 3) * 1 + 1
    rw [e0]; show ((i 0).val * 32 + 31) / 32 * 1 ≤ (i 0).val ∧ (i 0).val < ((i 0).val * 32 + 31) / 32 * 1 + 1; omega
  | ⟨1, _⟩ =>
    show win1_5.index ⟨(i 0).val * 32 + 31, ht⟩ (1 : Fin 3) * 1 ≤ (i 1).val
      ∧ (i 1).val < win1_5.index ⟨(i 0).val * 32 + 31, ht⟩ (1 : Fin 3) * 1 + 1
    rw [e1]; omega
  | ⟨2, _⟩ =>
    show win1_5.index ⟨(i 0).val * 32 + 31, ht⟩ (2 : Fin 3) * 128 ≤ (i 2).val
      ∧ (i 2).val < win1_5.index ⟨(i 0).val * 32 + 31, ht⟩ (2 : Fin 3) * 128 + 128
    rw [e2]; omega

/-- The margin sums: what pass 2 leaves in its output array. -/
theorem final5 (c : Dev nD) :
    ((dat1 V c).arrAt 5 cfg1.N : Spec.SA1.Idx → EReal)
      = Spec.marginAcc (V c main_arg0) (V c main_v1) (V c main_v46) (V c main_v49) (V c main_v5) :=
  (dat1 V c).arrAt_eq_of_cover 5 (Spec.marginAcc (zarr V c) (yarr V c) (ctarr V c) (c2arr V c) (mgarr V c))
    (flushed_eq V c) cover

end Cert.KernelIdeal.R1

end
-- ==== Proof.KHost.lean ====
/-
  The kernel program's host operations read as values: before pass 1 the labels are clipped and made a column and the
  two per-class tables padded to 128 lanes; between the passes the per-core partial results are summed over the cores,
  the centres updated, the radial and compact losses formed and pass 2's operands laid out (the padded table transposed,
  its rows' squared norms); after pass 2 the margin loss and the final combination.  No host operation and no pass
  writes a buffer it does not own, so each value is read where it was made.

  The host operations are read first over ANY contents V of the buffers they start from, as four folds (before pass 1;
  after pass 1 up to the updated centres; from the centres to pass 2's entry; after pass 2): each buffer of interest, at
  an index, is the specification's term of the buffers it was made from.  Then the folds are composed along the run:
  pass 1's arrays at its exit are what its value lemmas say of its operands, pass 2's likewise, and the result buffer
  holds the specification's total.
-/
import proofs.«401768_j5746666242188_3_alg».proof.Proof.Gen.KernelIdeal.Frame
import proofs.«401768_j5746666242188_3_alg».proof.Proof.Spec
import proofs.«401768_j5746666242188_3_alg».proof.Proof.R0Value
import proofs.«401768_j5746666242188_3_alg».proof.Proof.R1Value
import proofs.«401768_j5746666242188_3_alg».proof.Proof.LibUnitAxes
import Idealize.ShloMosaic.Lib.StableHlo.Run
import Idealize.ShloMosaic.Lib.ValueLayout
import Idealize.ShloMosaic.Lib.KernelVsHost
import Idealize.ShloMosaic.Lib.IdealHost
import Idealize.ShloMosaic.PureOps.Ideal.Laws
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-! ## Before pass 1: the clipped label column and the two padded tables -/

/-- The seven host stretches before pass 1, as one fold. -/
abbrev hostBefore (V : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 V))))))

theorem hostBefore_v1 (V : Valuation τ sig (Elt Ideal)) :
    (hostBefore V (Proc.devRef .tc main_v1) : Spec.SYc.Idx → BitVec 32) = Spec.ycOf (V (Proc.devRef .tc main_arg1)) := by
  unfold hostBefore
  after_results
  funext j
  obtain ⟨i, u, rfl⟩ : ∃ (i : Fin 262144) (u : Fin 1), j = ix2 i u := ⟨j 0, j 1, eq_ix2 j⟩
  show shapeCast S262144x1 (minsi (broadcastInDim S262144 ![] bcast_S_S262144 (constantI S_ 32 39#32))
    (maxsi (broadcastInDim S262144 ![] bcast_S_S262144 (constantI S_ 32 0#32)) (V (Proc.devRef .tc main_arg1))))
    shapeCasts_S262144_S262144x1 (ix2 i u) = _
  rw [Cert.Lib.shapeCast_a_a1_apply]
  rfl

/-- A 40-entry table padded to 128 lanes and laid out as a row: the entry where the lane is a class, the padding
    value elsewhere. -/
theorem padRow_apply (t : S40.Idx → EReal) (u : Fin 1) (l : Fin 128) :
    shapeCast S1x128 (pad S128 ![0] ![88] ![0] t (sitofp (F := Ideal) .f32 (constantI S_ 32 0#32)) pads_S40_S128_0880 h_S_)
      shapeCasts_S128_S1x128 (ix2 u l) = Spec.padTab t (ix2 u l) := by
  rw [shapeCast_a_1a_apply]
  unfold Spec.padTab
  by_cases h : l.val < 40
  · rw [dif_pos (show ((ix2 u l : Spec.SP.Idx) 1).val < 40 from h)]
    refine pad_apply_of_inside _ _ _ t _ _ _ (ix1 l) (ix1 ⟨l.val, h⟩) fun a => ?_
    match a with
    | ⟨0, _⟩ => show l.val = 0 + l.val * (0 + 1); omega
  · rw [dif_neg (show ¬((ix2 u l : Spec.SP.Idx) 1).val < 40 from h)]
    refine (pad_apply_of_not_inside _ _ _ t _ _ _ (ix1 l) (0 : Fin 1) ?_).trans rfl
    show ¬(0 ≤ l.val ∧ (l.val - 0) % (0 + 1) = 0 ∧ (l.val - 0) / (0 + 1) < 40)
    omega

theorem hostBefore_v3 (V : Valuation τ sig (Elt Ideal)) :
    (hostBefore V (Proc.devRef .tc main_v3) : Spec.SP.Idx → EReal) = Spec.padTab (V (Proc.devRef .tc main_arg4)) := by
  unfold hostBefore
  after_results
  funext j
  obtain ⟨u, l, rfl⟩ : ∃ (u : Fin 1) (l : Fin 128), j = ix2 u l := ⟨j 0, j 1, eq_ix2 j⟩
  exact padRow_apply (V (Proc.devRef .tc main_arg4)) u l

theorem hostBefore_v5 (V : Valuation τ sig (Elt Ideal)) :
    (hostBefore V (Proc.devRef .tc main_v5) : Spec.SP.Idx → EReal) = Spec.padTab (V (Proc.devRef .tc main_arg5)) := by
  unfold hostBefore
  after_results
  funext j
  obtain ⟨u, l, rfl⟩ : ∃ (u : Fin 1) (l : Fin 128), j = ix2 u l := ⟨j 0, j 1, eq_ix2 j⟩
  exact padRow_apply (V (Proc.devRef .tc main_arg5)) u l

theorem hostBefore_arg (V : Valuation τ sig (Elt Ideal)) :
    hostBefore V (Proc.devRef .tc main_arg0) = V (Proc.devRef .tc main_arg0)
    ∧ hostBefore V (Proc.devRef .tc main_arg2) = V (Proc.devRef .tc main_arg2)
    ∧ hostBefore V (Proc.devRef .tc main_arg3) = V (Proc.devRef .tc main_arg3) := by
  unfold hostBefore
  refine ⟨?_, ?_, ?_⟩ <;> after_results

/-! ## Sums over the core axis, and layout operations on unit axes, read at an index -/

/-- Summing the core axis of the per-core class sums: at (r, d) the initial value plus the two cores' entries. -/
theorem coreSum3_apply (x : S2x128x128.Idx → EReal) (init : EReal)
    (h' : S2x128x128.ReducesTo [0] S128x128) (r d : Fin 128) :
    Ideal.hostReduceAdd h' x init (ix2 r d) = init + ∑ core : Fin 2, x (ix3 core r d) := by
  have h : S2x128x128.Reduces [0] S128x128 := by decide
  rw [Ideal.hostReduceAdd_single h' h]
  refine congrArg (init + ·) (Finset.sum_congr rfl fun k _ => congrArg x ?_)
  funext a; apply Fin.ext
  fin_cases a <;> rfl

/-- Summing the core axis of a per-core accumulator row: at (u, l) the initial value plus the two cores' entries. -/
theorem coreSum1_apply (x : S2x1x128.Idx → EReal) (init : EReal)
    (h' : S2x1x128.ReducesTo [0] S1x128) (u : Fin 1) (l : Fin 128) :
    Ideal.hostReduceAdd h' x init (ix2 u l) = init + ∑ core : Fin 2, x (ix3 core u l) := by
  have h : S2x1x128.Reduces [0] S1x128 := by decide
  rw [Ideal.hostReduceAdd_single h' h]
  refine congrArg (init + ·) (Finset.sum_congr rfl fun k _ => congrArg x ?_)
  funext a; apply Fin.ext
  fin_cases a <;> rfl

section Layout
variable {α : Type}

/-- A [1, 1] array read as a scalar. -/
theorem shapeCast_11_scalar_apply (x : S1x1.Idx → α) (h : S1x1.ShapeCasts S_) (j : S_.Idx) :
    shapeCast S_ x h j = x (ix2 (0 : Fin 1) (0 : Fin 1)) :=
  shapeCast_apply x h _ _ (by
    have h1 := (S1x1.rowMajor (ix2 (0 : Fin 1) (0 : Fin 1))).isLt
    have h2 := (S_.rowMajor j).isLt
    have e1 : S1x1.numel = 1 := by decide
    have e2 : S_.numel = 1 := by decide
    omega)

/-- A vector cut from entry o reads, at j, the source at i = o + j. -/
theorem slice1_apply {n k : ℕ} (o : ℕ) (X : (⟨1, ![n]⟩ : Shape).Idx → α) (h : (⟨1, ![n]⟩ : Shape).Slices ![o] ⟨1, ![k]⟩)
    (j : Fin k) (i : Fin n) (hi : i.val = o + j.val) :
    extractStridedSlice ⟨1, ![k]⟩ ![o] X h (ix1 j) = X (ix1 i) :=
  extractStridedSlice_apply _ _ _ _ _ (fun ax => by match ax with | ⟨0, _⟩ => exact hi)

/-- A per-class vector kept as a column and spread over the 128 coordinates: at (c, d) the entry of class c. -/
theorem colSpread_apply (x : S40.Idx → α) (c : Fin 40) (d : Fin 128) :
    broadcastInDim S40x128 ![0, 1] bcast_S40x1_S40x128_0_1 (broadcastInDim S40x1 ![0] bcast_S40_S40x1_0 x) (ix2 c d)
      = x (ix1 c) := by
  rw [broadcastInDim_apply _ _ _ (ix2 c d) (ix2 c (0 : Fin 1)) (fun a => by
        match a with
        | ⟨0, _⟩ => rfl
        | ⟨1, _⟩ => rfl),
    broadcastInDim_apply _ _ _ (ix2 c (0 : Fin 1)) (ix1 c) (fun a => by
        match a with
        | ⟨0, _⟩ => rfl)]

end Layout

/-- The host's class sums: the per-core sums added over the cores, cut to the 40 classes. -/
theorem sums_ops (S : S2x128x128.Idx → EReal) (c : Fin 40) (d : Fin 128) :
    extractStridedSlice S40x128 ![0, 0] (Host.reduceAdd (F := Ideal) S (constant (F := Ideal) S_ .f32 0x00000000#32)
      reducesTo_S2x128x128_S128x128_d0 h_S_) slices_S128x128_S40x128_0_0 (ix2 c d) = Spec.sumsK S c d := by
  rw [slice2_axis0_apply 0 _ _ c d (⟨c.val, by omega⟩ : Fin 128) (Nat.zero_add _).symm, hostReduceAdd_apply, coreSum3_apply]
  rfl

/-- The host's class counts: the per-core count rows added over the cores, as a vector, cut to the 40 classes. -/
theorem cnt_ops (C : S2x1x128.Idx → EReal) (c : Fin 40) :
    extractStridedSlice S40 ![0] (shapeCast S128 (Host.reduceAdd (F := Ideal) C (constant (F := Ideal) S_ .f32 0x00000000#32)
      reducesTo_S2x1x128_S1x128_d0 h_S_) shapeCasts_S1x128_S128) slices_S128_S40_0 (ix1 c) = Spec.cntK C c := by
  rw [slice1_apply 0 _ _ c (⟨c.val, by omega⟩ : Fin 128) (Nat.zero_add _).symm, shapeCast_1a_a_apply, hostReduceAdd_apply,
    coreSum1_apply]
  rfl

/-- A lane-replicated accumulator row added over the cores and read at lane 0, as a scalar. -/
theorem lane0_ops (A : S2x1x128.Idx → EReal) (j : S_.Idx) :
    shapeCast S_ (extractStridedSlice S1x1 ![0, 0] (Host.reduceAdd (F := Ideal) A (constant (F := Ideal) S_ .f32 0x00000000#32)
      reducesTo_S2x1x128_S1x128_d0 h_S_) slices_S1x128_S1x1_0_0) shapeCasts_S1x1_S_ j = Spec.lane0 A := by
  rw [shapeCast_11_scalar_apply, slice2_axis1_apply 0 _ _ (0 : Fin 1) (0 : Fin 1) (0 : Fin 128) rfl,
    hostReduceAdd_apply, coreSum1_apply]
  rfl

/-- The host's centre update, read at (c, d): the moving average of the class mean where the class has rows and is
    initialised, the mean where it has rows and is not, the old centre where it has none. -/
theorem cUpd_ops (S17 ctr : S40x128.Idx → EReal) (C16 : S40.Idx → EReal) (ini : S40.Idx → BitVec 1) (c : Fin 40) (d : Fin 128) :
    select
      (broadcastInDim S40x128 ![0, 1] bcast_S40x1_S40x128_0_1 (broadcastInDim S40x1 ![0] bcast_S40_S40x1_0
        (cmpf (F := Ideal) .ogt C16 (broadcastInDim S40 ![] bcast_S_S40 (constant (F := Ideal) S_ .f32 0x00000000#32)))))
      (select
        (broadcastInDim S40x128 ![0, 1] bcast_S40x1_S40x128_0_1 (broadcastInDim S40x1 ![0] bcast_S40_S40x1_0 ini))
        (addf (F := Ideal)
          (mulf (F := Ideal) (broadcastInDim S40x128 ![] bcast_S_S40x128 (constant (F := Ideal) S_ .f32 0x3F666666#32)) ctr)
          (mulf (F := Ideal) (broadcastInDim S40x128 ![] bcast_S_S40x128 (constant (F := Ideal) S_ .f32 0x3DCCCCCD#32))
            (Host.divf (F := Ideal) S17 (broadcastInDim S40x128 ![0, 1] bcast_S40x1_S40x128_0_1
              (broadcastInDim S40x1 ![0] bcast_S40_S40x1_0 (maximumf (F := Ideal) C16
                (broadcastInDim S40 ![] bcast_S_S40 (constant (F := Ideal) S_ .f32 0x3F800000#32))))))))
        (Host.divf (F := Ideal) S17 (broadcastInDim S40x128 ![0, 1] bcast_S40x1_S40x128_0_1
          (broadcastInDim S40x1 ![0] bcast_S40_S40x1_0 (maximumf (F := Ideal) C16
            (broadcastInDim S40 ![] bcast_S_S40 (constant (F := Ideal) S_ .f32 0x3F800000#32)))))))
      ctr (ix2 c d)
    = Spec.cUpd (fun c d => S17 (ix2 c d)) (fun c => C16 (ix1 c)) ctr ini c d := by
  have hI : ∀ x : IVec S40 1, broadcastInDim S40x128 ![0, 1] bcast_S40x1_S40x128_0_1
      (broadcastInDim S40x1 ![0] bcast_S40_S40x1_0 x) (ix2 c d) = x (ix1 c) := fun x => colSpread_apply x c d
  have hF : ∀ x : FVec Ideal S40 .f32, broadcastInDim S40x128 ![0, 1] bcast_S40x1_S40x128_0_1
      (broadcastInDim S40x1 ![0] bcast_S40_S40x1_0 x) (ix2 c d) = x (ix1 c) := fun x => colSpread_apply x c d
  simp only [select_apply, addf_apply, mulf_apply, hostDivf_apply, hI, hF]
  rfl

/-! ## After pass 1, up to the updated centres -/

/-- The host stretches between the passes up to the updated centres, as one fold. -/
abbrev toCentres (V : Valuation τ sig (Elt Ideal)) : Valuation τ sig (Elt Ideal) :=
  StableHlo.after hostOps1_3 (StableHlo.after hostOps1_2 (StableHlo.after hostOps1_1 (StableHlo.after hostOps1 V)))

/-- The class sums over both cores, restricted to the 40 classes. -/
theorem toCentres_v17 (V : Valuation τ sig (Elt Ideal)) (c : Fin 40) (d : Fin 128) :
    (toCentres V (Proc.devRef .tc main_v17) : Spec.SC.Idx → EReal) (ix2 c d) = Spec.sumsK (V (Proc.devRef .tc main_v6_0)) c d := by
  unfold toCentres
  after_results
  exact sums_ops _ c d

/-- The class counts over both cores. -/
theorem toCentres_v16 (V : Valuation τ sig (Elt Ideal)) (c : Fin 40) :
    (toCentres V (Proc.devRef .tc main_v16) : Spec.SK.Idx → EReal) (ix1 c) = Spec.cntK (V (Proc.devRef .tc main_v6_1)) c := by
  unfold toCentres
  after_results
  exact cnt_ops _ c

/-- The radial and squared-norm totals: lane 0 of the accumulator rows, over both cores. -/
theorem toCentres_v12 (V : Valuation τ sig (Elt Ideal)) :
    (toCentres V (Proc.devRef .tc main_v12) : S_.Idx → EReal) ix0 = Spec.lane0 (V (Proc.devRef .tc main_v6_2)) := by
  unfold toCentres
  after_results
  exact lane0_ops _ ix0

theorem toCentres_v15 (V : Valuation τ sig (Elt Ideal)) :
    (toCentres V (Proc.devRef .tc main_v15) : S_.Idx → EReal) ix0 = Spec.lane0 (V (Proc.devRef .tc main_v6_3)) := by
  unfold toCentres
  after_results
  exact lane0_ops _ ix0

theorem toCentres_v33 (V : Valuation τ sig (Elt Ideal)) (c : Fin 40) (d : Fin 128) :
    (toCentres V (Proc.devRef .tc main_v33) : Spec.SC.Idx → EReal) (ix2 c d)
      = Spec.cUpd (Spec.sumsK (V (Proc.devRef .tc main_v6_0))) (Spec.cntK (V (Proc.devRef .tc main_v6_1)))
          (V (Proc.devRef .tc main_arg2)) (V (Proc.devRef .tc main_arg3)) c d := by
  unfold toCentres
  after_results_simp
  refine (cUpd_ops _ _ _ _ c d).trans ?_
  exact congrArg₂ (fun s n => Spec.cUpd s n (V (Proc.devRef .tc main_arg2)) (V (Proc.devRef .tc main_arg3)) c d)
    (funext fun c' => funext fun d' => sums_ops _ c' d') (funext fun c' => cnt_ops _ c')

/-- The host stretches between the passes write none of pass 2's carried operands. -/
theorem toCentres_keep (V : Valuation τ sig (Elt Ideal)) :
    toCentres V (Proc.devRef .tc main_arg0) = V (Proc.devRef .tc main_arg0)
    ∧ toCentres V (Proc.devRef .tc main_v1) = V (Proc.devRef .tc main_v1)
    ∧ toCentres V (Proc.devRef .tc main_v5) = V (Proc.devRef .tc main_v5) := by
  unfold toCentres
  refine ⟨?_, ?_, ?_⟩ <;> after_results_simp

/-! ## From the updated centres to pass 2's entry: the two scalar losses and pass 2's operands -/

/-- A rank-1 index set is its one coordinate range … -/
def idxEquiv1 {n : ℕ} : (⟨1, ![n]⟩ : Shape).Idx ≃ Fin n where
  toFun i := i 0
  invFun k := ix1 k
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- A host sum along the rows of an [a, b] array: at r the initial value plus row r's entries. -/
theorem rowSum_apply {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (r : Fin a) :
    Ideal.hostReduceAdd h' x init (ix1 r) = init + ∑ d : Fin b, x (ix2 r d) := by
  rw [Ideal.hostReduceAdd_single h' h]
  exact congrArg (init + ·) (Finset.sum_congr rfl fun k _ => congrArg x (Cert.Lib.lift_row_col h r k))

/-- The host stretches from the updated centres to pass 2's entry, as one fold. -/
abbrev toPass2 (V : Valuation τ sig (Elt Ideal)) : Valuation τ sig (Elt Ideal) :=
  StableHlo.after hostOps1_6 (StableHlo.after hostOps1_5 (StableHlo.after hostOps1_4 V))

/-- The compact loss in closed form, as the host computes it: Σ‖z‖² − 2 Σ c·sums + Σ count·‖c‖², over B. -/
theorem comp_ops (sq : S_.Idx → EReal) (cc S17 : S40x128.Idx → EReal) (C16 : S40.Idx → EReal) (j : S_.Idx) :
    Host.divf (F := Ideal)
      (addf (F := Ideal)
        (subf (F := Ideal) sq (mulf (F := Ideal) (constant (F := Ideal) S_ .f32 0x40000000#32)
          (Host.reduceAdd (F := Ideal) (mulf (F := Ideal) cc S17) (constant (F := Ideal) S_ .f32 0x00000000#32)
            reducesTo_S40x128_S_d0_1 h_S_)))
        (Host.reduceAdd (F := Ideal) (mulf (F := Ideal) C16
          (Host.reduceAdd (F := Ideal) (mulf (F := Ideal) cc cc) (constant (F := Ideal) S_ .f32 0x00000000#32)
            reducesTo_S40x128_S40_d1 h_S_)) (constant (F := Ideal) S_ .f32 0x00000000#32) reducesTo_S40_S_d0 h_S_))
      (constant (F := Ideal) S_ .f32 0x48800000#32) j
    = Ideal.div (Spec.compSumK (sq j) (fun c d => cc (ix2 c d)) (fun c d => S17 (ix2 c d)) (fun c => C16 (ix1 c))) Spec.nB := by
  have hrow : S40x128.Reduces [1] S40 := by decide
  rw [hostDivf_apply, addf_apply, subf_apply, mulf_apply, hostReduceAdd_apply, hostReduceAdd_apply,
    Ideal.hostReduceAdd_total _ (fun b => b.elim0), Ideal.hostReduceAdd_total _ (fun b => b.elim0), sum_idx2, sum_idx1]
  simp only [mulf_apply, hostReduceAdd_apply, rowSum_apply _ _ _ hrow]
  rfl

/-- The centre table padded to 128 rows: row l of the table where l is a class, the padding value elsewhere. -/
theorem padRows_apply (cc : S40x128.Idx → EReal) (l d : Fin 128) :
    pad S128x128 ![0, 0] ![88, 0] ![0, 0] cc (sitofp (F := Ideal) .f32 (constantI S_ 32 0#32))
      pads_S40x128_S128x128_0880_000 h_S_ (ix2 l d) = Spec.cpad (fun c d => cc (ix2 c d)) l d := by
  unfold Spec.cpad
  by_cases h : l.val < 40
  · rw [dif_pos h]
    refine pad_apply_of_inside _ _ _ cc _ _ _ (ix2 l d) (ix2 ⟨l.val, h⟩ d) fun a => ?_
    match a with
    | ⟨0, _⟩ => show l.val = 0 + l.val * (0 + 1); omega
    | ⟨1, _⟩ => show d.val = 0 + d.val * (0 + 1); omega
  · rw [dif_neg h]
    refine (pad_apply_of_not_inside _ _ _ cc _ _ _ (ix2 l d) (0 : Fin 2) ?_).trans rfl
    show ¬(0 ≤ l.val ∧ (l.val - 0) % (0 + 1) = 0 ∧ (l.val - 0) / (0 + 1) < 40)
    omega

/-- The padded table's rows' squared norms, laid out as a row. -/
theorem c2_ops (cc : S40x128.Idx → EReal) (u : Fin 1) (l : Fin 128) :
    shapeCast S1x128 (Host.reduceAdd (F := Ideal)
        (mulf (F := Ideal)
          (pad S128x128 ![0, 0] ![88, 0] ![0, 0] cc (sitofp (F := Ideal) .f32 (constantI S_ 32 0#32))
            pads_S40x128_S128x128_0880_000 h_S_ : FVec Ideal S128x128 .f32)
          (pad S128x128 ![0, 0] ![88, 0] ![0, 0] cc (sitofp (F := Ideal) .f32 (constantI S_ 32 0#32))
            pads_S40x128_S128x128_0880_000 h_S_ : FVec Ideal S128x128 .f32))
        (constant (F := Ideal) S_ .f32 0x00000000#32) reducesTo_S128x128_S128_d1 h_S_) shapeCasts_S128_S1x128 (ix2 u l)
      = Spec.c2Of (fun c d => cc (ix2 c d)) (ix2 u l) := by
  have hrow : S128x128.Reduces [1] S128 := by decide
  rw [shapeCast_a_1a_apply, hostReduceAdd_apply, rowSum_apply _ _ _ hrow]
  simp only [mulf_apply, padRows_apply]
  rfl

/-- The radial loss over B, and the compact loss over B. -/
theorem toPass2_v34 (V : Valuation τ sig (Elt Ideal)) (j : S_.Idx) :
    (toPass2 V (Proc.devRef .tc main_v34) : S_.Idx → EReal) j
      = Ideal.div ((V (Proc.devRef .tc main_v12) : S_.Idx → EReal) j) Spec.nB := by
  unfold toPass2
  after_results_simp
  rfl
theorem toPass2_v44 (V : Valuation τ sig (Elt Ideal)) (j : S_.Idx) :
    (toPass2 V (Proc.devRef .tc main_v44) : S_.Idx → EReal) j
      = Ideal.div (Spec.compSumK ((V (Proc.devRef .tc main_v15) : S_.Idx → EReal) j)
          (fun c d => (V (Proc.devRef .tc main_v33) : S40x128.Idx → EReal) (ix2 c d))
          (fun c d => (V (Proc.devRef .tc main_v17) : S40x128.Idx → EReal) (ix2 c d))
          (fun c => (V (Proc.devRef .tc main_v16) : S40.Idx → EReal) (ix1 c))) Spec.nB := by
  unfold toPass2
  after_results_simp
  exact comp_ops _ _ _ _ j

/-- Pass 2's operands: the padded centre table transposed, and its rows' squared norms as a row. -/
theorem toPass2_v46 (V : Valuation τ sig (Elt Ideal)) :
    (toPass2 V (Proc.devRef .tc main_v46) : Spec.SCt.Idx → EReal)
      = Spec.ctOf (fun c d => (V (Proc.devRef .tc main_v33) : S40x128.Idx → EReal) (ix2 c d)) := by
  unfold toPass2
  after_results_simp
  funext j
  obtain ⟨k, l, rfl⟩ : ∃ (k l : Fin 128), j = ix2 k l := ⟨j 0, j 1, eq_ix2 j⟩
  refine (transpose_ix2_apply _ _ k l).trans ?_
  exact padRows_apply _ l k
theorem toPass2_v49 (V : Valuation τ sig (Elt Ideal)) :
    (toPass2 V (Proc.devRef .tc main_v49) : Spec.SP.Idx → EReal)
      = Spec.c2Of (fun c d => (V (Proc.devRef .tc main_v33) : S40x128.Idx → EReal) (ix2 c d)) := by
  unfold toPass2
  after_results_simp
  funext j
  obtain ⟨u, l, rfl⟩ : ∃ (u : Fin 1) (l : Fin 128), j = ix2 u l := ⟨j 0, j 1, eq_ix2 j⟩
  exact c2_ops _ u l

/-- The stretches from the centres to pass 2 write none of pass 2's carried operands. -/
theorem toPass2_keep (V : Valuation τ sig (Elt Ideal)) :
    toPass2 V (Proc.devRef .tc main_arg0) = V (Proc.devRef .tc main_arg0)
    ∧ toPass2 V (Proc.devRef .tc main_v1) = V (Proc.devRef .tc main_v1)
    ∧ toPass2 V (Proc.devRef .tc main_v5) = V (Proc.devRef .tc main_v5) := by
  unfold toPass2
  refine ⟨?_, ?_, ?_⟩ <;> after_results_simp

/-! ## After pass 2: the margin loss and the final combination -/

/-- The final combination as the host computes it: the margin sum read at lane 0 over both cores and divided by B,
    then 1·radial + ½·compact + 1·margin. -/
theorem total_ops (r cpt : S_.Idx → EReal) (M : S2x1x128.Idx → EReal) (j : S_.Idx) :
    addf (F := Ideal)
      (addf (F := Ideal) (mulf (F := Ideal) (constant (F := Ideal) S_ .f32 0x3F800000#32) r)
        (mulf (F := Ideal) (constant (F := Ideal) S_ .f32 0x3F000000#32) cpt))
      (mulf (F := Ideal) (constant (F := Ideal) S_ .f32 0x3F800000#32)
        (Host.divf (F := Ideal)
          (shapeCast S_ (extractStridedSlice S1x1 ![0, 0] (Host.reduceAdd (F := Ideal) M
            (constant (F := Ideal) S_ .f32 0x00000000#32) reducesTo_S2x1x128_S1x128_d0 h_S_) slices_S1x128_S1x1_0_0)
            shapeCasts_S1x1_S_)
          (constant (F := Ideal) S_ .f32 0x48800000#32))) j
    = (Spec.one32 * r j + Spec.half32 * cpt j) + Spec.one32 * Ideal.div (Spec.lane0 M) Spec.nB := by
  rw [addf_apply, addf_apply, mulf_apply, mulf_apply, mulf_apply, hostDivf_apply, lane0_ops]
  rfl

theorem last_v59 (V : Valuation τ sig (Elt Ideal)) (j : S_.Idx) :
    (StableHlo.after hostOps2 V (Proc.devRef .tc main_v59) : S_.Idx → EReal) j
      = (Spec.one32 * (V (Proc.devRef .tc main_v34) : S_.Idx → EReal) j
          + Spec.half32 * (V (Proc.devRef .tc main_v44) : S_.Idx → EReal) j)
        + Spec.one32 * Ideal.div (Spec.lane0 (V (Proc.devRef .tc main_v50))) Spec.nB := by
  after_results_simp
  exact total_ops _ _ _ j

/-! ## The folds composed along the run -/

/-- Pass 1's operands as it is entered: the embeddings as launched, the clipped label column, the padded radii. -/
theorem W7_arg0 (c : Dev nD) : W7 m ρ c (Proc.devRef .tc main_arg0) = m ((c : Thread nD τ).loc main_arg0) :=
  (hostBefore_arg (W0 m ρ c)).1
theorem W7_arg2 (c : Dev nD) : W7 m ρ c (Proc.devRef .tc main_arg2) = m ((c : Thread nD τ).loc main_arg2) :=
  (hostBefore_arg (W0 m ρ c)).2.1
theorem W7_arg3 (c : Dev nD) : W7 m ρ c (Proc.devRef .tc main_arg3) = m ((c : Thread nD τ).loc main_arg3) :=
  (hostBefore_arg (W0 m ρ c)).2.2
theorem W7_v1 (c : Dev nD) : (W7 m ρ c (Proc.devRef .tc main_v1) : Spec.SYc.Idx → BitVec 32)
    = Spec.ycOf (m ((c : Thread nD τ).loc main_arg1)) := hostBefore_v1 (W0 m ρ c)
theorem W7_v3 (c : Dev nD) : (W7 m ρ c (Proc.devRef .tc main_v3) : Spec.SP.Idx → EReal)
    = Spec.padTab (m ((c : Thread nD τ).loc main_arg4)) := hostBefore_v3 (W0 m ρ c)
theorem W7_v5 (c : Dev nD) : (W7 m ρ c (Proc.devRef .tc main_v5) : Spec.SP.Idx → EReal)
    = Spec.padTab (m ((c : Thread nD τ).loc main_arg5)) := hostBefore_v5 (W0 m ρ c)

/-- Pass 1's four results, at its exit. -/
theorem W8_v6_0 (c : Dev nD) : (W8 m ρ c (Proc.devRef .tc main_v6_0) : Spec.SA3.Idx → EReal)
    = Spec.sumsAcc (m ((c : Thread nD τ).loc main_arg0)) (Spec.ycOf (m ((c : Thread nD τ).loc main_arg1))) := by
  refine (W8_arr m ρ c 3).trans ((R0.final3 (V7 m ρ) c).trans ?_)
  rw [show V7 m ρ c main_arg0 = m ((c : Thread nD τ).loc main_arg0) from W7_arg0 m ρ c,
    show (V7 m ρ c main_v1 : Spec.SYc.Idx → BitVec 32) = _ from W7_v1 m ρ c]

theorem W8_v6_1 (c : Dev nD) : (W8 m ρ c (Proc.devRef .tc main_v6_1) : Spec.SA1.Idx → EReal)
    = Spec.cntAcc (Spec.ycOf (m ((c : Thread nD τ).loc main_arg1))) := by
  refine (W8_arr m ρ c 4).trans ((R0.final4 (V7 m ρ) c).trans ?_)
  rw [show (V7 m ρ c main_v1 : Spec.SYc.Idx → BitVec 32) = _ from W7_v1 m ρ c]
theorem W8_v6_2 (c : Dev nD) : (W8 m ρ c (Proc.devRef .tc main_v6_2) : Spec.SA1.Idx → EReal)
    = Spec.radAcc (m ((c : Thread nD τ).loc main_arg0)) (Spec.ycOf (m ((c : Thread nD τ).loc main_arg1)))
        (Spec.padTab (m ((c : Thread nD τ).loc main_arg4))) := by
  refine (W8_arr m ρ c 5).trans ((R0.final5 (V7 m ρ) c).trans ?_)
  rw [show V7 m ρ c main_arg0 = m ((c : Thread nD τ).loc main_arg0) from W7_arg0 m ρ c,
    show (V7 m ρ c main_v1 : Spec.SYc.Idx → BitVec 32) = _ from W7_v1 m ρ c,
    show (V7 m ρ c main_v3 : Spec.SP.Idx → EReal) = _ from W7_v3 m ρ c]
theorem W8_v6_3 (c : Dev nD) : (W8 m ρ c (Proc.devRef .tc main_v6_3) : Spec.SA1.Idx → EReal)
    = Spec.sqAcc (m ((c : Thread nD τ).loc main_arg0)) := by
  refine (W8_arr m ρ c 6).trans ((R0.final6 (V7 m ρ) c).trans ?_)
  rw [show V7 m ρ c main_arg0 = m ((c : Thread nD τ).loc main_arg0) from W7_arg0 m ρ c]

/-- Pass 1 leaves its inputs and every buffer that is not one of its arrays as entered. -/
theorem W8_arg0 (c : Dev nD) : W8 m ρ c (Proc.devRef .tc main_arg0) = m ((c : Thread nD τ).loc main_arg0) :=
  ((W8_arr m ρ c 0).trans (((dat0 (V7 m ρ) c).arrAt_in 0 rfl _).trans (A_eq0 (V7 m ρ) c 0))).trans (W7_arg0 m ρ c)
theorem W8_v1 (c : Dev nD) : (W8 m ρ c (Proc.devRef .tc main_v1) : Spec.SYc.Idx → BitVec 32)
    = Spec.ycOf (m ((c : Thread nD τ).loc main_arg1)) :=
  ((W8_arr m ρ c 1).trans (((dat0 (V7 m ρ) c).arrAt_in 1 rfl _).trans (A_eq0 (V7 m ρ) c 1))).trans (W7_v1 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W8_v5 (c : Dev nD) : (W8 m ρ c (Proc.devRef .tc main_v5) : Spec.SP.Idx → EReal)
    = Spec.padTab (m ((c : Thread nD τ).loc main_arg5)) :=
  (W8_of_ne m ρ c main_v5 (by decide)).trans (W7_v5 m ρ c)

section Compose
variable (c : Dev nD)

/-- The six arguments as launched, and the kernel's stages of them, in the specification's words. -/
abbrev zA : Spec.SZ.Idx → EReal := m ((c : Thread nD τ).loc main_arg0)
abbrev yA : Spec.SY.Idx → BitVec 32 := m ((c : Thread nD τ).loc main_arg1)
abbrev ctrA : Spec.SC.Idx → EReal := m ((c : Thread nD τ).loc main_arg2)
abbrev iniA : Spec.SK.Idx → BitVec 1 := m ((c : Thread nD τ).loc main_arg3)
abbrev trA : Spec.SK.Idx → EReal := m ((c : Thread nD τ).loc main_arg4)
abbrev mgA : Spec.SK.Idx → EReal := m ((c : Thread nD τ).loc main_arg5)
abbrev ycA : Spec.SYc.Idx → BitVec 32 := Spec.ycOf (yA m c)
abbrev sumsA : Fin 40 → Fin 128 → EReal := Spec.sumsK (Spec.sumsAcc (zA m c) (ycA m c))
abbrev cntA : Fin 40 → EReal := Spec.cntK (Spec.cntAcc (ycA m c))
abbrev ccA : Fin 40 → Fin 128 → EReal := Spec.cUpd (sumsA m c) (cntA m c) (ctrA m c) (iniA m c)

/-- After the centre update (W12): the sums, the counts, the two totals and the updated centres. -/
theorem W12_v17 (k : Fin 40) (d : Fin 128) :
    (W12 m ρ c (Proc.devRef .tc main_v17) : Spec.SC.Idx → EReal) (ix2 k d) = sumsA m c k d := by
  refine (toCentres_v17 (W8 m ρ c) k d).trans ?_
  rw [W8_v6_0 m ρ c]
theorem W12_v16 (k : Fin 40) :
    (W12 m ρ c (Proc.devRef .tc main_v16) : Spec.SK.Idx → EReal) (ix1 k) = cntA m c k := by
  refine (toCentres_v16 (W8 m ρ c) k).trans ?_
  rw [W8_v6_1 m ρ c]
theorem W12_v12 (j : S_.Idx) :
    (W12 m ρ c (Proc.devRef .tc main_v12) : S_.Idx → EReal) j
      = Spec.lane0 (Spec.radAcc (zA m c) (ycA m c) (Spec.padTab (trA m c))) := by
  rw [eq_ix0 j]
  refine (toCentres_v12 (W8 m ρ c)).trans ?_
  rw [W8_v6_2 m ρ c]
theorem W12_v15 (j : S_.Idx) :
    (W12 m ρ c (Proc.devRef .tc main_v15) : S_.Idx → EReal) j = Spec.lane0 (Spec.sqAcc (zA m c)) := by
  rw [eq_ix0 j]
  refine (toCentres_v15 (W8 m ρ c)).trans ?_
  rw [W8_v6_3 m ρ c]
theorem W12_v33 (k : Fin 40) (d : Fin 128) :
    (W12 m ρ c (Proc.devRef .tc main_v33) : Spec.SC.Idx → EReal) (ix2 k d) = ccA m c k d := by
  refine (toCentres_v33 (W8 m ρ c) k d).trans ?_
  rw [W8_v6_0 m ρ c, W8_v6_1 m ρ c, W8_arg2 m ρ c, W8_arg3 m ρ c]

/-- At pass 2's entry (W15): its five operands, and the two scalars the last stretch reads. -/
theorem W15_arg0 : W15 m ρ c (Proc.devRef .tc main_arg0) = zA m c :=
  ((toPass2_keep (W12 m ρ c)).1.trans (toCentres_keep (W8 m ρ c)).1).trans (W8_arg0 m ρ c)
theorem W15_v1 : (W15 m ρ c (Proc.devRef .tc main_v1) : Spec.SYc.Idx → BitVec 32) = ycA m c :=
  ((toPass2_keep (W12 m ρ c)).2.1.trans (toCentres_keep (W8 m ρ c)).2.1).trans (W8_v1 m ρ c)
theorem W15_v5 : (W15 m ρ c (Proc.devRef .tc main_v5) : Spec.SP.Idx → EReal) = Spec.padTab (mgA m c) :=
  ((toPass2_keep (W12 m ρ c)).2.2.trans (toCentres_keep (W8 m ρ c)).2.2).trans (W8_v5 m ρ c)
theorem W12_cc : (fun k d => (W12 m ρ c (Proc.devRef .tc main_v33) : S40x128.Idx → EReal) (ix2 k d)) = ccA m c :=
  funext fun k => funext fun d => W12_v33 m ρ c k d
theorem W15_v46 : (W15 m ρ c (Proc.devRef .tc main_v46) : Spec.SCt.Idx → EReal) = Spec.ctOf (ccA m c) :=
  (toPass2_v46 (W12 m ρ c)).trans (congrArg Spec.ctOf (W12_cc m ρ c))
theorem W15_v49 : (W15 m ρ c (Proc.devRef .tc main_v49) : Spec.SP.Idx → EReal) = Spec.c2Of (ccA m c) :=
  (toPass2_v49 (W12 m ρ c)).trans (congrArg Spec.c2Of (W12_cc m ρ c))
theorem W15_v34 (j : S_.Idx) : (W15 m ρ c (Proc.devRef .tc main_v34) : S_.Idx → EReal) j
    = Ideal.div (Spec.lane0 (Spec.radAcc (zA m c) (ycA m c) (Spec.padTab (trA m c)))) Spec.nB :=
  (toPass2_v34 (W12 m ρ c) j).trans (congrArg (Ideal.div · Spec.nB) (W12_v12 m ρ c j))
theorem W15_v44 (j : S_.Idx) : (W15 m ρ c (Proc.devRef .tc main_v44) : S_.Idx → EReal) j
    = Ideal.div (Spec.compSumK (Spec.lane0 (Spec.sqAcc (zA m c))) (ccA m c) (sumsA m c) (cntA m c)) Spec.nB := by
  refine (toPass2_v44 (W12 m ρ c) j).trans ?_
  rw [W12_v15 m ρ c j, W12_cc m ρ c,
    show (fun k d => (W12 m ρ c (Proc.devRef .tc main_v17) : S40x128.Idx → EReal) (ix2 k d)) = sumsA m c from
      funext fun k => funext fun d => W12_v17 m ρ c k d,
    show (fun k => (W12 m ρ c (Proc.devRef .tc main_v16) : S40.Idx → EReal) (ix1 k)) = cntA m c from
      funext fun k => W12_v16 m ρ c k]

/-- At pass 2's exit (W16): the margin sums, and the two scalars untouched. -/
theorem W16_v50 : (W16 m ρ c (Proc.devRef .tc main_v50) : Spec.SA1.Idx → EReal)
    = Spec.marginAcc (zA m c) (ycA m c) (Spec.ctOf (ccA m c)) (Spec.c2Of (ccA m c)) (Spec.padTab (mgA m c)) := by
  refine (W16_arr m ρ c 5).trans ((R1.final5 (V15 m ρ) c).trans ?_)
  rw [show V15 m ρ c main_arg0 = zA m c from W15_arg0 m ρ c,
    show (V15 m ρ c main_v1 : Spec.SYc.Idx → BitVec 32) = _ from W15_v1 m ρ c,
    show (V15 m ρ c main_v46 : Spec.SCt.Idx → EReal) = _ from W15_v46 m ρ c,
    show (V15 m ρ c main_v49 : Spec.SP.Idx → EReal) = _ from W15_v49 m ρ c,
    show (V15 m ρ c main_v5 : Spec.SP.Idx → EReal) = _ from W15_v5 m ρ c]
theorem W16_v34 (j : S_.Idx) : (W16 m ρ c (Proc.devRef .tc main_v34) : S_.Idx → EReal) j
    = Ideal.div (Spec.lane0 (Spec.radAcc (zA m c) (ycA m c) (Spec.padTab (trA m c)))) Spec.nB :=
  (congrFun (W16_of_ne m ρ c main_v34 (by decide)) j).trans (W15_v34 m ρ c j)
theorem W16_v44 (j : S_.Idx) : (W16 m ρ c (Proc.devRef .tc main_v44) : S_.Idx → EReal) j
    = Ideal.div (Spec.compSumK (Spec.lane0 (Spec.sqAcc (zA m c))) (ccA m c) (sumsA m c) (cntA m c)) Spec.nB :=
  (congrFun (W16_of_ne m ρ c main_v44 (by decide)) j).trans (W15_v44 m ρ c j)

end Compose

/-- The result buffer's final contents: the kernel side's value of the loss, as a function of the six arguments. -/
theorem result (c : Dev nD) :
    (W17 m ρ c (Proc.devRef .tc main_v59) : (⟨0, ![]⟩ : Shape).Idx → EReal)
      = fun _ => Spec.kernelTotal (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext j
  refine (last_v59 (W16 m ρ c) j).trans ?_
  rw [W16_v34 m ρ c j, W16_v44 m ρ c j, W16_v50 m ρ c]
  rfl

end Cert.KernelIdeal.Host

end
-- ==== Proof.RefCent.lean ====
/-
  The reference's class sums, counts and updated centres read at an index.  A scatter-add's element is its operand's
  element (zero here) plus the sum of the updates whose index lands on it: the update of row i, column d lands on
  (c, d) exactly when row i's label, read signed, is c; labels outside the table contribute nothing.  The centre
  update is pointwise from there.
-/
import proofs.«401768_j5746666242188_3_alg».proof.Proof.RefRun
import proofs.«401768_j5746666242188_3_alg».proof.Proof.RefRead
import proofs.«401768_j5746666242188_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

noncomputable section

open Idealize.ShloMosaic Idealize.ShloMosaic.ValueIdx

namespace Cert.ReferenceIdeal.RefValue

open Cert.ReferenceIdeal Cert.ReferenceIdeal.ReadP Cert.Spec

open Cert.ReferenceIdeal.Gen

/-- The dimension numbers of the class-sums scatter (updates [262144, 128] into [40, 128]) … -/
private abbrev sc2 := scatter_S40x128_S262144x1_S262144x128_1_0_0_1
/-- … and of the counts scatter (updates [262144] into [40]). -/
private abbrev sc1 := scatter_S40_S262144x1_S262144_n_0_0_1

/-- The window of update (i, d') starts, on the class axis, at row i's index word read signed … -/
private theorem start2_0 {w : Nat} (j : S262144x128.Idx) (idx : IVec S262144x1 w) :
    sc2.start j idx 0 = (idx (ix2 (j 0) (0 : Fin 1))).toInt := by
  unfold ScatterDims.start
  rw [dif_pos (by decide)]
  refine congrArg (fun t => (idx t).toInt) ?_
  funext b
  match b with
  | ⟨0, _⟩ => rfl
  | ⟨1, _⟩ => rfl

/-- … and at 0 on the coordinate axis, which the index vector does not name. -/
private theorem start2_1 {w : Nat} (j : S262144x128.Idx) (idx : IVec S262144x1 w) :
    sc2.start j idx 1 = 0 := by
  unfold ScatterDims.start
  rw [dif_neg (by decide)]

/-- The class axis is an inserted one: no window coordinate there … -/
private theorem window2_0 (j : S262144x128.Idx) : sc2.window j 0 = 0 := by
  unfold ScatterDims.window
  rw [dif_neg (by decide)]

/-- … and the coordinate axis carries the update's own column. -/
private theorem window2_1 (j : S262144x128.Idx) : sc2.window j 1 = (j 1).val := by
  unfold ScatterDims.window
  rw [dif_pos (by decide)]
  rfl

/-- The same for the counts: the start on the one operand axis is row i's index word read signed, with no window. -/
private theorem start1_0 {w : Nat} (j : S262144.Idx) (idx : IVec S262144x1 w) :
    sc1.start j idx 0 = (idx (ix2 (j 0) (0 : Fin 1))).toInt := by
  unfold ScatterDims.start
  rw [dif_pos (by decide)]
  refine congrArg (fun t => (idx t).toInt) ?_
  funext b
  match b with
  | ⟨0, _⟩ => rfl
  | ⟨1, _⟩ => rfl

private theorem window1_0 (j : S262144.Idx) : sc1.window j 0 = 0 := by
  unfold ScatterDims.window
  rw [dif_neg (by decide)]

/-- The update (i, d') lands on (c, d) exactly when row i's index word, read signed, is c and d' = d. -/
private theorem resultIdx2_iff {w : Nat} (j : S262144x128.Idx) (idx : IVec S262144x1 w) (c : Fin 40) (d : Fin 128) :
    sc2.resultIdx? j idx = some (ix2 c d) ↔ (idx (ix2 (j 0) (0 : Fin 1))).toInt = (c.val : Int) ∧ j 1 = d := by
  unfold ScatterDims.resultIdx?
  split
  · next h =>
    rw [Option.some.injEq]
    constructor
    · intro he
      have h0 := congrArg (fun f => (f 0).val) he
      have h1 := congrArg (fun f => (f 1).val) he
      simp only [start2_0, start2_1, window2_0, window2_1] at h0 h1
      have hh := h 0
      rw [start2_0, window2_0] at hh
      change ((idx (ix2 (j 0) (0 : Fin 1))).toInt + ((0 : Nat) : Int)).toNat = c.val at h0
      change ((0 : Int) + ((j 1).val : Int)).toNat = d.val at h1
      refine ⟨by omega, Fin.ext (by omega)⟩
    · rintro ⟨hc, hd⟩
      funext a
      match a with
      | ⟨0, _⟩ =>
        apply Fin.ext
        show (sc2.start j idx 0 + sc2.window j 0).toNat = c.val
        rw [start2_0, window2_0, hc]; omega
      | ⟨1, _⟩ =>
        apply Fin.ext
        show (sc2.start j idx 1 + sc2.window j 1).toNat = d.val
        rw [start2_1, window2_1, ← hd]; omega
  · next h =>
    constructor
    · intro he; exact absurd he (by simp)
    · rintro ⟨hc, hd⟩
      exfalso; apply h
      intro a
      match a with
      | ⟨0, _⟩ =>
        show 0 ≤ sc2.start j idx 0 + sc2.window j 0 ∧ sc2.start j idx 0 + sc2.window j 0 < (40 : Nat)
        rw [start2_0, window2_0, hc]; have := c.isLt; omega
      | ⟨1, _⟩ =>
        show 0 ≤ sc2.start j idx 1 + sc2.window j 1 ∧ sc2.start j idx 1 + sc2.window j 1 < (128 : Nat)
        rw [start2_1, window2_1]; have := (j 1).isLt; change (j 1).val < 128 at this; omega

/-- The count update i lands on c exactly when row i's index word, read signed, is c. -/
private theorem resultIdx1_iff {w : Nat} (j : S262144.Idx) (idx : IVec S262144x1 w) (c : Fin 40) :
    sc1.resultIdx? j idx = some (ix1 c) ↔ (idx (ix2 (j 0) (0 : Fin 1))).toInt = (c.val : Int) := by
  unfold ScatterDims.resultIdx?
  split
  · next h =>
    rw [Option.some.injEq]
    constructor
    · intro he
      have h0 := congrArg (fun f => (f 0).val) he
      have hh := h 0
      rw [start1_0, window1_0] at hh
      change (sc1.start j idx 0 + sc1.window j 0).toNat = c.val at h0
      rw [start1_0, window1_0] at h0
      omega
    · intro hc
      funext a
      match a with
      | ⟨0, _⟩ =>
        apply Fin.ext
        show (sc1.start j idx 0 + sc1.window j 0).toNat = c.val
        rw [start1_0, window1_0, hc]; omega
  · next h =>
    constructor
    · intro he; exact absurd he (by simp)
    · intro hc
      exfalso; apply h
      intro a
      match a with
      | ⟨0, _⟩ =>
        show 0 ≤ sc1.start j idx 0 + sc1.window j 0 ∧ sc1.start j idx 0 + sc1.window j 0 < (40 : Nat)
        rw [start1_0, window1_0, hc]; have := c.isLt; omega

/-- A float scatter-add read at an index, over the extended reals: the operand's element plus the sum of the updates
    that land on it. -/
private theorem scatterAdd_apply {s si su : Shape} (dn : ScatterDims s si su) {w : Nat} (x : FVec Ideal s .f32) (idx : IVec si w)
    (upd : FVec Ideal su .f32) (i : s.Idx) :
    Host.scatterAdd dn x idx upd i
      = x i + ∑ j ∈ Finset.univ.filter (fun j => dn.resultIdx? j idx = some i), upd j := rfl

variable (x0 : (⟨S262144x128, .f32⟩ : BufTy).Contents (Elt Ideal)) (x1 : (⟨S262144, .i32⟩ : BufTy).Contents (Elt Ideal))
  (x2 : (⟨S40x128, .f32⟩ : BufTy).Contents (Elt Ideal)) (x3 : (⟨S40, .i1⟩ : BufTy).Contents (Elt Ideal))
  (x4 x5 : (⟨S40, .f32⟩ : BufTy).Contents (Elt Ideal))

theorem sums_apply (c : Fin 40) (d : Fin 128) : val_main_v2 (F := Ideal) x0 x1 (ix2 c d) = sumsR x0 x1 c d := by
  refine (scatterAdd_apply sc2 (val_main_v0 (F := Ideal)) (val_main_v1 (F := Ideal) x1) x0 (ix2 c d)).trans ?_
  unfold sumsR
  rw [val_main_v0_apply, val_main_cst_apply]
  refine congrArg (fun t => Ideal.ofBits .f32 0x00000000#32 + t) ?_
  rw [Finset.sum_filter]
  rw [sum_idx2]
  refine Finset.sum_congr rfl fun i _ => ?_
  have key : ∀ b : Fin 128, (sc2.resultIdx? (ix2 i b) (val_main_v1 (F := Ideal) x1) = some (ix2 c d)) ↔
      ((x1 (ix1 i)).toInt = (c.val : Int) ∧ b = d) := fun b => by
    rw [resultIdx2_iff (w := 32), val_main_v1_apply]
    have e : idx_main_v1 (ix2 ((ix2 i b : S262144x128.Idx) 0) (0 : Fin 1)) = ix1 i := by
      funext a; match a with | ⟨0, _⟩ => rfl
    rw [e]
    exact Iff.rfl
  simp only [key]
  by_cases hP : (x1 (ix1 i)).toInt = (c.val : Int)
  · simp only [hP, true_and, if_true]
    rw [Finset.sum_ite_eq' Finset.univ d (fun b => x0 (ix2 i b))]
    simp only [Finset.mem_univ, if_true]
  · simp only [hP, false_and, if_false, Finset.sum_const_zero]

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

theorem cnt_apply (c : Fin 40) : val_main_v6 (F := Ideal) x1 (ix1 c) = cntR x1 c := by
  refine (scatterAdd_apply sc1 (val_main_v4 (F := Ideal)) (val_main_v5 (F := Ideal) x1) (val_main_v3 (F := Ideal))
    (ix1 c)).trans ?_
  unfold cntR
  rw [val_main_v4_apply, val_main_cst_1_apply]
  refine congrArg (fun t => Ideal.ofBits .f32 0x00000000#32 + t) ?_
  rw [Finset.sum_filter, sum_idx1]
  refine Finset.sum_congr rfl fun i _ => ?_
  have key : (sc1.resultIdx? (ix1 i) (val_main_v5 (F := Ideal) x1) = some (ix1 c)) ↔
      ((x1 (ix1 i)).toInt = (c.val : Int)) := by
    rw [resultIdx1_iff (w := 32), val_main_v5_apply]
    have e : idx_main_v5 (ix2 ((ix1 i : S262144.Idx) 0) (0 : Fin 1)) = ix1 i := by
      funext a; match a with | ⟨0, _⟩ => rfl
    rw [e]
  rw [val_main_v3_apply, val_main_cst_0_apply]
  exact if_congr key rfl rfl

theorem centres_apply (c : Fin 40) (d : Fin 128) :
    val_main_v22 (F := Ideal) x0 x1 x2 x3 (ix2 c d) = cUpd (sumsR x0 x1) (cntR x1) x2 x3 c d := by
  have e21 : idx_main_v21 (idx_main_call1_v0 (ix2 c d : S40x128.Idx)) = ix1 c := by
    funext a; match a with | ⟨0, _⟩ => rfl
  have e17 : idx_main_v17 (idx_main_call0_v0 (ix2 c d : S40x128.Idx)) = ix1 c := by
    funext a; match a with | ⟨0, _⟩ => rfl
  have e9 : idx_main_v9 (idx_main_v10 (ix2 c d : S40x128.Idx)) = ix1 c := by
    funext a; match a with | ⟨0, _⟩ => rfl
  rw [val_main_v22_apply, val_main_call1_v0_apply, val_main_v21_apply, e21, val_main_v20_apply, val_main_v19_apply,
    val_main_cst_5_apply, val_main_v18_apply, val_main_call0_v0_apply, val_main_v17_apply, e17, val_main_v16_apply,
    val_main_v13_apply, val_main_v12_apply, val_main_cst_3_apply, val_main_v15_apply, val_main_v14_apply,
    val_main_cst_4_apply, val_main_v11_apply, val_main_v10_apply, val_main_v9_apply, e9, val_main_v8_apply,
    val_main_v7_apply, val_main_cst_2_apply, sums_apply, cnt_apply]
  rfl

end Cert.ReferenceIdeal.RefValue

end
-- ==== Proof.RefRad.lean ====
/-
  The reference's radial sum: the total over the rows of smooth-L1 of (the row's norm − the class radius gathered at the
  row's label: the label normalised, read signed and clamped into the table).
-/
import proofs.«401768_j5746666242188_3_alg».proof.Proof.RefRun
import proofs.«401768_j5746666242188_3_alg».proof.Proof.RefRead
import proofs.«401768_j5746666242188_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

noncomputable section

open Idealize.ShloMosaic Idealize.ShloMosaic.ValueIdx

namespace Cert.ReferenceIdeal.RefValue

open Cert.ReferenceIdeal Cert.ReferenceIdeal.ReadP Cert.Spec

variable (x0 : (⟨S262144x128, .f32⟩ : BufTy).Contents (Elt Ideal)) (x1 : (⟨S262144, .i32⟩ : BufTy).Contents (Elt Ideal))
  (x2 : (⟨S40x128, .f32⟩ : BufTy).Contents (Elt Ideal)) (x3 : (⟨S40, .i1⟩ : BufTy).Contents (Elt Ideal))
  (x4 x5 : (⟨S40, .f32⟩ : BufTy).Contents (Elt Ideal))

/-- The rank-1 index at a coordinate, in its two spellings. -/
private theorem ofFin_eq_ix1 {n : Nat} (p : Fin n) : (Shape.Idx.ofFin p : (⟨1, ![n]⟩ : Shape).Idx) = ix1 p := by
  funext a; match a with | ⟨0, _⟩ => rfl

/-- The normalised label at row i, as the gather's start-index column holds it. -/
private theorem start_row (i : Fin 262144) :
    val_main_v29 (F := Ideal) x1 (StableHlo.Predicate.ixP i) = wrap (x1 (ix1 i)) := by
  have e : idx_main_v29 (StableHlo.Predicate.ixP i) = ix1 i := by
    funext a; match a with | ⟨0, _⟩ => rfl
  rw [val_main_v29_apply, e, val_main_v28_apply, val_main_v25_apply, val_main_v27_apply, val_main_v24_apply,
    val_main_v26_apply, val_main_c_apply, val_main_c_6_apply]
  rfl

/-- The gathered radius at row i: the table at the class the row's label names. -/
private theorem gather_row (i : Fin 262144) :
    val_main_v30 (F := Ideal) x1 x4 (ix1 i) = x4 (ix1 (gidx x1 i)) := by
  unfold val_main_v30
  rw [← ofFin_eq_ix1 i]
  rw [StableHlo.Predicate.gather_take gather_S40_S262144x1_S262144_n_0_n_n_0_1_1 rfl rfl rfl rfl x4
    (val_main_v29 (F := Ideal) x1) i (by decide)]
  rw [ofFin_eq_ix1]
  refine congrArg x4 (congrArg ix1 (Fin.ext ?_))
  show min (val_main_v29 (F := Ideal) x1 (StableHlo.Predicate.ixP i)).toInt.toNat (40 - 1) = _
  rw [start_row]
  rfl

/-- The norm of row i: the root of the row's sum of squares. -/
private theorem norm_row (i : Fin 262144) :
    val_main_v23 (F := Ideal) x0 (ix1 i) = Ideal.sqrt (sqR x0 i) := by
  have e : ∀ k : Fin 128, idx_main_call2_v1 (ix1 i) k = ix2 i k := fun k => by
    funext a; match a with | ⟨0, _⟩ => rfl | ⟨1, _⟩ => rfl
  rw [val_main_v23_apply, val_main_call2_v1_apply, val_main_call2_cst_apply]
  simp only [val_main_call2_v0_apply, e]
  rfl

/-- The difference at row i: the row's norm less its class radius. -/
private theorem diff_row (i : Fin 262144) :
    val_main_v31 (F := Ideal) x0 x1 x4 (ix1 i) = Ideal.sqrt (sqR x0 i) - x4 (ix1 (gidx x1 i)) := by
  rw [val_main_v31_apply, norm_row, gather_row]
  rfl

/-- The summand at row i: smooth-L1 of the difference. -/
private theorem smooth_row (i : Fin 262144) :
    val_main_v40 (F := Ideal) x0 x1 x4 (ix1 i) = smooth (Ideal.sqrt (sqR x0 i) - x4 (ix1 (gidx x1 i))) := by
  rw [val_main_v40_apply, val_main_v34_apply, val_main_v37_apply, val_main_v39_apply, val_main_v36_apply,
    val_main_v32_apply, val_main_v33_apply, val_main_v35_apply, val_main_v38_apply, val_main_cst_7_apply,
    val_main_cst_8_apply, val_main_cst_9_apply, diff_row]
  rfl

theorem rad_apply (i : S_.Idx) : val_main_v41 (F := Ideal) x0 x1 x4 i = radSumR x0 x1 x4 := by
  rw [val_main_v41_apply, val_main_cst_10_apply]
  rw [← Equiv.sum_comp (idxEquiv1 (n := 262144)).symm (val_main_v40 (F := Ideal) x0 x1 x4)]
  refine congrArg (_ + ·) (Finset.sum_congr rfl fun k _ => ?_)
  exact smooth_row x0 x1 x4 k

end Cert.ReferenceIdeal.RefValue

end
-- ==== Proof.RefComp.lean ====
/-
  The reference's compact sum: the total over the rows of the squared distance between the row and the updated centre
  gathered at the row's label (a row gather: the whole row of the table at the clamped label).
-/
import proofs.«401768_j5746666242188_3_alg».proof.Proof.RefRun
import proofs.«401768_j5746666242188_3_alg».proof.Proof.RefRead
import proofs.«401768_j5746666242188_3_alg».proof.Proof.Spec
import proofs.«401768_j5746666242188_3_alg».proof.Proof.RefCent
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

noncomputable section

open Idealize.ShloMosaic Idealize.ShloMosaic.ValueIdx

namespace Cert.ReferenceIdeal.RefValue

open Cert.ReferenceIdeal Cert.ReferenceIdeal.ReadP Cert.Spec

/-- The row gather.  With one collapsed, start-indexed operand axis (the class axis) and one kept offset axis (the
    coordinate axis), result element (i, d) reads the table at (s, d), where s is the start index of row i — the
    column's entry (i, 0), read signed — clamped into the table's 40 rows. -/
private theorem gather_row {α : Type} (T : S40x128.Idx → α) (idx : IVec S262144x1 32) (i : Fin 262144) (d : Fin 128)
    (v : BitVec 32) (hv : idx (ix2 i (0 : Fin 1)) = v) :
    Host.gather gather_S40x128_S262144x1_S262144x128_1_0_n_n_0_1_1128 T idx (ix2 i d)
      = T (ix2 (⟨min v.toInt.toNat 39, by omega⟩ : Fin 40) d) := by
  subst hv
  unfold Host.gather
  refine congrArg T ?_
  funext a
  refine Fin.ext ?_
  match a with
  | ⟨0, _⟩ =>
    -- the class axis: collapsed (no offset), not batching, start-indexed
    show GatherDims.start gather_S40x128_S262144x1_S262144x128_1_0_n_n_0_1_1128 (ix2 i d) idx (0 : Fin 2)
      + GatherDims.batchCoord gather_S40x128_S262144x1_S262144x128_1_0_n_n_0_1_1128 (ix2 i d) (0 : Fin 2)
      + GatherDims.offCoord gather_S40x128_S262144x1_S262144x128_1_0_n_n_0_1_1128 (ix2 i d) (0 : Fin 2)
      = min (idx (ix2 i (0 : Fin 1))).toInt.toNat 39
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S40x128_S262144x1_S262144x128_1_0_n_n_0_1_1128.startIndexMap from
      List.mem_singleton.mpr rfl)]
    have hsi : gather_S40x128_S262144x1_S262144x128_1_0_n_n_0_1_1128.siIdx (ix2 i d)
        ⟨List.idxOf (0 : Fin 2) gather_S40x128_S262144x1_S262144x128_1_0_n_n_0_1_1128.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the coordinate axis: kept, so it carries the result's offset coordinate; no start index, not batching
    show GatherDims.start gather_S40x128_S262144x1_S262144x128_1_0_n_n_0_1_1128 (ix2 i d) idx (1 : Fin 2)
      + GatherDims.batchCoord gather_S40x128_S262144x1_S262144x128_1_0_n_n_0_1_1128 (ix2 i d) (1 : Fin 2)
      + GatherDims.offCoord gather_S40x128_S262144x1_S262144x128_1_0_n_n_0_1_1128 (ix2 i d) (1 : Fin 2)
      = d.val
    rw [GatherDims.batchCoord_eq_zero _ _ _ List.not_mem_nil]
    unfold GatherDims.start
    rw [dif_neg (show ¬ (1 : Fin 2) ∈ gather_S40x128_S262144x1_S262144x128_1_0_n_n_0_1_1128.startIndexMap from by decide)]
    simp only [Nat.add_zero, Nat.zero_add]
    unfold GatherDims.offCoord
    rw [dif_pos (show (1 : Fin 2) ∈ gather_S40x128_S262144x1_S262144x128_1_0_n_n_0_1_1128.sKept from by decide)]
    rfl

variable (x0 : (⟨S262144x128, .f32⟩ : BufTy).Contents (Elt Ideal)) (x1 : (⟨S262144, .i32⟩ : BufTy).Contents (Elt Ideal))
  (x2 : (⟨S40x128, .f32⟩ : BufTy).Contents (Elt Ideal)) (x3 : (⟨S40, .i1⟩ : BufTy).Contents (Elt Ideal))
  (x4 x5 : (⟨S40, .f32⟩ : BufTy).Contents (Elt Ideal))

/-- The label column at row i is the normalised label: 40 is added to a negative label. -/
private theorem col_apply (i : Fin 262144) :
    val_main_v48 (F := Ideal) x1 (ix2 i (0 : Fin 1)) = wrap (x1 (ix1 i)) := by
  have hix : idx_main_v48 (ix2 i (0 : Fin 1)) = ix1 i := by
    funext a
    match a with
    | ⟨0, _⟩ => rfl
  rw [val_main_v48_apply, hix, val_main_v47_apply, val_main_v44_apply, val_main_v46_apply, val_main_v43_apply,
    val_main_v45_apply, val_main_c_12_apply, val_main_c_13_apply]
  rfl

/-- The gathered centre of row i, coordinate d: the updated centre of the class the row's label names. -/
private theorem gathered_apply (i : Fin 262144) (d : Fin 128) :
    val_main_v49 (F := Ideal) x0 x1 x2 x3 (ix2 i d) = cUpd (sumsR x0 x1) (cntR x1) x2 x3 (gidx x1 i) d := by
  unfold val_main_v49
  rw [gather_row _ _ i d _ (col_apply x1 i)]
  exact centres_apply x0 x1 x2 x3 (gidx x1 i) d

/-- The compact sum: the initial value plus, over the rows, the row sum (initial value plus the sum over the 128
    coordinates) of the squared difference between the row and its gathered centre. -/
theorem comp_apply (i : S_.Idx) :
    val_main_v53 (F := Ideal) x0 x1 x2 x3 i = compSumR x0 x1 (cUpd (sumsR x0 x1) (cntR x1) x2 x3) := by
  rw [val_main_v53_apply]
  unfold compSumR
  refine congrArg₂ (· + ·) rfl ?_
  rw [← Equiv.sum_comp (idxEquiv1 (n := 262144)).symm]
  refine Finset.sum_congr rfl fun r _ => ?_
  show val_main_v52 (F := Ideal) x0 x1 x2 x3 (ix1 r) = _
  rw [val_main_v52_apply]
  refine congrArg₂ (· + ·) rfl (Finset.sum_congr rfl fun k _ => ?_)
  have hix : idx_main_v52 (ix1 r) k = ix2 r k := by
    funext a
    match a with
    | ⟨0, _⟩ => rfl
    | ⟨1, _⟩ => rfl
  rw [hix, val_main_v51_apply, val_main_v50_apply, gathered_apply]
  rfl

end Cert.ReferenceIdeal.RefValue

end
-- ==== Proof.RefMarg.lean ====
/-
  The reference's margin sum: the total over the rows of max(margin gathered at the label − the minimum over the 40
  classes of the distance, the own class masked by +∞, 0).  The distance is the square root of the Gram expansion
  ‖z‖² + ‖c‖² − 2 z·c clamped at zero; the minimum is a fold of min from +∞ over the class axis.
-/
import proofs.«401768_j5746666242188_3_alg».proof.Proof.RefRun
import proofs.«401768_j5746666242188_3_alg».proof.Proof.RefRead
import proofs.«401768_j5746666242188_3_alg».proof.Proof.Spec
import proofs.«401768_j5746666242188_3_alg».proof.Proof.RefCent
import proofs.«401768_j5746666242188_3_alg».proof.Proof.LibUnitAxes
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws
import Idealize.ShloMosaic.PureOps.Reduce

noncomputable section

open Idealize.ShloMosaic Idealize.ShloMosaic.ValueIdx

namespace Cert.ReferenceIdeal.RefValue

open Cert.ReferenceIdeal Cert.ReferenceIdeal.ReadP Cert.Spec

variable (x0 : (⟨S262144x128, .f32⟩ : BufTy).Contents (Elt Ideal)) (x1 : (⟨S262144, .i32⟩ : BufTy).Contents (Elt Ideal))
  (x2 : (⟨S40x128, .f32⟩ : BufTy).Contents (Elt Ideal)) (x3 : (⟨S40, .i1⟩ : BufTy).Contents (Elt Ideal))
  (x4 x5 : (⟨S40, .f32⟩ : BufTy).Contents (Elt Ideal))

/-- The squared norm of row i of z, spread along the class axis. -/
private theorem sqz_apply (i : Fin 262144) (c : Fin 40) :
    val_main_v61 (F := Ideal) x0 (ix2 i c) = sqR x0 i := by
  rw [val_main_v61_apply, val_main_v59_apply, val_main_v56_apply]
  unfold sqR
  refine congrArg₂ (· + ·) rfl (Finset.sum_congr rfl fun k _ => ?_)
  rw [val_main_v55_apply]
  have e : idx_main_v56 (idx_main_v59 (idx_main_v61 (ix2 i c))) k = ix2 i k := by
    funext a; match a with | ⟨0, _⟩ => rfl | ⟨1, _⟩ => rfl
  rw [e]
  rfl

/-- The squared norm of the updated centre c, spread along the row axis. -/
private theorem sqc_apply (i : Fin 262144) (c : Fin 40) :
    val_main_v62 (F := Ideal) x0 x1 x2 x3 (ix2 i c) = c2small (cUpd (sumsR x0 x1) (cntR x1) x2 x3) c := by
  rw [val_main_v62_apply, val_main_v60_apply, val_main_v58_apply]
  unfold c2small
  refine congrArg₂ (· + ·) rfl (Finset.sum_congr rfl fun k _ => ?_)
  rw [val_main_v57_apply]
  have e : idx_main_v58 (idx_main_v60 (idx_main_v62 (ix2 i c))) k = ix2 c k := by
    funext a; match a with | ⟨0, _⟩ => rfl | ⟨1, _⟩ => rfl
  rw [e, centres_apply]
  rfl

/-- The product of row i of z with the updated centre c. -/
private theorem dot_apply (i : Fin 262144) (c : Fin 40) :
    val_main_v65 (F := Ideal) x0 x1 x2 x3 (ix2 i c)
      = ∑ k : Fin 128, x0 (ix2 i k) * cUpd (sumsR x0 x1) (cntR x1) x2 x3 c k := by
  rw [val_main_v65_apply]
  refine Finset.sum_congr rfl fun k _ => ?_
  rw [val_main_v64_apply]
  have el : lidx_main_v65 (ix2 i c) k = ix2 i k := by
    funext a; match a with | ⟨0, _⟩ => rfl | ⟨1, _⟩ => rfl
  have er : idx_main_v64 (ridx_main_v65 (ix2 i c) k) = ix2 c k := by
    funext a; match a with | ⟨0, _⟩ => rfl | ⟨1, _⟩ => rfl
  rw [el, er, centres_apply]

/-- The distance from row i to the updated centre c. -/
private theorem dist_apply (i : Fin 262144) (c : Fin 40) :
    val_main_v71 (F := Ideal) x0 x1 x2 x3 (ix2 i c) = distR x0 (cUpd (sumsR x0 x1) (cntR x1) x2 x3) i c := by
  rw [val_main_v71_apply, val_main_v70_apply, val_main_v68_apply, val_main_v63_apply, val_main_v67_apply,
    val_main_v69_apply, val_main_cst_20_apply, val_main_v66_apply, val_main_cst_19_apply,
    sqz_apply, sqc_apply, dot_apply]
  rfl

/-- The masked distance: +∞ at the row's own class. -/
private theorem masked_apply (i : Fin 262144) (c : Fin 40) :
    val_main_v78 (F := Ideal) x0 x1 x2 x3 (ix2 i c)
      = Scalar.select (IntOp.cmpi .eq (x1 (ix1 i)) (BitVec.ofNat 32 c.val)) inf32
          (distR x0 (cUpd (sumsR x0 x1) (cntR x1) x2 x3) i c) := by
  rw [val_main_v78_apply, val_main_v77_apply, val_main_v75_apply, val_main_v72_apply, val_main_v76_apply,
    val_main_v74_apply, val_main_v73_apply, val_main_call4_v1_apply, val_main_call4_v0_apply,
    val_main_cst_21_apply, dist_apply]
  have e : idx_main_v72 (idx_main_v75 (ix2 i c)) = ix1 i := by
    funext a; match a with | ⟨0, _⟩ => rfl
  rw [e]
  rfl

/-- The minimum over the classes of the masked distances, from +∞. -/
private theorem min_apply (i : Fin 262144) :
    val_main_v79 (F := Ideal) x0 x1 x2 x3 (ix1 i) = minR x0 x1 (cUpd (sumsR x0 x1) (cntR x1) x2 x3) i := by
  unfold val_main_v79
  have hm := masked_apply x0 x1 x2 x3 i
  generalize val_main_v78 (F := Ideal) x0 x1 x2 x3 = y at hm ⊢
  have hred : S262144x40.Reduces [1] S262144 := by decide
  -- a one-axis reduction with a commutative, associative body is the fold over that axis from the initial value
  refine (Host.reduce_eq_fold_single (s := S262144x40) (t := S262144) (u := S_) (a := 1) (α := EReal)
    (FloatOps.minimumf (F := Ideal) (φ := .f32)) y (val_main_cst_22 (F := Ideal))
    Gen.reducesTo_S262144x40_S262144_d1 hred Gen.h_S_ (ix1 i)).trans ?_
  unfold minR
  show (Finset.univ : Finset (Fin 40)).fold _ _ _ = _
  refine (Finset.fold_congr (g := fun c : Fin 40 =>
    Scalar.select (IntOp.cmpi .eq (x1 (ix1 i)) (BitVec.ofNat 32 c.val)) inf32
      (distR x0 (cUpd (sumsR x0 x1) (cntR x1) x2 x3) i c)) fun c _ => ?_).trans rfl
  -- row i's index with class c put back on the reduced axis is (i, c)
  show y (hred.lift (ix1 i) c) = _
  rw [Cert.Lib.lift_row_col hred i c]
  exact hm c

/-- The margin gathered at the row's label: the label normalised, read signed and clamped into the table. -/
private theorem marg_gather_apply (i : Fin 262144) :
    val_main_v86 (F := Ideal) x1 x5 (ix1 i) = x5 (ix1 (gidx x1 i)) := by
  unfold val_main_v86
  have hw : val_main_v85 (F := Ideal) x1 (StableHlo.Predicate.ixP i) = wrap (x1 (ix1 i)) := by
    rw [val_main_v85_apply, val_main_v84_apply, val_main_v81_apply, val_main_v83_apply, val_main_v80_apply,
      val_main_v82_apply, val_main_c_23_apply, val_main_c_24_apply]
    have e : idx_main_v85 (StableHlo.Predicate.ixP i) = ix1 i := by
      funext a; match a with | ⟨0, _⟩ => rfl
    rw [e]
    rfl
  generalize val_main_v85 (F := Ideal) x1 = idx at hw ⊢
  have h := StableHlo.Predicate.gather_take gather_S40_S262144x1_S262144_n_0_n_n_0_1_1 rfl rfl rfl rfl x5 idx i
    (by decide)
  have e1 : (Shape.Idx.ofFin i : (⟨1, ![262144]⟩ : Shape).Idx) = ix1 i := by
    funext a; match a with | ⟨0, _⟩ => rfl
  rw [e1] at h
  refine h.trans (congrArg x5 ?_)
  funext a
  match a with
  | ⟨0, _⟩ =>
    refine Fin.ext ?_
    show min (idx (StableHlo.Predicate.ixP i)).toInt.toNat (40 - 1) = min (wrap (x1 (ix1 i))).toInt.toNat 39
    rw [hw]

/-- The margin sum: the initial value plus the sum over the rows of max(margin − nearest other centre, 0). -/
theorem marg_apply (i : S_.Idx) :
    val_main_v89 (F := Ideal) x0 x1 x2 x3 x5 i = margSumR x0 x1 (cUpd (sumsR x0 x1) (cntR x1) x2 x3) x5 := by
  rw [val_main_v89_apply]
  unfold margSumR
  refine congrArg₂ (· + ·) rfl ?_
  rw [← Equiv.sum_comp (idxEquiv1 (n := 262144)).symm]
  refine Finset.sum_congr rfl fun r _ => ?_
  show val_main_v88 (F := Ideal) x0 x1 x2 x3 x5 (ix1 r) = _
  rw [val_main_v88_apply, val_main_v87_apply, marg_gather_apply, min_apply, val_main_call5_v0_apply,
    val_main_call5_cst_apply]
  rfl

end Cert.ReferenceIdeal.RefValue

end
-- ==== Proof.RefValue.lean ====
/-
  The reference program's run read as a value: its result is the reference side's value of the loss, as a function of
  the six arguments (the three sums, each divided by the number of rows, in the final combination).
-/
import proofs.«401768_j5746666242188_3_alg».proof.Proof.RefRun
import proofs.«401768_j5746666242188_3_alg».proof.Proof.RefRead
import proofs.«401768_j5746666242188_3_alg».proof.Proof.Spec
import proofs.«401768_j5746666242188_3_alg».proof.Proof.RefCent
import proofs.«401768_j5746666242188_3_alg».proof.Proof.RefRad
import proofs.«401768_j5746666242188_3_alg».proof.Proof.RefComp
import proofs.«401768_j5746666242188_3_alg».proof.Proof.RefMarg

noncomputable section

open Idealize.ShloMosaic Idealize.ShloMosaic.TcCoe Idealize.SL.Sem Idealize.ShloMosaic.ValueIdx

namespace Cert.ReferenceIdeal.RefValue

open Cert.ReferenceIdeal Cert.ReferenceIdeal.ReadP Cert.Spec

variable (m : (ℓ : Loc nD τ sig) → Buf (Elt Ideal) ℓ) (ρ : Dev nD → PrngReg)

/-- The run's result term is the reference side's value. -/
theorem res_eq (c : Dev nD) :
    (Cert.ReferenceIdeal.RunP.res_main_v95 (F := Ideal) m c : S_.Idx → EReal)
      = fun _ => refTotal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v95_eq]
  funext i
  -- the final combination, then each loss as its sum divided by the number of rows
  rw [val_main_v95_apply, val_main_v93_apply, val_main_v94_apply, val_main_v91_apply, val_main_v92_apply,
    val_main_v42_apply, val_main_v54_apply, val_main_v90_apply, rad_apply, comp_apply, marg_apply]
  rfl

/-- Every weakly fair execution of the reference ends with its result at that value and its arguments unchanged. -/
theorem run : θ_run defs (onTc (τ := τ) (main (F := Ideal))) ⟨m, fun _ => 0, ρ⟩ fun r => ∀ c : Dev nD,
      r.2.mem ((c.tc : Thread nD τ).loc main_v95)
        = (fun _ => refTotal (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_eq m c), (h c).2⟩) (Cert.ReferenceIdeal.RunP.run (F := Ideal) m ρ)

end Cert.ReferenceIdeal.RefValue

end
-- ==== Proof.BridgeBase.lean ====
/-
  Ground facts for joining the two sides: what the float literals denote, the one-hot entry as an indicator, what
  labels in the class range mean for the kernel's clip and for the reference's index normalisation and clamp (all three
  are the identity there), a padded table read through the one-hot lane sum, and the regrouping of a sum over all
  262144 rows into 2 cores × 32 tiles × 4096 rows (addition on the extended reals is commutative and associative, so
  the regrouping needs no finiteness).
-/
import proofs.«401768_j5746666242188_3_alg».proof.Proof.Spec
import Mathlib.Algebra.BigOperators.Fin
import Mathlib.Data.EReal.Basic

noncomputable section

namespace Cert.Spec

open Idealize.ShloMosaic Idealize.ShloMosaic.ValueIdx

/-- The labels lie in the class range, read as signed integers. -/
def InRange (y : SY.Idx → BitVec 32) : Prop := ∀ i, 0 ≤ (y i).toInt ∧ (y i).toInt < 40
/-- An extended real that is a real number. -/
def IsReal (x : EReal) : Prop := ∃ r : ℝ, x = (r : EReal)

theorem zero32_eq : zero32 = 0 := by
  simp [Ideal.ofBits, Ideal.ieee]
theorem one32_eq : one32 = 1 := by
  simp [Ideal.ofBits, Ideal.ieee, -EReal.coe_mul]; norm_num
theorem two32_eq : two32 = 2 := by
  simp [Ideal.ofBits, Ideal.ieee, -EReal.coe_mul]; norm_num
  first | rfl | norm_cast
theorem inf32_eq : inf32 = ⊤ := by
  simp [Ideal.ofBits, Ideal.ieee]
theorem padv_eq : padv = 0 := by
  simp [padv]

/-- The one-hot entry is the indicator of (y = l). -/
theorem oh_eq (y : BitVec 32) (l : Fin 128) : oh y l = if y = BitVec.ofNat 32 l.val then 1 else 0 := by
  unfold oh IntOp.cmpi
  by_cases h : y = BitVec.ofNat 32 l.val
  · simp [h]
  · have hb : (y == BitVec.ofNat 32 l.val) = false := beq_eq_false_iff_ne.mpr h
    simp [h, hb]

variable {y : SY.Idx → BitVec 32}

/-- A word whose signed reading lies in [0, 40) is left alone by the clip to [0, 39]: it is neither below 0 nor
    above 39. -/
private theorem clip_id (v : BitVec 32) (h0 : 0 ≤ v.toInt) (h1 : v.toInt < 40) :
    IntOp.minsi 39#32 (IntOp.maxsi 0#32 v) = v := by
  have ha : (v.slt 0#32) = false := by
    rw [BitVec.slt_eq_decide]; simp; omega
  have hb : ((39#32 : BitVec 32).slt v) = false := by
    rw [BitVec.slt_eq_decide]; simp; omega
  simp [IntOp.minsi, IntOp.maxsi, ha, hb]

/-- A word whose signed reading is non-negative is left alone by the index normalisation. -/
private theorem wrap_id (v : BitVec 32) (h0 : 0 ≤ v.toInt) : wrap v = v := by
  have ha : (v.slt 0#32) = false := by
    rw [BitVec.slt_eq_decide]; simp; omega
  simp [wrap, IntOp.cmpi, Scalar.select, ha]

/-- In range, the kernel's clip leaves the label as it is. -/
theorem lab_ycOf (hy : InRange y) (i : Fin 262144) : lab (ycOf y) i = y (ix1 i) := by
  obtain ⟨h0, h1⟩ := hy (ix1 i)
  exact clip_id (y (ix1 i)) h0 h1
/-- In range, the class a gather reads is the label itself. -/
theorem gidx_val (hy : InRange y) (i : Fin 262144) : ((gidx y i).val : Int) = (y (ix1 i)).toInt := by
  obtain ⟨h0, h1⟩ := hy (ix1 i)
  show ((min (wrap (y (ix1 i))).toInt.toNat 39 : Nat) : Int) = _
  rw [wrap_id _ h0]
  omega

/-- A word is the word of a natural number below 128 exactly when its signed reading is that number (signed reading
    is injective, and a number below 128 reads as itself). -/
private theorem eq_ofNat_iff (v : BitVec 32) (n : Nat) (hn : n < 128) :
    v = BitVec.ofNat 32 n ↔ v.toInt = (n : Int) := by
  rw [← BitVec.toInt_inj]
  have : (BitVec.ofNat 32 n).toInt = (n : Int) := by
    rw [BitVec.toInt_ofNat']
    simp [Int.bmod]; omega
  rw [this]

/-- In range, the label is lane l's number exactly when l is the class the gathers read. -/
theorem label_eq_iff (hy : InRange y) (i : Fin 262144) (l : Fin 128) :
    y (ix1 i) = BitVec.ofNat 32 l.val ↔ l.val = (gidx y i).val := by
  rw [eq_ofNat_iff _ _ l.isLt, ← gidx_val hy i]
  omega
/-- In range, the label read signed is class c exactly when c is the class the gathers read. -/
theorem toInt_eq_iff (hy : InRange y) (i : Fin 262144) (c : Fin 40) :
    (y (ix1 i)).toInt = (c.val : Int) ↔ c = gidx y i := by
  rw [← gidx_val hy i, Fin.ext_iff]
  omega
/-- A padded table read through the one-hot lane sum at an in-range label is the table's entry of that class. -/
theorem pickK_eq (hy : InRange y) (t : SK.Idx → EReal) (i : Fin 262144) :
    pickK (ycOf y) (padTab t) i = t (ix1 (gidx y i)) := by
  -- the only lane with a non-zero indicator is the label's; it lies below 40, where the padded table is the table
  unfold pickK
  rw [lab_ycOf hy i]
  have hlt : (gidx y i).val < 128 := by have := (gidx y i).isLt; omega
  rw [Finset.sum_eq_single (⟨(gidx y i).val, hlt⟩ : Fin 128)]
  · rw [oh_eq, if_pos ((label_eq_iff hy i _).mpr rfl), one_mul]
    show (if h : (gidx y i).val < 40 then t (ix1 ⟨(gidx y i).val, h⟩) else padv) = _
    rw [dif_pos (gidx y i).isLt]
  · intro l _ hl
    rw [oh_eq, if_neg, zero_mul]
    intro h
    apply hl
    exact Fin.ext ((label_eq_iff hy i l).mp h)
  · intro h; exact absurd (Finset.mem_univ _) h

/-- Rows as (core, tile, row of the tile): i ↦ (i / 131072, i % 131072 / 4096, i % 4096) inverts
    (core, t, k) ↦ core·131072 + t·4096 + k, so the latter is a bijection onto all 262144 rows. -/
private def rowEquiv : Fin 2 × Fin 32 × Fin 4096 ≃ Fin 262144 where
  toFun p := row p.1 p.2.1 p.2.2
  invFun i := (⟨i.val / 131072, by omega⟩, ⟨i.val % 131072 / 4096, by omega⟩, ⟨i.val % 4096, by omega⟩)
  left_inv := by
    rintro ⟨a, b, c⟩
    simp only [row, Prod.mk.injEq, Fin.ext_iff]
    refine ⟨?_, ?_, ?_⟩ <;> omega
  right_inv := by
    intro i
    simp only [row, Fin.ext_iff]
    omega

/-- A row function summed tile by tile over both cores is its sum over all rows. -/
theorem sum_cores_overTiles (f : Fin 262144 → EReal) : ∑ core : Fin 2, overTiles f core = ∑ i : Fin 262144, f i := by
  rw [← Equiv.sum_comp rowEquiv f, Fintype.sum_prod_type]
  refine Finset.sum_congr rfl fun core _ => ?_
  rw [Fintype.sum_prod_type]
  rfl
theorem lane0_overTiles (f : Fin 262144 → EReal) :
    lane0 (fun j => overTiles f (j 0)) = zero32 + ∑ i : Fin 262144, f i := by
  rw [← sum_cores_overTiles]
  rfl

/-- The host's row sum of squares is the kernel's lane sum. -/
theorem sqR_eq (z : SZ.Idx → EReal) (i : Fin 262144) : sqR z i = sqK z i := by
  unfold sqR sqK
  rw [zero32_eq, zero_add]

end Cert.Spec

end
-- ==== Proof.BridgeCent.lean ====
/-
  The class sums and counts agree: the kernel's one-hot products, summed over tiles and cores, and the reference's
  scatter-adds both give, for class c, the sum of the rows labelled c (and their number); and the updated centres are
  real numbers when the embeddings and the old centres are (a sum of reals, a quotient by a count that is at least one).
-/
import proofs.«401768_j5746666242188_3_alg».proof.Proof.BridgeBase

noncomputable section

namespace Cert.Spec

open Idealize.ShloMosaic Idealize.ShloMosaic.ValueIdx

/-! ## Real extended reals are closed under the operations the centre update uses -/

private theorem isReal_zero : IsReal 0 := ⟨0, rfl⟩
private theorem isReal_one : IsReal 1 := ⟨1, rfl⟩

private theorem IsReal.add {a b : EReal} (ha : IsReal a) (hb : IsReal b) : IsReal (a + b) := by
  obtain ⟨r, rfl⟩ := ha
  obtain ⟨s, rfl⟩ := hb
  exact ⟨r + s, (EReal.coe_add r s).symm⟩

private theorem IsReal.mul {a b : EReal} (ha : IsReal a) (hb : IsReal b) : IsReal (a * b) := by
  obtain ⟨r, rfl⟩ := ha
  obtain ⟨s, rfl⟩ := hb
  exact ⟨r * s, (EReal.coe_mul r s).symm⟩

private theorem IsReal.max {a b : EReal} (ha : IsReal a) (hb : IsReal b) : IsReal (max a b) := by
  rcases le_total a b with h | h
  · rw [max_eq_right h]; exact hb
  · rw [max_eq_left h]; exact ha

private theorem IsReal.select {a b : EReal} (p : BitVec 1) (ha : IsReal a) (hb : IsReal b) :
    IsReal (Scalar.select p a b) := by
  unfold Scalar.select
  split_ifs
  · exact ha
  · exact hb

/-- A finite sum of reals is real. -/
private theorem IsReal.sum {ι : Type} (s : Finset ι) (f : ι → EReal) (hf : ∀ i, IsReal (f i)) :
    IsReal (∑ i ∈ s, f i) := by
  classical
  induction s using Finset.induction_on with
  | empty => simpa using isReal_zero
  | insert a s ha ih => rw [Finset.sum_insert ha]; exact (hf a).add ih

/-- A quotient of a real by a nonzero real is real: x · y⁻¹ with y⁻¹ the real inverse. -/
private theorem IsReal.div {a b : EReal} (ha : IsReal a) (hb : IsReal b) (h0 : b ≠ 0) : IsReal (Ideal.div a b) := by
  obtain ⟨r, rfl⟩ := ha
  obtain ⟨s, rfl⟩ := hb
  unfold Ideal.div
  rw [if_neg h0]
  exact ⟨r * s⁻¹, by rw [EReal.coe_mul, EReal.coe_inv]⟩

/-- A pattern whose exponent field is not all ones denotes a real. -/
private theorem ieee_isReal (e m : Nat) {w : Nat} (b : BitVec w) (h : (b.extractLsb' m e).toNat ≠ 2 ^ e - 1) :
    IsReal (Ideal.ieee e m b) := by
  unfold Ideal.ieee
  simp only
  rw [if_neg h]
  split_ifs <;> exact ⟨_, rfl⟩

private theorem p9_isReal : IsReal p9 := by
  show IsReal (Ideal.ieee 8 23 (0x3F666666#32))
  exact ieee_isReal 8 23 _ (by decide)
private theorem p1_isReal : IsReal p1 := by
  show IsReal (Ideal.ieee 8 23 (0x3DCCCCCD#32))
  exact ieee_isReal 8 23 _ (by decide)

variable {y : SY.Idx → BitVec 32} (z : SZ.Idx → EReal)

/-- Lane c's number is row i's label exactly when the label, read signed, is c. -/
private theorem lane_iff (hy : InRange y) (i : Fin 262144) (c : Fin 40) (hc : c.val < 128) :
    y (ix1 i) = BitVec.ofNat 32 (⟨c.val, hc⟩ : Fin 128).val ↔ (y (ix1 i)).toInt = (c.val : Int) := by
  rw [label_eq_iff hy i ⟨c.val, hc⟩, toInt_eq_iff hy i c]
  show c.val = (gidx y i).val ↔ c = gidx y i
  exact Fin.val_inj

theorem sumsK_eq (hy : InRange y) : sumsK (sumsAcc z (ycOf y)) = sumsR z y := by
  funext c d
  have hcore : ∀ core : Fin 2, sumsAcc z (ycOf y) (ix3 core (⟨c.val, by omega⟩ : Fin 128) d)
      = overTiles (fun i => oh (lab (ycOf y) i) (⟨c.val, by omega⟩ : Fin 128) * z (ix2 i d)) core := fun _ => rfl
  unfold sumsK sumsR
  rw [Finset.sum_congr rfl fun core _ => hcore core, sum_cores_overTiles]
  refine congrArg (fun s => zero32 + s) (Finset.sum_congr rfl fun i _ => ?_)
  rw [lab_ycOf hy, oh_eq]
  by_cases h : (y (ix1 i)).toInt = (c.val : Int)
  · rw [if_pos h, if_pos ((lane_iff hy i c (by omega)).mpr h), one_mul]
  · rw [if_neg h, if_neg (fun h' => h ((lane_iff hy i c (by omega)).mp h')), zero_mul]

theorem cntK_eq (hy : InRange y) : cntK (cntAcc (ycOf y)) = cntR y := by
  funext c
  have hcore : ∀ core : Fin 2, cntAcc (ycOf y) (ix3 core (0 : Fin 1) (⟨c.val, by omega⟩ : Fin 128))
      = overTiles (fun i => oh (lab (ycOf y) i) (⟨c.val, by omega⟩ : Fin 128)) core := fun _ => rfl
  unfold cntK cntR
  rw [Finset.sum_congr rfl fun core _ => hcore core, sum_cores_overTiles]
  refine congrArg (fun s => zero32 + s) (Finset.sum_congr rfl fun i _ => ?_)
  rw [lab_ycOf hy, oh_eq, one32_eq]
  by_cases h : (y (ix1 i)).toInt = (c.val : Int)
  · rw [if_pos h, if_pos ((lane_iff hy i c (by omega)).mpr h)]
  · rw [if_neg h, if_neg (fun h' => h ((lane_iff hy i c (by omega)).mp h'))]

/-- The class sums of real embeddings are real. -/
private theorem sumsR_isReal (hz : ∀ i, IsReal (z i)) (c : Fin 40) (d : Fin 128) : IsReal (sumsR z y c d) := by
  unfold sumsR
  rw [zero32_eq]
  refine isReal_zero.add (IsReal.sum _ _ fun i => ?_)
  split_ifs
  · exact hz _
  · exact isReal_zero

/-- The class counts are real. -/
private theorem cntR_isReal (c : Fin 40) : IsReal (cntR y c) := by
  unfold cntR
  rw [zero32_eq, one32_eq]
  refine isReal_zero.add (IsReal.sum _ _ fun i => ?_)
  split_ifs
  · exact isReal_one
  · exact isReal_zero

/-- The updated centres are real. -/
theorem cUpd_real (hz : ∀ i, IsReal (z i)) (ctr : SC.Idx → EReal) (hc : ∀ i, IsReal (ctr i)) (ini : SK.Idx → BitVec 1)
    (c : Fin 40) (d : Fin 128) : IsReal (cUpd (sumsR z y) (cntR y) ctr ini c d) := by
  have hden : IsReal (max (cntR y c) one32) := (cntR_isReal c).max (by rw [one32_eq]; exact isReal_one)
  have hne : max (cntR y c) one32 ≠ 0 := by
    rw [one32_eq]
    exact ne_of_gt (lt_of_lt_of_le zero_lt_one (le_max_right _ _))
  have hmean : IsReal (Ideal.div (sumsR z y c d) (max (cntR y c) one32)) := (sumsR_isReal z hz c d).div hden hne
  unfold cUpd
  exact IsReal.select _ (IsReal.select _ ((p9_isReal.mul (hc _)).add (p1_isReal.mul hmean)) hmean) (hc _)

end Cert.Spec

end
-- ==== Proof.BridgeRad.lean ====
/-
  The radial sums agree: row by row both sides are smooth-L1 of (the row's norm − its class radius), the kernel reading
  the radius through the one-hot lane sum over the padded table, the reference by a gather; the kernel's sum runs tile
  by tile over both cores.
-/
import proofs.«401768_j5746666242188_3_alg».proof.Proof.BridgeBase

noncomputable section

namespace Cert.Spec

open Idealize.ShloMosaic Idealize.ShloMosaic.ValueIdx

variable {y : SY.Idx → BitVec 32} (z : SZ.Idx → EReal)

/-- Row by row the kernel's radial term is the reference's: the one-hot lane sum over the padded radius table reads
    the radius of the row's class, and the lane sum of squares is the host's row sum of squares. -/
private theorem radRowK_eq (hy : InRange y) (tr : SK.Idx → EReal) (i : Fin 262144) :
    radRowK z (ycOf y) (padTab tr) i = smooth (Ideal.sqrt (sqR z i) - tr (ix1 (gidx y i))) := by
  unfold radRowK
  rw [pickK_eq hy tr i, sqR_eq z i]

theorem rad_eq (hy : InRange y) (tr : SK.Idx → EReal) : lane0 (radAcc z (ycOf y) (padTab tr)) = radSumR z y tr := by
  -- the accumulator is, per core, the tile-by-tile sum of the row terms
  have hacc : radAcc z (ycOf y) (padTab tr)
      = fun j => overTiles (radRowK z (ycOf y) (padTab tr)) (j 0) := rfl
  rw [hacc, lane0_overTiles]
  unfold radSumR
  -- both sides are the initial value plus a sum over all rows; the summands agree row by row
  exact congrArg (fun s : EReal => zero32 + s) (Finset.sum_congr rfl fun i _ => radRowK_eq z hy tr i)

end Cert.Spec

end
-- ==== Proof.BridgeComp.lean ====
/-
  The compact sums agree.  Over the reals, with S_c = Σ_{i : yᵢ = c} zᵢ and n_c the number of such rows,
    Σᵢ ‖zᵢ − c[yᵢ]‖² = Σᵢ ‖zᵢ‖² − 2 Σ_c c[c]·S_c + Σ_c n_c ‖c[c]‖²
  (expand the square and group the rows by class).  Distributing a product over a sum is where finiteness is needed:
  every entry of z and of the centre table is a real number.
-/
import proofs.«401768_j5746666242188_3_alg».proof.Proof.BridgeBase
import Mathlib.Algebra.BigOperators.Ring.Finset
import Mathlib.Tactic.Ring

noncomputable section

namespace Cert.Spec

open Idealize.ShloMosaic Idealize.ShloMosaic.ValueIdx

/-! ## The identity over the real numbers -/

section RealIdentity
variable {I C D : Type} [Fintype I] [Fintype C] [Fintype D] [DecidableEq C]

/-- Grouping by class: a sum over classes c of the rows whose class is c is a sum over all rows, each row read at
    its own class. -/
private theorem sum_by_class (g : I → C) (f : C → I → ℝ) :
    ∑ c, ∑ i, (if c = g i then f c i else 0) = ∑ i, f (g i) i := by
  refine Finset.sum_comm.trans (Finset.sum_congr rfl fun i _ => ?_)
  rw [Finset.sum_ite_eq' Finset.univ (g i) fun c => f c i, if_pos (Finset.mem_univ _)]

/-- The cross term: Σ_c Σ_d c[c]_d · S_c,d = Σᵢ Σ_d c[g i]_d · zᵢ_d. -/
private theorem cross_term (g : I → C) (zr : I → D → ℝ) (cr : C → D → ℝ) :
    ∑ c, ∑ d, cr c d * ∑ i, (if c = g i then zr i d else 0) = ∑ i, ∑ d, cr (g i) d * zr i d := by
  refine Finset.sum_comm.trans (Eq.trans (Finset.sum_congr rfl fun d _ => ?_) Finset.sum_comm)
  refine Eq.trans (Finset.sum_congr rfl fun c _ => ?_) (sum_by_class g fun c i => cr c d * zr i d)
  rw [Finset.mul_sum]
  refine Finset.sum_congr rfl fun i _ => ?_
  rw [mul_ite, mul_zero]

/-- The norm term: Σ_c n_c · N_c = Σᵢ N_{g i}. -/
private theorem norm_term (g : I → C) (N : C → ℝ) :
    ∑ c, (∑ i, if c = g i then (1 : ℝ) else 0) * N c = ∑ i, N (g i) := by
  refine Eq.trans (Finset.sum_congr rfl fun c _ => ?_) (sum_by_class g fun c _ => N c)
  rw [Finset.sum_mul]
  refine Finset.sum_congr rfl fun i _ => ?_
  rw [ite_mul, one_mul, zero_mul]

/-- The closed form of the compact sum, over the reals. -/
private theorem compact_real (g : I → C) (zr : I → D → ℝ) (cr : C → D → ℝ) :
    (∑ i, ∑ d, zr i d * zr i d - 2 * ∑ c, ∑ d, cr c d * ∑ i, (if c = g i then zr i d else 0))
        + ∑ c, (∑ i, if c = g i then (1 : ℝ) else 0) * ∑ d, cr c d * cr c d
      = ∑ i, ∑ d, (zr i d - cr (g i) d) * (zr i d - cr (g i) d) := by
  rw [cross_term g zr cr, norm_term g fun c => ∑ d, cr c d * cr c d, Finset.mul_sum, ← Finset.sum_sub_distrib,
    ← Finset.sum_add_distrib]
  refine Finset.sum_congr rfl fun i _ => ?_
  rw [Finset.mul_sum, ← Finset.sum_sub_distrib, ← Finset.sum_add_distrib]
  refine Finset.sum_congr rfl fun d _ => ?_
  ring

end RealIdentity

/-! ## Real numbers read in the extended reals -/

/-- A finite sum of real numbers, read in the extended reals, is the sum of the readings. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, EReal.coe_add, ih]

private theorem ite_coe_zero (p : Prop) [Decidable p] (a : ℝ) :
    (if p then ((a : ℝ) : EReal) else 0) = ((if p then a else 0 : ℝ) : EReal) := by
  split <;> simp

private theorem ite_one_zero (p : Prop) [Decidable p] :
    (if p then (1 : EReal) else 0) = ((if p then 1 else 0 : ℝ) : EReal) := by
  split <;> simp

private theorem two_coe : (2 : EReal) = ((2 : ℝ) : EReal) := by
  norm_cast

/-! ## The compact sums -/

variable {y : SY.Idx → BitVec 32} (z : SZ.Idx → EReal)

theorem comp_eq (hy : InRange y) (hz : ∀ i, IsReal (z i)) (cc : Fin 40 → Fin 128 → EReal)
    (hcc : ∀ c d, IsReal (cc c d)) :
    compSumK (lane0 (sqAcc z)) cc (sumsR z y) (cntR y) = compSumR z y cc := by
  choose zr hzr using hz
  choose cr hcr using hcc
  obtain rfl : z = fun i => (zr i : EReal) := funext hzr
  obtain rfl : cc = fun c d => (cr c d : EReal) := funext fun c => funext fun d => hcr c d
  have hL : lane0 (sqAcc (fun i => (zr i : EReal)))
      = zero32 + ∑ i : Fin 262144, sqK (fun i => (zr i : EReal)) i := lane0_overTiles _
  rw [hL]
  unfold compSumK compSumR sumsR cntR c2small sqK
  simp only [toInt_eq_iff hy, zero32_eq, one32_eq, two32_eq, zero_add]
  simp only [ite_coe_zero, ite_one_zero, two_coe, ← EReal.coe_mul, ← EReal.coe_sub, ← EReal.coe_add, coe_sum]
  rw [EReal.coe_eq_coe_iff]
  exact compact_real (gidx y) (fun i d => zr (ix2 i d)) cr

end Cert.Spec

end
-- ==== Proof.BridgeMarg.lean ====
/-
  The margin sums agree.  Row by row the kernel takes the minimum over 128 lanes of SQUARED distances, the 88 padding
  lanes and the row's own class masked by +∞, and then one square root; the reference takes the square root of each of
  the 40 distances, masks the own class by +∞ and then the minimum.  The square root is monotone on [0, +∞] and fixes
  +∞, so it commutes with the minimum; the padding lanes add only +∞ to a minimum that starts from +∞; on the 40 real
  lanes the two Gram expansions are the same expression of the same entries.
-/
import proofs.«401768_j5746666242188_3_alg».proof.Proof.BridgeBase
import Mathlib.Data.Finset.Fold

noncomputable section

namespace Cert.Spec

open Idealize.ShloMosaic Idealize.ShloMosaic.ValueIdx

/-! ## The square root and the minimum -/

/-- The square root is monotone on the whole extended real line: below zero it is ⊥, on [0, +∞) it is the real
    square root, and +∞ goes to +∞. -/
private theorem sqrt_mono : Monotone Ideal.sqrt := by
  intro x y hxy
  induction x using EReal.rec with
  | bot => exact bot_le
  | top =>
    have hy : y = ⊤ := top_le_iff.mp hxy
    rw [hy]
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]
        exact bot_le
      · have hs : ¬ s < 0 := fun hs => hr (lt_of_le_of_lt hrs hs)
        rw [if_neg hr, if_neg hs]
        exact EReal.coe_le_coe_iff.mpr (Real.sqrt_le_sqrt hrs)

/-- The square root of a minimum that starts from +∞ is the minimum, from +∞, of the square roots. -/
private theorem sqrt_fold_min (g : Fin 128 → EReal) :
    Ideal.sqrt ((Finset.univ : Finset (Fin 128)).fold min ⊤ g)
      = (Finset.univ : Finset (Fin 128)).fold min ⊤ fun l => Ideal.sqrt (g l) := by
  have h := Finset.fold_hom (op := min) (op' := min) (s := (Finset.univ : Finset (Fin 128))) (b := (⊤ : EReal))
    (f := g) (m := Ideal.sqrt) (fun a b => sqrt_mono.map_min)
  rw [Ideal.sqrt_top] at h
  exact h.symm

/-- A minimum from +∞ over 128 lanes whose lanes from 40 on hold +∞ is the minimum over the first 40 lanes: both
    sides have the same lower bounds. -/
private theorem fold_min_pad (g : Fin 128 → EReal) (hg : ∀ l : Fin 128, 40 ≤ l.val → g l = ⊤) :
    (Finset.univ : Finset (Fin 128)).fold min ⊤ g
      = (Finset.univ : Finset (Fin 40)).fold min ⊤ fun c => g ⟨c.val, by omega⟩ := by
  refine eq_of_forall_le_iff fun b => ?_
  rw [Finset.le_fold_min, Finset.le_fold_min]
  constructor
  · rintro ⟨h0, h⟩
    exact ⟨h0, fun c _ => h _ (Finset.mem_univ _)⟩
  · rintro ⟨h0, h⟩
    refine ⟨h0, fun l _ => ?_⟩
    by_cases hl : l.val < 40
    · exact h ⟨l.val, hl⟩ (Finset.mem_univ _)
    · rw [hg l (by omega)]
      exact le_top

/-! ## The mask, lane by lane -/

private theorem slt_lane_lt : ∀ l : Fin 128, l.val < 40 → IntOp.cmpi .slt (BitVec.ofNat 32 l.val) 40#32 = 1#1 := by
  decide

private theorem slt_lane_ge : ∀ l : Fin 128, 40 ≤ l.val → IntOp.cmpi .slt (BitVec.ofNat 32 l.val) 40#32 = 0#1 := by
  decide

/-- On a padding lane the mask is set. -/
private theorem maskK_pad (v : BitVec 32) (l : Fin 128) (h : 40 ≤ l.val) : maskK v l = 1#1 := by
  unfold maskK
  rw [slt_lane_ge l h]
  rcases BitVec.eq_zero_or_eq_one (IntOp.cmpi .eq v (BitVec.ofNat 32 l.val)) with e | e <;> rw [e] <;> decide

/-- On a class lane the mask is the own-class bit. -/
private theorem maskK_lt (v : BitVec 32) (l : Fin 128) (h : l.val < 40) :
    maskK v l = IntOp.cmpi .eq v (BitVec.ofNat 32 l.val) := by
  unfold maskK
  rw [slt_lane_lt l h]
  rcases BitVec.eq_zero_or_eq_one (IntOp.cmpi .eq v (BitVec.ofNat 32 l.val)) with e | e <;> rw [e] <;> decide

variable {y : SY.Idx → BitVec 32} (z : SZ.Idx → EReal)

/-! ## The squared distance on a class lane -/

/-- On class lane c the kernel's clamped Gram expansion over the padded operands is the reference's. -/
private theorem d2K_lt (cc : Fin 40 → Fin 128 → EReal) (i : Fin 262144) (c : Fin 40) :
    d2K z (ctOf cc) (c2Of cc) i (⟨c.val, by omega⟩ : Fin 128)
      = max ((sqR z i + c2small cc c) - two32 * ∑ k : Fin 128, z (ix2 i k) * cc c k) zero32 := by
  have hc : (⟨c.val, by omega⟩ : Fin 128).val < 40 := c.isLt
  have hp : ∀ d : Fin 128, cpad cc (⟨c.val, by omega⟩ : Fin 128) d = cc c d := fun d => by
    unfold cpad
    rw [dif_pos hc]
  have h2 : c2Of cc (ix2 (0 : Fin 1) (⟨c.val, by omega⟩ : Fin 128)) = c2small cc c := by
    show zero32 + ∑ d : Fin 128, cpad cc (⟨c.val, by omega⟩ : Fin 128) d * cpad cc (⟨c.val, by omega⟩ : Fin 128) d
      = zero32 + ∑ d : Fin 128, cc c d * cc c d
    simp only [hp]
  have hd : dotK z (ctOf cc) i (⟨c.val, by omega⟩ : Fin 128) = ∑ k : Fin 128, z (ix2 i k) * cc c k := by
    show ∑ k : Fin 128, z (ix2 i k) * cpad cc (⟨c.val, by omega⟩ : Fin 128) k = ∑ k : Fin 128, z (ix2 i k) * cc c k
    simp only [hp]
  unfold d2K
  rw [h2, hd, sqR_eq]

/-- One class lane: the square root of the kernel's masked squared distance is the reference's masked distance. -/
private theorem lane_lt (hy : InRange y) (cc : Fin 40 → Fin 128 → EReal) (i : Fin 262144) (c : Fin 40) :
    Ideal.sqrt (Scalar.select (maskK (lab (ycOf y) i) (⟨c.val, by omega⟩ : Fin 128)) ⊤
        (d2K z (ctOf cc) (c2Of cc) i (⟨c.val, by omega⟩ : Fin 128)))
      = Scalar.select (IntOp.cmpi .eq (y (ix1 i)) (BitVec.ofNat 32 c.val)) inf32 (distR z cc i c) := by
  rw [maskK_lt _ _ c.isLt, lab_ycOf hy, inf32_eq, d2K_lt]
  unfold Scalar.select
  split_ifs
  · exact Ideal.sqrt_top
  · rfl

/-- One padding lane holds +∞, before and after the square root. -/
private theorem lane_pad (v : BitVec 32) (x : EReal) (l : Fin 128) (h : 40 ≤ l.val) :
    Ideal.sqrt (Scalar.select (maskK v l) ⊤ x) = ⊤ := by
  have hsel : Scalar.select (1#1 : BitVec 1) (⊤ : EReal) x = ⊤ := by
    unfold Scalar.select
    exact if_pos (by decide)
  rw [maskK_pad v l h, hsel]
  exact Ideal.sqrt_top

/-! ## One row, and the sum -/

/-- The square root of the kernel's class minimum of squared distances is the reference's class minimum of
    distances. -/
private theorem sqrt_minK (hy : InRange y) (cc : Fin 40 → Fin 128 → EReal) (i : Fin 262144) :
    Ideal.sqrt (minK z (ycOf y) (ctOf cc) (c2Of cc) i) = minR z y cc i := by
  unfold minK minR
  rw [inf32_eq, sqrt_fold_min, fold_min_pad _ (fun l h => lane_pad _ _ l h)]
  refine congrArg (Finset.fold min ⊤ · Finset.univ) (funext fun c => ?_)
  rw [lane_lt z hy cc i c, inf32_eq]

theorem marg_eq (hy : InRange y) (cc : Fin 40 → Fin 128 → EReal) (mg : SK.Idx → EReal) :
    lane0 (marginAcc z (ycOf y) (ctOf cc) (c2Of cc) (padTab mg)) = margSumR z y cc mg := by
  unfold marginAcc margSumR
  rw [lane0_overTiles]
  refine congrArg (zero32 + ·) (Finset.sum_congr rfl fun i _ => ?_)
  unfold marginRowK
  rw [pickK_eq hy, sqrt_minK z hy]

end Cert.Spec

end
-- ==== Proof.Bridge.lean ====
/-
  The two sides compute one number: with labels in the class range and real inputs, the kernel's two-pass value and
  the reference's value of the loss are equal, sum by sum (radial, compact, margin), through equal class sums, counts
  and updated centres.
-/
import proofs.«401768_j5746666242188_3_alg».proof.Proof.BridgeCent
import proofs.«401768_j5746666242188_3_alg».proof.Proof.BridgeRad
import proofs.«401768_j5746666242188_3_alg».proof.Proof.BridgeComp
import proofs.«401768_j5746666242188_3_alg».proof.Proof.BridgeMarg

noncomputable section

namespace Cert.Spec

open Idealize.ShloMosaic Idealize.ShloMosaic.ValueIdx

theorem total_eq (z : SZ.Idx → EReal) (y : SY.Idx → BitVec 32) (ctr : SC.Idx → EReal) (ini : SK.Idx → BitVec 1)
    (tr mg : SK.Idx → EReal) (hy : InRange y) (hz : ∀ i, IsReal (z i)) (hc : ∀ i, IsReal (ctr i)) :
    kernelTotal z y ctr ini tr mg = refTotal z y ctr ini tr mg := by
  unfold kernelTotal refTotal
  simp only []
  rw [sumsK_eq z hy, cntK_eq hy, rad_eq z hy tr,
    comp_eq z hy hz _ (fun c d => cUpd_real z hz ctr hc ini c d), marg_eq z hy _ mg]

end Cert.Spec

end
-- ==== Proof.PreDecode.lean ====
/-
  The precondition, decoded: the printed predicate is the conjunction of "every entry of z, of the centres, of the radii
  and of the margins has absolute value below +∞" (so each is a real number) and "every label is at least 0 and below 40,
  compared as signed integers".  Each all-reduction of a one-bit mask equals one exactly when every entry is one.
-/
import proofs.«401768_j5746666242188_3_alg».proof.Pre_finite_inputs
import proofs.«401768_j5746666242188_3_alg».proof.Proof.Gen.Pre_finite_inputs
import proofs.«401768_j5746666242188_3_alg».proof.Proof.BridgeBase
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreFacts

open Cert.Pre_finite_inputs Cert.Spec

/-- The shape of rank 0 has one index. -/
private instance : Subsingleton S_.Idx := ⟨fun a b => funext fun d => d.elim0⟩

/-- An extended real whose absolute value max x (−x) is strictly below +∞ is a real number: at −∞ and at +∞ the
    absolute value is +∞, which is not below itself. -/
private theorem isReal_of_abs_lt (x : EReal)
    (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- A word at least 0 and below 40, both compared as signed words, lies in [0, 40) read as a signed integer. -/
private theorem range_of_cmp (w : BitVec 32)
    (h : IntOp.andi (IntOp.cmpi .sge w 0#32) (IntOp.cmpi .slt w 40#32) = 1#1) : 0 ≤ w.toInt ∧ w.toInt < 40 := by
  obtain ⟨h0, h1⟩ := IntOp.andi_eq_one.1 h
  unfold IntOp.cmpi at h0 h1
  rw [StableHlo.Predicate.ofBool_eq_one_iff] at h0 h1
  rw [BitVec.sle_iff_toInt_le] at h0
  rw [BitVec.slt_iff_toInt_lt] at h1
  exact ⟨by simpa using h0, by simpa using h1⟩

theorem of_fn [Cert.Pre_finite_inputs.Facts] (a0 : FVec Ideal S262144x128 .f32) (a1 : IVec S262144 32)
    (a2 : FVec Ideal S40x128 .f32) (a3 : IVec S40 1) (a4 a5 : FVec Ideal S40 .f32)
    (h : Cert.Pre_finite_inputs.fn (F := Ideal) a0 a1 a2 a3 a4 a5 = fun _ => 1#1) :
    (∀ i, IsReal (a0 i)) ∧ (∀ i, IsReal (a2 i)) ∧ (∀ i, IsReal (a4 i)) ∧ (∀ i, IsReal (a5 i)) ∧ InRange a1 := by
  -- the predicate's one value, at the one index of its rank-0 result
  have e := congrFun h ValueIdx.ix0
  dsimp only [fn, fn_part1] at e
  -- a conjunction of five all-reductions, each equal to one
  simp only [andi, IntOp.andi_eq_one] at e
  obtain ⟨⟨⟨⟨h0, h2⟩, h4⟩, h5⟩, hy⟩ := e
  -- an all-reduction equal to one has a one at every entry; each entry is the comparison the two lemmas above read
  refine ⟨fun i => ?_, fun i => ?_, fun i => ?_, fun i => ?_, fun i => ?_⟩
  · exact isReal_of_abs_lt _ (Host.reduce_andi_all _ _ _ _ _ h0 i)
  · exact isReal_of_abs_lt _ (Host.reduce_andi_all _ _ _ _ _ h2 i)
  · exact isReal_of_abs_lt _ (Host.reduce_andi_all _ _ _ _ _ h4 i)
  · exact isReal_of_abs_lt _ (Host.reduce_andi_all _ _ _ _ _ h5 i)
  · exact range_of_cmp _ (Host.reduce_andi_all _ _ _ _ _ hy i)

end Cert.PreFacts

end
-- ==== Proof.lean ====
/-
  The certificate of a two-pass clustering loss against its whole-array reference, over the extended reals.

  The loss of 262144 embedded rows z (128 coordinates), their labels y in 40 classes, a centre table, its
  initialisation flags, per-class radii and margins is
      1·(R / B) + ½·(C / B) + 1·(M / B),
  R the sum of smooth-L1(‖zᵢ‖ − radius[yᵢ]), C the sum of ‖zᵢ − c[yᵢ]‖², M the sum of max(margin[yᵢ] − min_{k≠yᵢ}‖zᵢ − c[k]‖, 0),
  with c the centres after one moving-average step by the class means of z.

  The kernel sweeps the rows twice (2 cores × 32 tiles × 4096 rows).  Pass 1 accumulates the class sums as a one-hot matrix
  product, the class counts, R, and Σ‖z‖²; the host forms c and the compact sum in closed form
      Σ‖z‖² − 2 Σ_k c[k]·sums[k] + Σ_k count[k]·‖c[k]‖²
  (the square expanded and the rows grouped by class: the one step that distributes a product over a sum, so it needs every
  entry finite); pass 2 takes, per row, the minimum over 128 lanes of the squared distances, the own class and the 88 padding
  lanes held at +∞, and one square root, which commutes with the minimum because it is monotone on [0, +∞] and fixes +∞.
  The finite stand-in the kernel writes for that +∞ is read as +∞ itself (the one named constant).

  The claim holds where the labels lie in the class range: outside it the reference's gathers read out of range and its
  scatter drops the row while the kernel clips the label, and the two results differ.

  Modules: Spec (both sides' values written out), KRun (the kernel program's run with its result named), Pieces / R0Tile /
  R1Tile / R0Value / R1Value (the two passes read as values), KHost (the host operations around them), RefCent / RefRad /
  RefComp / RefMarg / RefValue (the reference's run read as a value), BridgeBase … Bridge (the two values are equal),
  PreDecode (the precondition as facts about the inputs).
-/
import proofs.«401768_j5746666242188_3_alg».proof.Defs
import proofs.«401768_j5746666242188_3_alg».proof.Proof.Gen.Kernel
import proofs.«401768_j5746666242188_3_alg».proof.Proof.Gen.Kernel.Frame
import proofs.«401768_j5746666242188_3_alg».proof.Proof.Gen.KernelIdeal
import proofs.«401768_j5746666242188_3_alg».proof.Proof.Gen.KernelIdeal.Frame
import proofs.«401768_j5746666242188_3_alg».proof.Proof.Gen.ReferenceIdeal
import proofs.«401768_j5746666242188_3_alg».proof.Proof.Gen.Pre_finite_inputs
import proofs.«401768_j5746666242188_3_alg».proof.Proof.KRun
import proofs.«401768_j5746666242188_3_alg».proof.Proof.KHost
import proofs.«401768_j5746666242188_3_alg».proof.Proof.RefValue
import proofs.«401768_j5746666242188_3_alg».proof.Proof.Bridge
import proofs.«401768_j5746666242188_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The one rewrite of the idealization: the mask fill 1e30 is named +∞. -/
theorem preserves : Cert.preserves_Kernel_KernelIdeal :=
  IdealRules.named_const.statement Cert.KernelIdeal.κ "pos_big" .f32 0x7149F2CA#32 ⊤ rfl

/-- Both programs end at one number: the kernel's result buffer holds its side's value of the loss, the reference's its
    own, and under the precondition (real inputs, labels in the class range) the two values are equal. -/
theorem algebraic : Cert.algebraic_KernelIdeal_ReferenceIdeal := by
  intro m ρ m' ρ' hpre hagree
  refine ⟨fun c => fun _ => Cert.Spec.kernelTotal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Host.result m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.RefValue.run m' ρ')
    obtain ⟨hz, hc, _, _, hy⟩ := Cert.PreFacts.of_fn _ _ _ _ _ _ (hpre c)
    rw [(hagree c).1, (hagree c).2.1, (hagree c).2.2.1, (hagree c).2.2.2.1, (hagree c).2.2.2.2.1, (hagree c).2.2.2.2.2]
    exact funext fun _ => (Cert.Spec.total_eq _ _ _ _ _ _ hy hz hc).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
